-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x8192 : Shape := ⟨2, ![512, 8192]⟩
abbrev S8192x8192 : Shape := ⟨2, ![8192, 8192]⟩
abbrev S512x128 : Shape := ⟨2, ![512, 128]⟩
abbrev S_ : Shape := ⟨0, ![]⟩
abbrev S8192 : Shape := ⟨1, ![8192]⟩

class Facts : Prop where
  bcast_S_S512x8192 : S_.BroadcastsInDim S512x8192 (![] : Fin 0 → Fin S512x8192.rank)
  reducesTo_S512x8192_S_d0_1 : S512x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x128 : S_.BroadcastsInDim S512x128 (![] : Fin 0 → Fin S512x128.rank)
  reducesTo_S512x128_S_d0_1 : S512x128.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg1 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x00000000#32
  let main_v22 : FVec F S8192 .f32 := broadcastInDim S8192 ![] bcast_S_S8192 main_cst_6
  let main_v23 : IVec S8192 1 := cmpf .ogt main_v21 main_v22
  let main_c_7 : IVec S_ 1 := constantI S_ 1 1#1
  let main_v24 : IVec S_ 1 := (fun x v => Host.reduce IntOp.andi x v reducesTo_S8192_S_d0 h_S_) main_v23 main_c_7
  let main_v25 : IVec S_ 1 := andi main_v13 main_v24
  main_v25

def fn {F : FTy → Type} [FloatOps F] (main_arg0 : FVec F S512x8192 .f32) (main_arg1 : FVec F S8192x8192 .f32) (main_arg2 : FVec F S512x128 .f32) : IVec S_ 1 :=
  let main_v0 : FVec F S512x8192 .f32 := Host.absf main_arg0
  let main_cst : FVec F S_ .f32 := constant S_ .f32 0x7F800000#32
  let main_v1 : FVec F S512x8192 .f32 := broadcastInDim S512x8192 ![] bcast_S_S512x8192 main_cst
  let main_v2 : IVec S512x8192 1 := cmpf .olt main_v0 main_v1
  let main_c : IVec S_ 1 := constantI S_ 1 1#1
  let main_v3 : IVec S_ 1 := (fun x v => Host.reduce IntOp.andi x v reducesTo_S512x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg1 main_v13 main_v14 main_v15 main_v16
-- ==== Kernel.lean ====
abbrev S512x8192 : Shape := ⟨2, ![512, 8192]⟩
abbrev S8192x8192 : Shape := ⟨2, ![8192, 8192]⟩
abbrev S512x128 : Shape := ⟨2, ![512, 128]⟩
abbrev S128x8192 : Shape := ⟨2, ![128, 8192]⟩
abbrev S512x1024 : Shape := ⟨2, ![512, 1024]⟩
abbrev S128x1024 : Shape := ⟨2, ![128, 1024]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S1x8192 : Shape := ⟨2, ![1, 8192]⟩
abbrev S1x1024 : Shape := ⟨2, ![1, 1024]⟩

abbrev nBuf : Space → Nat
  | .hbm => 12
  | .vmem => 25
  | .smem => 0
  | _ => 0

abbrev bufTy : (tb : Table) → Fin (tcTables nBuf tb) → BufTy
  | .hbm, ⟨0, _⟩ => ⟨S512x8192, .f32⟩
  | .hbm, ⟨1, _⟩ => ⟨S8192x8192, .f32⟩
  | .hbm, ⟨2, _⟩ => ⟨S512x128, .f32⟩
  | .hbm, ⟨3, _⟩ => ⟨S128x8192, .f32⟩
  | .hbm, ⟨4, _⟩ => ⟨S8192x1, .f32⟩
  | .hbm, ⟨5, _⟩ => ⟨S_, .f32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S128x8192, .f32⟩
  | .local _ .vmem, ⟨0, _⟩ => ⟨S512x128, .f32⟩
  | .local _ .vmem, ⟨1, _⟩ => ⟨S512x1024, .f32⟩
  | .local _ .vmem, ⟨2, _⟩ => ⟨S512x1024, .f32⟩
  | .local _ .vmem, ⟨3, _⟩ => ⟨S128x1024, .f32⟩
  | .local _ .vmem, ⟨4, _⟩ => ⟨S128x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | .local _ .vmem, ⟨11, _⟩ => ⟨S1024x1024, .f32⟩
  | .local _ .vmem, ⟨12, _⟩ => ⟨S128x1024, .f32⟩
  | .local _ .vmem, ⟨13, _⟩ => ⟨S128x1024, .f32⟩
  | .local _ .vmem, ⟨14, _⟩ => ⟨S1024x1, .f32⟩
  | .local _ .vmem, ⟨15, _⟩ => ⟨S1024x1, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x1024, .f32⟩
  | .local _ .vmem, ⟨21, _⟩ => ⟨S1024x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc2_scratch0 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_6 : BitVec 32 := 0#32
  let v13 : BitVec 1 := Scalar.cmpi .ne v12 c0_i32_6
  v13

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_17 : BitVec 32 := 0#32
  let v43 : BitVec 1 := Scalar.cmpi .ne v42 c0_i32_17
  v43

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S128x1024_S128x1024_0_0 : ∀ a, (![0, 0] : Fin 2 → Nat) a + S128x1024.size a ≤ S128x1024.size a
  h_S128x1024 : 0 < S128x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  transposes_S8192x1_S1x8192_1_0 : S8192x1.Transposes [1, 0] S1x8192
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  broadcasts_S1x1024_S128x1024 : S1x1024.Broadcasts S128x1024
  dot_S512x128_S512x1024_S128x1024_0_0_1_1_n_n_wf : DotDims.WF S512x128 S512x1024 S128x1024 [0] [0] [1] [1] [] []
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x128.size a
  hwx0_0 : ∀ i : grid0.Coords, EltTy.bits .f32 = 32 ∨ (Rect.block (s := S512x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x8192.size a
  hwx0_1 : ∀ i : grid0.Coords, EltTy.bits .f32 = 32 ∨ (Rect.block (s := S512x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x8192.size a
  hwx0_2 : ∀ i : grid0.Coords, EltTy.bits .f32 = 32 ∨ (Rect.block (s := S128x8192) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1024.size a ≤ S128x8192.size a
  hwx2_1 : ∀ i : grid2.Coords, EltTy.bits .f32 = 32 ∨ (Rect.block (s := S128x8192) S128x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x8192.size a
  hwx2_4 : ∀ i : grid2.Coords, EltTy.bits .f32 = 32 ∨ (Rect.block (s := S1x8192) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1024.size a ≤ S8192x8192.size a
  hwx2_5 : ∀ i : grid2.Coords, EltTy.bits .f32 = 32 ∨ (Rect.block (s := S8192x8192) S1024x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x1024.size a ≤ S128x8192.size a
  hwx2_6 : ∀ i : grid2.Coords, EltTy.bits .f32 = 32 ∨ (Rect.block (s := S128x8192) S128x1024.size (cc2_transform_6 i) (hinb2_6 i)).WholeWords (EltTy.packing .f32)

variable [Facts₀]

def dot_S512x128_S512x1024_S128x1024_0_0_1_1_n_n : DotDims S512x128 S512x1024 S128x1024 where
  lhsContracting := [0]
  rhsContracting := [0]
  lhsNonContracting := [1]
  rhsNonContracting := [1]
  lhsBatch := []
  rhsBatch := []
  wf := dot_S512x128_S512x1024_S128x1024_0_0_1_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg2) S512x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev idle1 : Fin 2 → grid1.Coords → Bool := fun | 0 => fun _ => false | 1 => fun i => !(k1_cond2 i == 1#1) | ⟨_ + 2, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S128x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1x1024.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_0) S1024x1024.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v6_1) S128x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S512x8192 : Shape := ⟨2, ![512, 8192]⟩
abbrev S8192x8192 : Shape := ⟨2, ![8192, 8192]⟩
abbrev S512x128 : Shape := ⟨2, ![512, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S128x8192 : Shape := ⟨2, ![128, 8192]⟩

abbrev nBuf : Space → Nat
  | .hbm => 25
  | .vmem => 0
  | .smem => 0
  | _ => 0

abbrev bufTy : (tb : Table) → Fin (tcTables nBuf tb) → BufTy
  | .hbm, ⟨0, _⟩ => ⟨S512x8192, .f32⟩
  | .hbm, ⟨1, _⟩ => ⟨S8192x8192, .f32⟩
  | .hbm, ⟨2, _⟩ => ⟨S512x128, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S128x8192, .f32⟩
  | .hbm, ⟨21, _⟩ => ⟨S128x8192, .f32⟩
  | .hbm, ⟨22, _⟩ => ⟨S_, .f32⟩
  | .hbm, ⟨23, _⟩ => ⟨S128x8192, .f32⟩
  | .hbm, ⟨24, _⟩ => ⟨S128x8192, .f32⟩
  | _, _ => ⟨S512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S128x8192 : S_.BroadcastsInDim S128x8192 (![] : Fin 0 → Fin S128x8192.rank)
  dot_S512x128_S512x8192_S128x8192_0_0_1_1_n_n_wf : DotDims.WF S512x128 S512x8192 S128x8192 [0] [0] [1] [1] [] []
  dot_S128x8192_S8192x8192_S128x8192_1_0_0_1_n_n_wf : DotDims.WF S128x8192 S8192x8192 S128x8192 [1] [0] [0] [1] [] []

variable [Facts₀]

def dot_S512x128_S512x8192_S128x8192_0_0_1_1_n_n : DotDims S512x128 S512x8192 S128x8192 where
  lhsContracting := [0]
  rhsContracting := [0]
  lhsNonContracting := [1]
  rhsNonContracting := [1]
  lhsBatch := []
  rhsBatch := []
  wf := dot_S512x128_S512x8192_S128x8192_0_0_1_1_n_n_wf
def dot_S128x8192_S8192x8192_S128x8192_1_0_0_1_n_n : DotDims S128x8192 S8192x8192 S128x8192 where
  lhsContracting := [1]
  rhsContracting := [0]
  lhsNonContracting := [0]
  rhsNonContracting := [1]
  lhsBatch := []
  rhsBatch := []
  wf := dot_S128x8192_S8192x8192_S128x8192_1_0_0_1_n_n_wf

class Facts : Prop extends Facts₀ where

variable [Facts]
-- ==== Proof.K.Data.lean ====
/-
  The proof data of the three kernel regions, at any float instance.

  Region 0 multiplies the weight block (transposed) by a column tile of the inputs: one store per point.
  Region 1 sums the rows of the adjacency matrix tile by tile: a column accumulator carried across the eight
  column tiles of a row tile, reset at the first and written out at the last.
  Region 2 scales a tile of (adj + I) by the inverse square roots of the row and column degrees, writes it
  out, and accumulates (x * d_row) times the unscaled tile over the eight row tiles of a column tile; the
  accumulator is reset at the first row tile, and at the last it is scaled by the column degrees, clamped at
  zero and written out.

  Every definition here is over the region's entry contents `V` (what the core's buffers hold when the region
  is entered), so that the run can instantiate each region at the contents the items before it leave.
-/
import proofs.«159752_j43112881717764_1_alg».proof.Proof.Gen.Kernel.Launch
import proofs.«159752_j43112881717764_1_alg».proof.Proof.Gen.Kernel.Skeleton
import proofs.«159752_j43112881717764_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-! ## The windows' blocks, read off the arrays as the region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Region 0: the product tile -/

/-- The product tile at point `t`: the body's one payload of the weight block and the inputs' tile. -/
def prod0 (c : Dev nD) (t : Fin cfg0.N) : Vec F S128x1024 .f32 :=
  k0_pay1 (iblk0 V c 0 t) (iblk0 V c 1 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 V c t
  Φ _ := Pipeline.ΦA spec0 c
  q _ := fullShare
  owed _ := 0

/-! ## Region 1: the row sums, accumulated over the column tiles -/

/-- The accumulator after point `n`: the row sums of the point's tile added to what the point before left, or to
    zero at the first column tile of a row tile. -/
def acc1 (c : Dev nD) : (n : ℕ) → n < cfg1.N → Vec F S1024x1 .f32
  | 0, h => k1_pay2 (k1_pay1 (F := F)) (iblk1 V c 0 ⟨0, h⟩)
  | n + 1, h =>
    if (n + 1) % 8 = 0 then k1_pay2 (k1_pay1 (F := F)) (iblk1 V c 0 ⟨n + 1, h⟩)
    else k1_pay2 (acc1 c n (Nat.lt_of_succ_lt h)) (iblk1 V c 0 ⟨n + 1, h⟩)

/-- The accumulator's memref. -/
abbrev scr1 : Memref sig .tc .vmem S1024x1 .f32 := Memref.whole cc1_scratch0

/-- What is left of the class invariant once the accumulator is taken out of it: given the accumulator back, at
    anything, it is the class invariant again. -/
def Rest1 (c : Dev nD) : sProp 𝕄 :=
  iprop((∃ X, owns (c : Thread nD τ) (scr1) fullShare X) -∗ Pipeline.ΦA (U := UR sig nD τ) (Val := Elt F) spec1 c)

/-- The invariant before position `n`: before the first point the class's (the accumulator at anything); afterwards
    the accumulator at what the point before left in it, beside the rest. -/
def Phi1 (c : Dev nD) : (n : ℕ) → n ≤ cfg1.N → sProp 𝕄
  | 0, _ => Pipeline.ΦA spec1 c
  | n + 1, hn => iprop(owns (c : Thread nD τ) scr1 fullShare (acc1 V c n hn) ∗ Rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := Phi1 V c t.val (Nat.le_of_lt_succ t.isLt)
  q _ := fullShare
  owed _ := 0

/-! ## Region 2: the scaled tile, and the product accumulated over the row tiles -/

/-- The accumulator after point `n`: the point's product tile added to what the point before left, or to zero at
    the first row tile of a column tile. -/
def acc2 (c : Dev nD) : (n : ℕ) → n < cfg2.N → Vec F S128x1024 .f32
  | 0, h => k2_pay1 (k2_pay7 (grid2.coords ⟨0, h⟩) (iblk2 V c 3 ⟨0, h⟩) (iblk2 V c 0 ⟨0, h⟩) (iblk2 V c 1 ⟨0, h⟩)) (k2_pay3 (F := F))
  | n + 1, h =>
    if (n + 1) % 8 = 0 then
      k2_pay1 (k2_pay7 (grid2.coords ⟨n + 1, h⟩) (iblk2 V c 3 ⟨n + 1, h⟩) (iblk2 V c 0 ⟨n + 1, h⟩) (iblk2 V c 1 ⟨n + 1, h⟩)) (k2_pay3 (F := F))
    else
      k2_pay1 (k2_pay7 (grid2.coords ⟨n + 1, h⟩) (iblk2 V c 3 ⟨n + 1, h⟩) (iblk2 V c 0 ⟨n + 1, h⟩) (iblk2 V c 1 ⟨n + 1, h⟩)) (acc2 c n (Nat.lt_of_succ_lt h))

/-- The scaled tile of (adj + I) at point `t`. -/
def tile2 (c : Dev nD) (t : Fin cfg2.N) : Vec F S1024x1024 .f32 :=
  k2_pay6 (grid2.coords t) (iblk2 V c 2 t) (iblk2 V c 4 t) (iblk2 V c 0 t)

/-- What the last row tile's point writes out: the accumulator scaled by the column degrees, clamped at zero. -/
def fin2 (c : Dev nD) (t : Fin cfg2.N) : Vec F S128x1024 .f32 :=
  k2_pay2 (k2_pay4 (iblk2 V c 4 t)) (acc2 V c t.val t.isLt)

abbrev scr2 : Memref sig .tc .vmem S128x1024 .f32 := Memref.whole cc2_scratch0

def Rest2 (c : Dev nD) : sProp 𝕄 :=
  iprop((∃ X, owns (c : Thread nD τ) (scr2) fullShare X) -∗ Pipeline.ΦA (U := UR sig nD τ) (Val := Elt F) spec2 c)

def Phi2 (c : Dev nD) : (n : ℕ) → n ≤ cfg2.N → sProp 𝕄
  | 0, _ => Pipeline.ΦA spec2 c
  | n + 1, hn => iprop(owns (c : Thread nD τ) scr2 fullShare (acc2 V c n hn) ∗ Rest2 c)

/-- Windows 3 and 4 read one array (the row of inverse square roots, at the row tile and at the column tile): each
    holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => tile2 V c t
    | ⟨6, _⟩ => fin2 V c t
  Φ t := Phi2 V c t.val (Nat.le_of_lt_succ t.isLt)
  q w := match w with
    | ⟨3, _⟩ => fullShare.left
    | ⟨4, _⟩ => fullShare.right
    | _ => fullShare
  owed _ := 0

end Data

end Cert.Kernel.Hand

end
-- ==== Proof.K.Vals.lean ====
/-
  The contents of the core's buffers at each boundary between @main's items, from the launch memory `m`:
  region 0 leaves the product `x` in its result array; region 1 the row sums; the host operations between add one,
  take the inverse square root and transpose; region 2 reads all of these and leaves its two results.
-/
import proofs.«159752_j43112881717764_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

section Vals

variable (m : (ℓ : Loc nD τ sig) → Buf (Elt F) ℓ)

/-- Core `c`'s buffers at launch. -/
abbrev W0 (c : Dev nD) : Valuation τ sig (Elt F) := fun b => m (c, b)
/-- The same read at the TensorCore's references. -/
abbrev V0 : (c : Dev nD) → (b : Ref sig .tc) → Buf (Elt F) ((c : Thread nD τ).loc b) := fun c b => W0 m c b

/-- What region 0 leaves in its result array: its blocks' write-backs folded. -/
def X0 (c : Dev nD) : Buf (Elt F) ((c : Thread nD τ).loc main_v0) := (dat0 (V0 m) c).arrAt 2 cfg0.N

/-- After region 0. -/
def W1 (c : Dev nD) : Valuation τ sig (Elt F) := Function.update (W0 m c) main_v0 (X0 m c)
abbrev V1 : (c : Dev nD) → (b : Ref sig .tc) → Buf (Elt F) ((c : Thread nD τ).loc b) := fun c b => W1 m c b

/-- What region 1 leaves in its result array. -/
def X1 (c : Dev nD) : Buf (Elt F) ((c : Thread nD τ).loc main_v1) := (dat1 (V1 m) c).arrAt 1 cfg1.N

/-- After region 1. -/
def W2 (c : Dev nD) : Valuation τ sig (Elt F) := Function.update (W1 m c) main_v1 (X1 m c)

/-- After the host operations between regions 1 and 2. -/
abbrev W3 (c : Dev nD) : Valuation τ sig (Elt F) := StableHlo.after hostOps2 (W2 m c)
abbrev V3 : (c : Dev nD) → (b : Ref sig .tc) → Buf (Elt F) ((c : Thread nD τ).loc b) := fun c b => W3 m c b

/-- What region 2 leaves in its two result arrays. -/
def X2a (c : Dev nD) : Buf (Elt F) ((c : Thread nD τ).loc main_v6_0) := (dat2 (V3 m) c).arrAt 5 cfg2.N
def X2o (c : Dev nD) : Buf (Elt F) ((c : Thread nD τ).loc main_v6_1) := (dat2 (V3 m) c).arrAt 6 cfg2.N

/-- After region 2: the end of @main. -/
def W4 (c : Dev nD) : Valuation τ sig (Elt F) :=
  Function.update (Function.update (W3 m c) main_v6_0 (X2a m c)) main_v6_1 (X2o m c)

end Vals

end Cert.Kernel.Hand

end
-- ==== Proof.K.Body0.lean ====
/-
  The body obligation of region 0. At every point the body loads the weight block and the inputs' column tile,
  each through the whole of its staging buffer, multiplies them, and overwrites the result's staging buffer with
  the product tile. The two inputs' buffers hold their blocks at every point (the weights' block index never moves),
  the invariant and the core's debts pass through untouched, and the result's buffer, read back after the one
  whole-block store, is the payload itself.
-/
import proofs.«159752_j43112881717764_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

namespace Body0

/-! ## The input windows hold their blocks at every point -/

/-- What the proof data says the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by
  dsimp only [dat0, prod0]

/-- The weights' staging buffer holds the weight block at every point: it is fetched at the first point only, but
    the block index never moves, and the body leaves the buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; dsimp only [dat0]; try rfl) t d).trans
    (by unfold Dat.fetched Dat.blockOf iblk0; dsimp only [dat0]; try rfl)

/-- The inputs' staging buffer holds the point's column tile: it is fetched at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; dsimp only [dat0]; try rfl) t d).trans
    (by unfold Dat.fetched Dat.blockOf iblk0; dsimp only [dat0]; try rfl)

/-! ## The body's triple -/

/-- A rectangle of rank two at the origin has offset zero on each axis. -/
theorem origin2 : (![0, 0] : Fin 2 → Nat) = fun _ => 0 := funext fun a => by revert a; decide

set_option maxHeartbeats 1000000 in
/-- The body on whole staging memrefs, the two inputs' at contents `x0` and `x1` and the result's at anything,
    runs to the continuation with the inputs' as they were and the result's at the product tile of `x0` and `x1`:
    each access is through the whole block, so the loads read the buffers' contents and the one store overwrites the
    result's buffer with its payload. -/
theorem sound_kernel0 (c : Dev nD) (E : Set ℕ) (i : grid0.Coords)
    (arg1 : Memref sig .tc .vmem S512x128 .f32) (harg1 : arg1.IsWhole)
    (arg2 : Memref sig .tc .vmem S512x1024 .f32) (harg2 : arg2.IsWhole)
    (arg3 : Memref sig .tc .vmem S128x1024 .f32) (harg3 : arg3.IsWhole)
    (x0 : Vec F S512x128 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__gemm1_kernel i arg1 harg1 arg2 harg2 arg3 harg3) K := by
  simp only [cc0__gemm1_kernel_eq_skeleton]; unfold cc0__gemm1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y =>
    ⟨_, List.mem_singleton_self _, View.mem_set_unit_zero (S := S128x1024) origin2 Gen.inb_S128x1024_S128x1024_0_0 y⟩)).trans ?_
  rw [View.canon_unit_zero (S := S128x1024) origin2]
  simp only [View.readAt_eq_ld, View.ld_unit_zero (S := S512x128) origin2, View.ld_unit_zero (S := S512x1024) origin2]

/-! ## The body obligation, at a generic point -/

/-- What the body is called with at point `t`: the invariant, the core's debts, and each window's current staging
    buffer whole, at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies at those blocks;
    the invariant and the core's debts are the same before and after, and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Body0

/-- The body obligation of region 0, at every point. -/
theorem body_obligation0 (c : Dev nD) : BodyObligation (dat0 (F := F) V c) (defs₀ (F := F)) Variants.none () Set.univ := fun t => by
  rw [bigSep_W0, bigSep_W0]
  exact Body0.sound_body0 V c t

end Body

end Cert.Kernel.Hand

end
-- ==== Proof.K.Body1.lean ====
/-
  Region 1: the row sums of the adjacency matrix, accumulated over the column tiles.

  Point t of the grid is the pair (row tile, column tile) = (t / 8, t % 8). The body adds the row sums of the
  point's tile into a column accumulator that lives beside the windows: at column tile 0 it first sets the
  accumulator to zero, and at column tile 7 it copies the accumulator into the result block, which is written
  back there and nowhere else. So after point t the accumulator holds the recursion `acc1` read at t: the tile's
  row sums added to zero at a first column tile, and added to what the point before left at any other.

  The region's invariant carries the accumulator from point to point: before the first point it is the class
  invariant (every buffer that is no staging buffer of the region at anything, the accumulator among them);
  afterwards the accumulator at `acc1` of the point before, beside the rest of the class invariant kept as an
  implication (give the accumulator back at anything and the class invariant holds again).
-/
import proofs.«159752_j43112881717764_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

namespace Body1

/-! ## The body's two branch conditions, in closed form over the grid -/

/-- The first branch (the accumulator is set to zero) is taken where the column-tile coordinate is 0. -/
abbrev cond1_0 (i : grid1.Coords) : Prop := (Scalar.cmpi .ne (Scalar.extui (Scalar.cmpi .eq (BitVec.ofNat 32 (i 1).val) 0#32)) 0#32) = 1#1
/-- The second branch (the accumulator is copied out) is taken where the column-tile coordinate is 7. -/
abbrev cond1_1 (i : grid1.Coords) : Prop := k1_cond2 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The adjacency tile's window is live at every point. -/
theorem liveAt1_0 : ∀ t : Fin cfg1.N, cfg1.idle 0 (grid1.coords t) = false := by decide +kernel
/-- The result window is idle at the points whose column tile is not the last, -/
theorem idleAt1_1 : ∀ t : Fin cfg1.N, ¬t.val % 8 = 7 → cfg1.idle 1 (grid1.coords t) = true :=
  (by decide +kernel : ∀ t : Fin grid1.N, ¬t.val % 8 = 7 → cfg1.idle 1 (grid1.coords t) = true)
/-- and is not written back there; -/
theorem noFlush1_1 (t : Fin cfg1.N) (h : ¬t.val % 8 = 7) : (cfg1.win 1).flush t = false := by
  cases hf : (cfg1.win 1).flush t
  · rfl
  · exact absurd ((flush1_1 t).mp hf) h
/-- it is live at the last column tile. -/
theorem liveAt1_1 : ∀ t : Fin cfg1.N, t.val % 8 = 7 → cfg1.idle 1 (grid1.coords t) = false :=
  (by decide +kernel : ∀ t : Fin grid1.N, t.val % 8 = 7 → cfg1.idle 1 (grid1.coords t) = false)

theorem offs0 : (![0, 0] : Fin 2 → Nat) = fun _ => 0 := funext fun a => by fin_cases a <;> rfl

/-- A store of the whole column block covers it, whatever was stored before. -/
theorem cover_col (w : S1024x1.Idx → Elt F .f32) (L : List (View.Piece (Elt F) S1024x1 .f32)) (y : S1024x1.Idx) :
    ∃ p ∈ ((⟨Rect.unit (s := S1024x1) ![0, 0] S1024x1.size Gen.inb_S1024x1_S1024x1_0_0, w⟩ : View.Piece (Elt F) S1024x1 .f32) :: L), y ∈ p.1.set :=
  ⟨_, List.mem_cons_self, View.mem_set_unit_zero (S := S1024x1) offs0 Gen.inb_S1024x1_S1024x1_0_0 y⟩

/-! ## The body on any whole memrefs, case by case -/

section Runs

variable (c : Dev nD) (i : grid1.Coords) (arg2 : Memref sig .tc .vmem S1024x1024 .f32) (harg2 : arg2.IsWhole)
    (arg3 : Memref sig .tc .vmem S1024x1 .f32) (harg3 : arg3.IsWhole) (arg4 : Memref sig .tc .vmem S1024x1 .f32) (harg4 : arg4.IsWhole)

set_option maxHeartbeats 1000000 in
/-- First column tile: whatever the accumulator held, it ends at the tile's row sums added to zero; the result
    buffer is not touched. -/
theorem run1_first (hc0 : cond1_0 i) (hc1 : ¬cond1_1 i) (x0 : Vec F S1024x1024 .f32)
    (E : Set ℕ) (K : PUnit → sProp 𝕄) :
    iprop(owns (c : Thread nD τ) arg2 fullShare x0 ∗ (∃ X, owns (c : Thread nD τ) arg4 fullShare X)
        ∗ (iprop(owns (c : Thread nD τ) arg2 fullShare x0 ∗ owns (c : Thread nD τ) arg4 fullShare (k1_pay2 (k1_pay1 (F := F)) x0)) -∗ K ⟨⟩))
      ⊢ wp frame (wpE (defs₀ (F := F)) Variants.none c none) E (cc1__deg_kernel i arg2 harg2 arg3 harg3 arg4 harg4) K := by
  simp only [cc1__deg_kernel_eq_skeleton]; unfold cc1__deg_kernel_skel
  unfold owns
  iintro ⟨⟨%f0, %hf0, H0⟩, ⟨%X, %fs0, -, HS0⟩, Hk⟩
  obtain rfl := harg2.eq_unread hf0
  sl_exec (disch := first | exact hc0 | exact hc1)
  sl_step
  iapply Hk
  isplitl [H0]
  · iexists _; isplitr; · ipureintro; exact harg2.read_unread _
    iexact H0
  iexists _; isplitr
  swap; · iexact HS0
  ipureintro
  sl_unfold_words
  rw [View.read_writes_eq_canon _ _ _ (cover_col _ _),
    View.canon_cons_unit_zero offs0]
  simp only [View.readCov_unit_zero (S := S1024x1) _ offs0, View.readAt_eq_ld, harg2.read_unread, View.ld_unit_zero (S := S1024x1) offs0,
    View.ld_unit_zero (S := S1024x1024) offs0]

set_option maxHeartbeats 1000000 in
/-- A middle column tile: the accumulator ends at the tile's row sums added to what it held. -/
theorem run1_mid (hc0 : ¬cond1_0 i) (hc1 : ¬cond1_1 i) (x0 : Vec F S1024x1024 .f32) (xs : Vec F S1024x1 .f32)
    (E : Set ℕ) (K : PUnit → sProp 𝕄) :
    iprop(owns (c : Thread nD τ) arg2 fullShare x0 ∗ owns (c : Thread nD τ) arg4 fullShare xs
        ∗ (iprop(owns (c : Thread nD τ) arg2 fullShare x0 ∗ owns (c : Thread nD τ) arg4 fullShare (k1_pay2 xs x0)) -∗ K ⟨⟩))
      ⊢ wp frame (wpE (defs₀ (F := F)) Variants.none c none) E (cc1__deg_kernel i arg2 harg2 arg3 harg3 arg4 harg4) K := by
  simp only [cc1__deg_kernel_eq_skeleton]; unfold cc1__deg_kernel_skel
  unfold owns
  iintro ⟨⟨%f0, %hf0, H0⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  iexists _; isplitr
  swap; · iexact HS0
  ipureintro
  rw [View.read_writes_eq_canon _ _ _ (cover_col _ _),
    View.canon_unit_zero offs0]
  simp only [View.readAt_eq_ld, harg2.read_unread, harg4.read_unread, View.ld_unit_zero (S := S1024x1) offs0,
    View.ld_unit_zero (S := S1024x1024) offs0]

set_option maxHeartbeats 1000000 in
/-- Last column tile: the accumulator ends as at a middle tile, and the result buffer at the same. -/
theorem run1_last (hc0 : ¬cond1_0 i) (hc1 : cond1_1 i) (x0 : Vec F S1024x1024 .f32) (xs : Vec F S1024x1 .f32)
    (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k1_pay2 xs x0)
            ∗ owns (c : Thread nD τ) arg4 fullShare (k1_pay2 xs x0)) -∗ K ⟨⟩))
      ⊢ wp frame (wpE (defs₀ (F := F)) Variants.none c none) E (cc1__deg_kernel i arg2 harg2 arg3 harg3 arg4 harg4) K := by
  simp only [cc1__deg_kernel_eq_skeleton]; unfold cc1__deg_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (cover_col _ _),
      View.canon_unit_zero offs0]
    simp only [View.readCov_unit_zero (S := S1024x1) _ offs0, View.readAt_eq_ld, harg2.read_unread, harg4.read_unread,
      View.ld_unit_zero (S := S1024x1) offs0, View.ld_unit_zero (S := S1024x1024) offs0]
  iexists _; isplitr
  swap; · iexact HS0
  ipureintro
  sl_unfold_words
  rw [View.read_writes_eq_canon _ _ _ (cover_col _ _),
    View.canon_unit_zero offs0]
  simp only [View.readAt_eq_ld, harg2.read_unread, harg4.read_unread, View.ld_unit_zero (S := S1024x1) offs0,
    View.ld_unit_zero (S := S1024x1024) offs0]

end Runs

/-! ## The accumulator's recursion, case by case -/

section Aux

variable (V : (c : Dev nD) → (b : Ref sig .tc) → Buf (Elt F) ((c : Thread nD τ).loc b))

/-- At a first column tile the accumulator is the tile's row sums added to zero. -/
theorem acc1_first (c : Dev nD) (t : Fin cfg1.N) (h0 : t.val % 8 = 0) :
    acc1 V c t.val t.isLt = k1_pay2 (k1_pay1 (F := F)) (iblk1 V c 0 t) := by
  obtain ⟨n, hn⟩ := t
  cases n with
  | zero => rfl
  | succ n => exact (if_pos h0)

/-- At any other it is the tile's row sums added to what the point before left. -/
theorem acc1_later (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) := by
  obtain ⟨n, hn⟩ := t
  cases n with
  | zero => exact absurd (Nat.zero_mod _) h0
  | succ n => exact (if_neg h0)

/-! ## The invariant: the accumulator taken out of the class invariant -/

/-- The class invariant is the accumulator at something, beside the rest: the accumulator is one of the scoped
    buffers that are no staging buffer of this region, and putting it back among the others gives the class
    invariant again. -/
theorem take_scr1 (c : Dev nD) :
    (Pipeline.ΦA spec1 c : sProp 𝕄) ⊢ iprop((∃ X, owns (c : Thread nD τ) scr1 fullShare X) ∗ Rest1 (F := F) c) := by
  unfold Rest1 Pipeline.ΦA
  rw [scopedRest1_eq]
  simp only [scr1, owns_whole]
  iintro ⟨⟨H1, H2, H3, H4, H5, HS, Hr⟩, Hg⟩
  isplitl [HS]; · iexact HS
  iintro HS
  isplitr [Hg]
  swap; · iexact Hg
  isplitl [H1]; · iexact H1
  isplitl [H2]; · iexact H2
  isplitl [H3]; · iexact H3
  isplitl [H4]; · iexact H4
  isplitl [H5]; · iexact H5
  isplitl [HS]; · iexact HS
  iexact Hr

/-- Before a point that is not the first: the accumulator at what the point before left, beside the rest. -/
theorem Phi1_pos (c : Dev nD) (n : ℕ) (h : n ≤ cfg1.N) (hz : n ≠ 0) :
    Phi1 V c n h = iprop(owns (c : Thread nD τ) scr1 fullShare (acc1 V c (n - 1) (by omega)) ∗ Rest1 c) := by
  cases n with
  | zero => exact absurd rfl hz
  | succ n => rfl

/-! ## The body obligation -/

/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := Gen.hstage1_0 ((cfg1.slots t 0).cast Gen.nbuf1_0)
abbrev ms1_1 (t : Fin cfg1.N) : Memref sig .tc .vmem S1024x1 .f32 := win1_1.stage (cfg1.slots t 1)
abbrev hs1_1 (t : Fin cfg1.N) : (ms1_1 t).IsWhole := Gen.hstage1_1 ((cfg1.slots t 1).cast Gen.nbuf1_1)

theorem after1_0 (c : Dev nD) (t : Fin cfg1.N) : (dat1 (F := F) V c).after 0 t = iblk1 V c 0 t := by dsimp only [dat1]
theorem after1_1 (c : Dev nD) (t : Fin cfg1.N) : (dat1 (F := F) V c).after 1 t = acc1 V c t.val t.isLt := by dsimp only [dat1]

/-- The adjacency tile's buffer holds the tile at every point: the window is an input, never idle and uncut, and
    the body leaves its block in place. -/
theorem before1_0 (c : Dev nD) (t : Fin cfg1.N) (d) : (dat1 (F := F) V c).before 0 t d = iblk1 V c 0 t :=
  ((dat1 (F := F) V c).before_in_eq_fetched 0 rfl (fun _ => rfl) (fun _ _ _ => rfl)
    (fun t => by rw [after1_0]; unfold Dat.blockOf iblk1; try rfl) t d).trans
    (by unfold Dat.fetched Dat.blockOf iblk1; try rfl)

theorem Phi1_castSucc (c : Dev nD) (t : Fin cfg1.N) :
    (dat1 (F := F) V c).Φ t.castSucc = Phi1 V c t.val (Nat.le_of_lt t.isLt) := by
  dsimp only [dat1]; simp only [Fin.coe_castSucc]

/-- What the body is called with at point `t`, -/
def bodyPre1 (c : Dev nD) (t : Fin cfg1.N) : sProp 𝕄 :=
  iprop((dat1 (F := F) V c).Φ t.castSucc ∗ (dat1 (F := F) V c).owesAt () t.castSucc
    ∗ (∃ d, owns (c : Thread nD τ) (ms1_0 t) fullShare ((dat1 (F := F) V c).before 0 t d))
    ∗ (∃ d, owns (c : Thread nD τ) (ms1_1 t) fullShare ((dat1 (F := F) V c).before 1 t d)))

/-- and what it returns. -/
def bodyPost1 (c : Dev nD) (t : Fin cfg1.N) : sProp 𝕄 :=
  iprop((dat1 (F := F) V c).Φ t.succ ∗ (dat1 (F := F) V c).owesAt () t.succ
    ∗ (dat1 (F := F) V c).leavesExact 0 t
    ∗ (dat1 (F := F) V c).leavesExact 1 t)

/-- The body at any point. The tile's buffer holds the tile; the point's column tile says which branches are taken;
    the invariant hands the body the accumulator (at anything at the very first point, else at what the point
    before left) and takes it back at this point's value, which is the accumulator's recursion read at the point;
    the result buffer is handed back untouched except at the last column tile, where it receives the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 (F := F) V c).owesAt () t.succ = (dat1 (F := F) V c).owesAt () t.castSucc from rfl]
  rw [show (dat1 (F := F) V c).Φ t.succ = iprop(owns (c : Thread nD τ) scr1 fullShare (acc1 V c t.val t.isLt) ∗ Rest1 c) from rfl]
  rw [show (dat1 (F := F) V c).leavesExact 0 t = owns (c : Thread nD τ) (ms1_0 t) fullShare ((dat1 (F := F) V c).after 0 t) from by
    unfold Dat.leavesExact; rw [liveAt1_0 t], after1_0]
  have hN : t.val < 64 := lt_of_lt_of_eq t.isLt (show cfg1.N = 64 from N_1)
  by_cases h0 : t.val % 8 = 0
  · have h1 : ¬t.val % 8 = 7 := by omega
    rw [Dat.leavesExact_idle (dat1 (F := F) V c) 1 t (idleAt1_1 t h1) (noFlush1_1 t h1)]
    rw [acc1_first V c t h0]
    by_cases hz : t.val = 0
    · rw [Phi1_castSucc V c t, show Phi1 V c t.val (Nat.le_of_lt t.isLt) = Phi1 V c 0 (Nat.zero_le _) from by congr 1]
      rw [show Phi1 V c 0 (Nat.zero_le _) = Pipeline.ΦA spec1 c from rfl]
      iintro ⟨HP, Ho, ⟨%d0, H0⟩, H1⟩
      ihave HP' := take_scr1 (F := F) c $$ HP
      icases HP' with ⟨HS, HR⟩
      iapply (run1_first c (grid1.coords t) (ms1_0 t) (hs1_0 t) (ms1_1 t) (hs1_1 t) scr1 (Memref.isWhole_whole _)
        ((hcond1_0 t).mpr h0) (fun h => h1 ((hcond1_1 t).mp h)) (iblk1 V c 0 t) Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      iexact H1
    · rw [Phi1_castSucc V c t, Phi1_pos V c _ _ hz]
      iintro ⟨⟨HS, HR⟩, Ho, ⟨%d0, H0⟩, H1⟩
      iapply (run1_first c (grid1.coords t) (ms1_0 t) (hs1_0 t) (ms1_1 t) (hs1_1 t) scr1 (Memref.isWhole_whole _)
        ((hcond1_0 t).mpr h0) (fun h => h1 ((hcond1_1 t).mp h)) (iblk1 V c 0 t) Set.univ _)
      isplitl [H0]; · iexact H0
      isplitl [HS]; · iexists _; iexact HS
      iintro ⟨H0, HS⟩
      isplitl [HS HR]
      · isplitl [HS]; · iexact HS
        iexact HR
      isplitl [Ho]; · iexact Ho
      isplitl [H0]; · iexact H0
      iexact H1
  · have hz : t.val ≠ 0 := fun e => h0 (by rw [e])
    rw [acc1_later V c t h0]
    rw [Phi1_castSucc V c t, Phi1_pos V c _ _ hz]
    by_cases h1 : t.val % 8 = 7
    · rw [show (dat1 (F := F) V c).leavesExact 1 t = owns (c : Thread nD τ) (ms1_1 t) fullShare ((dat1 (F := F) V c).after 1 t) from by
        unfold Dat.leavesExact; rw [liveAt1_1 t h1], after1_1, acc1_later V c t h0]
      iintro ⟨⟨HS, HR⟩, Ho, ⟨%d0, H0⟩, H1⟩
      iapply (run1_last c (grid1.coords t) (ms1_0 t) (hs1_0 t) (ms1_1 t) (hs1_1 t) scr1 (Memref.isWhole_whole _)
        (fun h => h0 ((hcond1_0 t).mp h)) ((hcond1_1 t).mpr h1) (iblk1 V c 0 t)
        (acc1 V c (t.val - 1) (Nat.lt_of_le_of_lt (Nat.sub_le _ _) t.isLt)) Set.univ _)
      isplitl [H0]; · iexact H0
      isplitl [H1]; · icases H1 with ⟨%d1, H1⟩; iexists _; iexact H1
      isplitl [HS]; · iexact HS
      iintro ⟨H0, H1, HS⟩
      isplitl [HS HR]
      · isplitl [HS]; · iexact HS
        iexact HR
      isplitl [Ho]; · iexact Ho
      isplitl [H0]; · iexact H0
      iexact H1
    · rw [Dat.leavesExact_idle (dat1 (F := F) V c) 1 t (idleAt1_1 t h1) (noFlush1_1 t h1)]
      iintro ⟨⟨HS, HR⟩, Ho, ⟨%d0, H0⟩, H1⟩
      iapply (run1_mid c (grid1.coords t) (ms1_0 t) (hs1_0 t) (ms1_1 t) (hs1_1 t) scr1 (Memref.isWhole_whole _)
        (fun h => h0 ((hcond1_0 t).mp h)) (fun h => h1 ((hcond1_1 t).mp h)) (iblk1 V c 0 t)
        (acc1 V c (t.val - 1) (Nat.lt_of_le_of_lt (Nat.sub_le _ _) t.isLt)) Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      iexact H1

end Aux

end Body1

section Body

variable (V : (c : Dev nD) → (b : Ref sig .tc) → Buf (Elt F) ((c : Thread nD τ).loc b))

open Body1

/-- What the launch hands the region is the invariant before the first point. -/
theorem hin1 (c : Dev nD) : Pipeline.ΦA spec1 c ⊢ (dat1 (F := F) V c).Φ 0 := by
  rw [show (dat1 (F := F) V c).Φ 0 = Phi1 V c 0 (Nat.zero_le _) from rfl]
  exact Idealize.SL.BI.Entails.refl _

/-- After the last point the invariant gives the class invariant back: the accumulator's contents are forgotten. -/
theorem hout1 (c : Dev nD) : (dat1 (F := F) V c).Φ (Fin.last cfg1.N) ⊢ Pipeline.ΦA spec1 c := by
  rw [show (dat1 (F := F) V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega)]
  unfold Rest1
  iintro ⟨HS, Hw⟩
  iapply Hw
  iexists _; iexact HS

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Body

end Cert.Kernel.Hand

end
-- ==== Proof.K.Body2.lean ====
/-
  Region 2 at a grid point. Point `t` is (column tile, row tile) = (t / 8, t % 8). At every point the body scales the
  point's tile of (adj + I) by the inverse square roots of its row and column degrees and stores it, whole, into the
  scaled matrix's buffer; it adds (x * d_row) times the unscaled tile to the accumulator, which it first stores with zero
  when the row tile is the first of its column tile; and when the row tile is the last it stores the accumulator, scaled
  by the column degrees and clamped at zero, into the result's buffer — a buffer it leaves untouched at every other point.

  Every load and every store is of a whole buffer: a load reads the buffer's contents, and after a store the buffer
  reads as the stored block, whatever it held before. So each of the three control cases (first row tile, last row
  tile, neither) leaves in each buffer exactly the term the proof data names, and the accumulator's recursion over the
  points is the body's own: reset where the row tile is the first, carried from the point before elsewhere.
-/
import proofs.«159752_j43112881717764_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

/-! ## The branch conditions and the idle points, in closed form over the grid -/

/-- The condition of the reset branch: the row tile is the first. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The condition of the closing branch: the row tile is the last. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- Off the last row tile nothing is stored into the result's buffer; -/
theorem idle2_6 : ∀ t : Fin cfg2.N, ¬ t.val % 8 = 7 → cfg2.idle 6 (grid2.coords t) = true :=
  (by decide +kernel : ∀ t : Fin grid2.N, ¬ t.val % 8 = 7 → idle2 6 (grid2.coords t) = true)
/-- at the last row tile the buffer is stored whole. -/
theorem live2_6 : ∀ t : Fin cfg2.N, t.val % 8 = 7 → cfg2.idle 6 (grid2.coords t) = false :=
  (by decide +kernel : ∀ t : Fin grid2.N, t.val % 8 = 7 → idle2 6 (grid2.coords t) = false)

/-! ## The input windows' buffers hold their blocks, fetched at the point or not -/

theorem before2_0 (c : Dev nD) (t : Fin cfg2.N) (d) : (dat2 (F := F) V c).before 0 t d = iblk2 V c 0 t :=
  ((dat2 (F := F) V c).before_in_eq_fetched 0 rfl (fun _ => rfl) (fun _ _ _ => rfl) (fun _ => rfl) t d).trans rfl
theorem before2_1 (c : Dev nD) (t : Fin cfg2.N) (d) : (dat2 (F := F) V c).before 1 t d = iblk2 V c 1 t :=
  ((dat2 (F := F) V c).before_in_eq_fetched 1 rfl (fun _ => rfl) (fun _ _ _ => rfl) (fun _ => rfl) t d).trans rfl
theorem before2_2 (c : Dev nD) (t : Fin cfg2.N) (d) : (dat2 (F := F) V c).before 2 t d = iblk2 V c 2 t :=
  ((dat2 (F := F) V c).before_in_eq_fetched 2 rfl (fun _ => rfl) (fun _ _ _ => rfl) (fun _ => rfl) t d).trans rfl
theorem before2_3 (c : Dev nD) (t : Fin cfg2.N) (d) : (dat2 (F := F) V c).before 3 t d = iblk2 V c 3 t :=
  ((dat2 (F := F) V c).before_in_eq_fetched 3 rfl (fun _ => rfl) (fun _ _ _ => rfl) (fun _ => rfl) t d).trans rfl
theorem before2_4 (c : Dev nD) (t : Fin cfg2.N) (d) : (dat2 (F := F) V c).before 4 t d = iblk2 V c 4 t :=
  ((dat2 (F := F) V c).before_in_eq_fetched 4 rfl (fun _ => rfl) (fun _ _ _ => rfl) (fun _ => rfl) t d).trans rfl

/-! ## The body on any whole buffers, case by case -/

theorem hz2 : (![0, 0] : Fin 2 → Nat) = fun _ => 0 := funext fun a => by fin_cases a <;> rfl

/-- A store of the whole block, made last, leaves its payload, whatever was stored before it. -/
theorem read_store_whole2 {κ : Kind} {sp : Space} {S : Shape} {e : EltTy} (v : View sig κ sp S e) (f : v.ty.Contents (Elt F))
    {off : Fin S.rank → Nat} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

set_option maxHeartbeats 1000000 in
/-- Neither the first nor the last row tile: the scaled tile is stored, and the product is added to the accumulator. -/
theorem run2_B (c : Dev nD) (i : grid2.Coords)
    (a2 : Memref sig .tc .vmem S1024x1024 .f32) (h2 : a2.IsWhole)
    (a3 : Memref sig .tc .vmem S128x1024 .f32) (h3 : a3.IsWhole)
    (a4 : Memref sig .tc .vmem S1024x1 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S128x1024 .f32) (h8 : a8.IsWhole)
    (a9 : Memref sig .tc .vmem S128x1024 .f32) (h9 : a9.IsWhole)
    (hc0 : ¬cond2_0 i) (hc1 : ¬cond2_1 i)
    (x0 : Vec F S1024x1024 .f32) (x1 : Vec F S128x1024 .f32) (x2 : Vec F S1024x1 .f32)
    (x3 : Vec F S1x1024 .f32) (x4 : Vec F S1x1024 .f32) (y5 : Vec F S1024x1024 .f32) (y6 : Vec F S128x1024 .f32)
    (s : Vec F S128x1024 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare y5 ∗ owns (c : Thread nD τ) a8 fullShare y6 ∗ owns (c : Thread nD τ) a9 fullShare s
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare (k2_pay6 i x2 x4 x0) ∗ owns (c : Thread nD τ) a8 fullShare y6 ∗ owns (c : Thread nD τ) a9 fullShare (k2_pay1 (k2_pay7 i x3 x0 x1) s)) -∗ K ⟨⟩))
      ⊢ wp frame (wpE (defs₀ (F := F)) Variants.none c none) E (cc2__main_kernel i a2 h2 a3 h3 a4 h4 a5 h5 a6 h6 a7 h7 a8 h8 a9 h9) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hf6; obtain rfl := h9.eq_unread hf9
  sl_exec (disch := first | exact hc0 | exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    refine (read_store_whole2 _ _ hz2 _ _ _).trans ?_
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]
  isplitl [H6]
  · iexists _; isplitr; swap; · iexact H6
    ipureintro; exact hf6
  iexists _; isplitr; swap; · iexact H9
  ipureintro
  refine (read_store_whole2 _ _ hz2 _ _ _).trans ?_
  dsimp only
  simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]

set_option maxHeartbeats 1000000 in
/-- The first row tile: the accumulator, whatever it held, is stored with zero before the product is added. -/
theorem run2_A (c : Dev nD) (i : grid2.Coords)
    (a2 : Memref sig .tc .vmem S1024x1024 .f32) (h2 : a2.IsWhole)
    (a3 : Memref sig .tc .vmem S128x1024 .f32) (h3 : a3.IsWhole)
    (a4 : Memref sig .tc .vmem S1024x1 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S128x1024 .f32) (h8 : a8.IsWhole)
    (a9 : Memref sig .tc .vmem S128x1024 .f32) (h9 : a9.IsWhole)
    (hc0 : cond2_0 i) (hc1 : ¬cond2_1 i)
    (x0 : Vec F S1024x1024 .f32) (x1 : Vec F S128x1024 .f32) (x2 : Vec F S1024x1 .f32)
    (x3 : Vec F S1x1024 .f32) (x4 : Vec F S1x1024 .f32) (y5 : Vec F S1024x1024 .f32) (y6 : Vec F S128x1024 .f32)
    (s : Vec F S128x1024 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare y5 ∗ owns (c : Thread nD τ) a8 fullShare y6 ∗ owns (c : Thread nD τ) a9 fullShare s
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare (k2_pay6 i x2 x4 x0) ∗ owns (c : Thread nD τ) a8 fullShare y6 ∗ owns (c : Thread nD τ) a9 fullShare (k2_pay1 (k2_pay7 i x3 x0 x1) (k2_pay3 (F := F)))) -∗ K ⟨⟩))
      ⊢ wp frame (wpE (defs₀ (F := F)) Variants.none c none) E (cc2__main_kernel i a2 h2 a3 h3 a4 h4 a5 h5 a6 h6 a7 h7 a8 h8 a9 h9) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hf6; obtain rfl := h9.eq_unread hf9
  sl_exec (disch := first | exact hc0 | exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    refine (read_store_whole2 _ _ hz2 _ _ _).trans ?_
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]
  isplitl [H6]
  · iexists _; isplitr; swap; · iexact H6
    ipureintro; exact hf6
  iexists _; isplitr; swap; · iexact H9
  ipureintro
  sl_unfold_words
  refine (read_store_whole2 _ _ hz2 _ _ _).trans ?_
  dsimp only
  simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2, View.readCov_unit_zero (S := S128x1024) _ hz2]

set_option maxHeartbeats 1000000 in
/-- The last row tile: after the product is added, the accumulator scaled by the column degrees and clamped at zero is
    stored into the result's buffer. -/
theorem run2_C (c : Dev nD) (i : grid2.Coords)
    (a2 : Memref sig .tc .vmem S1024x1024 .f32) (h2 : a2.IsWhole)
    (a3 : Memref sig .tc .vmem S128x1024 .f32) (h3 : a3.IsWhole)
    (a4 : Memref sig .tc .vmem S1024x1 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S128x1024 .f32) (h8 : a8.IsWhole)
    (a9 : Memref sig .tc .vmem S128x1024 .f32) (h9 : a9.IsWhole)
    (hc0 : ¬cond2_0 i) (hc1 : cond2_1 i)
    (x0 : Vec F S1024x1024 .f32) (x1 : Vec F S128x1024 .f32) (x2 : Vec F S1024x1 .f32)
    (x3 : Vec F S1x1024 .f32) (x4 : Vec F S1x1024 .f32) (y5 : Vec F S1024x1024 .f32) (y6 : Vec F S128x1024 .f32)
    (s : Vec F S128x1024 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare y5 ∗ owns (c : Thread nD τ) a8 fullShare y6 ∗ owns (c : Thread nD τ) a9 fullShare s
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare (k2_pay6 i x2 x4 x0) ∗ owns (c : Thread nD τ) a8 fullShare (k2_pay2 (k2_pay4 x4) (k2_pay1 (k2_pay7 i x3 x0 x1) s)) ∗ owns (c : Thread nD τ) a9 fullShare (k2_pay1 (k2_pay7 i x3 x0 x1) s)) -∗ K ⟨⟩))
      ⊢ wp frame (wpE (defs₀ (F := F)) Variants.none c none) E (cc2__main_kernel i a2 h2 a3 h3 a4 h4 a5 h5 a6 h6 a7 h7 a8 h8 a9 h9) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hf6; obtain rfl := h9.eq_unread hf9
  sl_exec (disch := first | exact hc0 | exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    refine (read_store_whole2 _ _ hz2 _ _ _).trans ?_
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]
  isplitl [H6]
  · iexists _; isplitr; swap; · iexact H6
    ipureintro
    sl_unfold_words
    refine (read_store_whole2 _ _ hz2 _ _ _).trans ?_
    dsimp only
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2, View.readCov_unit_zero (S := S128x1024) _ hz2]
  iexists _; isplitr; swap; · iexact H9
  ipureintro
  sl_unfold_words
  refine (read_store_whole2 _ _ hz2 _ _ _).trans ?_
  dsimp only
  simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]

/-! ## The class invariant and the accumulator -/

/-- The class invariant with the accumulator taken out of it, at anything, beside what is left. -/
theorem PhiA2_split (c : Dev nD) :
    (Pipeline.ΦA spec2 c : sProp 𝕄) ⊢ iprop((∃ X, owns (c : Thread nD τ) scr2 fullShare X) ∗ Rest2 (F := F) c) := by
  unfold Rest2 Pipeline.ΦA
  rw [scopedRest2_eq]
  simp only [scr2, owns_whole]
  iintro ⟨⟨H1, H2, H3, H4, H5, H6, H7, H8, H9, H10, HS⟩, Hg⟩
  isplitl [HS]
  · iexact HS
  iintro HS
  iframe

/-! ## The accumulator and the invariant, point by point -/

/-- At the first row tile of a column tile the accumulator is the point's product added to zero. -/
theorem acc2_reset (c : Dev nD) (t : Fin cfg2.N) (h0 : t.val % 8 = 0) :
    acc2 V c t.val t.isLt
      = k2_pay1 (k2_pay7 (grid2.coords t) (iblk2 V c 3 t) (iblk2 V c 0 t) (iblk2 V c 1 t)) (k2_pay3 (F := F)) := by
  obtain ⟨n, hn⟩ := t
  cases n with
  | zero => rfl
  | succ n => exact if_pos h0

/-- At any other row tile it is the point's product added to what the point before left. -/
theorem acc2_step (c : Dev nD) (t : Fin cfg2.N) (h0 : ¬ t.val % 8 = 0) :
    acc2 V c t.val t.isLt
      = k2_pay1 (k2_pay7 (grid2.coords t) (iblk2 V c 3 t) (iblk2 V c 0 t) (iblk2 V c 1 t))
          (acc2 V c (t.val - 1) (Nat.lt_of_le_of_lt (Nat.sub_le _ _) t.isLt)) := by
  obtain ⟨n, hn⟩ := t
  cases n with
  | zero => exact absurd (Nat.zero_mod _) h0
  | succ n => exact if_neg h0

theorem Phi2_castSucc (c : Dev nD) (t : Fin cfg2.N) :
    (dat2 (F := F) V c).Φ t.castSucc = Phi2 V c t.val (Nat.le_of_lt t.isLt) := rfl

/-- Before a point that is not the first the accumulator holds what the point before left. -/
theorem Phi2_pos (c : Dev nD) (n : ℕ) (h : n ≤ cfg2.N) (hn0 : n ≠ 0) :
    Phi2 V c n h = iprop(owns (c : Thread nD τ) scr2 fullShare (acc2 V c (n - 1) (by omega)) ∗ Rest2 c) := by
  cases n with
  | zero => exact absurd rfl hn0
  | succ n => rfl

/-- Before any point the accumulator holds something, beside the rest. -/
theorem Phi2_any (c : Dev nD) (n : ℕ) (h : n ≤ cfg2.N) :
    Phi2 V c n h ⊢ iprop((∃ X, owns (c : Thread nD τ) scr2 fullShare X) ∗ Rest2 (F := F) c) := by
  cases n with
  | zero => exact PhiA2_split c
  | succ n =>
    unfold Phi2
    iintro ⟨HS, HR⟩
    isplitl [HS]; · iexists _; iexact HS
    iexact HR

/-! ## What the body leaves in each window's buffer -/

theorem leaves2_0 (c : Dev nD) (t : Fin cfg2.N) :
    (dat2 (F := F) V c).leavesExact 0 t = owns (c : Thread nD τ) (st2_0 t) fullShare (iblk2 V c 0 t) := rfl
theorem leaves2_1 (c : Dev nD) (t : Fin cfg2.N) :
    (dat2 (F := F) V c).leavesExact 1 t = owns (c : Thread nD τ) (st2_1 t) fullShare (iblk2 V c 1 t) := rfl
theorem leaves2_2 (c : Dev nD) (t : Fin cfg2.N) :
    (dat2 (F := F) V c).leavesExact 2 t = owns (c : Thread nD τ) (st2_2 t) fullShare (iblk2 V c 2 t) := rfl
theorem leaves2_3 (c : Dev nD) (t : Fin cfg2.N) :
    (dat2 (F := F) V c).leavesExact 3 t = owns (c : Thread nD τ) (st2_3 t) fullShare (iblk2 V c 3 t) := rfl
theorem leaves2_4 (c : Dev nD) (t : Fin cfg2.N) :
    (dat2 (F := F) V c).leavesExact 4 t = owns (c : Thread nD τ) (st2_4 t) fullShare (iblk2 V c 4 t) := rfl
theorem leaves2_5 (c : Dev nD) (t : Fin cfg2.N) :
    (dat2 (F := F) V c).leavesExact 5 t
      = owns (c : Thread nD τ) (st2_5 t) fullShare (k2_pay6 (grid2.coords t) (iblk2 V c 2 t) (iblk2 V c 4 t) (iblk2 V c 0 t)) := rfl
/-- Off the last row tile the result's buffer is handed back as found: nothing is stored into it, and it is not written back. -/
theorem leaves2_6_idle (c : Dev nD) (t : Fin cfg2.N) (h7 : ¬ t.val % 8 = 7) :
    (dat2 (F := F) V c).leavesExact 6 t
      = iprop(∃ d, owns (c : Thread nD τ) (st2_6 t) fullShare ((dat2 (F := F) V c).before 6 t d)) :=
  (dat2 (F := F) V c).leavesExact_idle 6 t (idle2_6 t h7) (Bool.eq_false_iff.mpr fun h => h7 ((flush2_6 t).mp h))
/-- At the last row tile it holds the accumulator scaled by the column degrees and clamped at zero. -/
theorem leaves2_6_live (c : Dev nD) (t : Fin cfg2.N) (h7 : t.val % 8 = 7) :
    (dat2 (F := F) V c).leavesExact 6 t
      = owns (c : Thread nD τ) (st2_6 t) fullShare (k2_pay2 (k2_pay4 (iblk2 V c 4 t)) (acc2 V c t.val t.isLt)) := by
  unfold Dat.leavesExact; rw [live2_6 t h7]; rfl

/-! ## The body at a point -/

set_option maxHeartbeats 4000000 in
theorem sound_body2 (c : Dev nD) (t : Fin cfg2.N) :
    iprop((dat2 (F := F) V c).Φ t.castSucc ∗ (dat2 (F := F) V c).owesAt () t.castSucc
      ∗ (∃ d, owns (c : Thread nD τ) (st2_0 t) fullShare ((dat2 (F := F) V c).before 0 t d))
      ∗ (∃ d, owns (c : Thread nD τ) (st2_1 t) fullShare ((dat2 (F := F) V c).before 1 t d))
      ∗ (∃ d, owns (c : Thread nD τ) (st2_2 t) fullShare ((dat2 (F := F) V c).before 2 t d))
      ∗ (∃ d, owns (c : Thread nD τ) (st2_3 t) fullShare ((dat2 (F := F) V c).before 3 t d))
      ∗ (∃ d, owns (c : Thread nD τ) (st2_4 t) fullShare ((dat2 (F := F) V c).before 4 t d))
      ∗ (∃ d, owns (c : Thread nD τ) (st2_5 t) fullShare ((dat2 (F := F) V c).before 5 t d))
      ∗ (∃ d, owns (c : Thread nD τ) (st2_6 t) fullShare ((dat2 (F := F) V c).before 6 t d)))
    ⊢ wp frame (wpE (defs₀ (F := F)) Variants.none c none) Set.univ (bodyAt2 t) (fun _ =>
      iprop((dat2 (F := F) V c).Φ t.succ ∗ (dat2 (F := F) V c).owesAt () t.succ
        ∗ (dat2 (F := F) V c).leavesExact 0 t ∗ (dat2 (F := F) V c).leavesExact 1 t
        ∗ (dat2 (F := F) V c).leavesExact 2 t ∗ (dat2 (F := F) V c).leavesExact 3 t
        ∗ (dat2 (F := F) V c).leavesExact 4 t ∗ (dat2 (F := F) V c).leavesExact 5 t
        ∗ (dat2 (F := F) V c).leavesExact 6 t)) := by
  simp only [before2_0, before2_1, before2_2, before2_3, before2_4]
  rw [show (dat2 (F := F) V c).owesAt () t.succ = (dat2 (F := F) V c).owesAt () t.castSucc from rfl]
  rw [show (dat2 (F := F) V c).Φ t.succ
      = iprop(owns (c : Thread nD τ) scr2 fullShare (acc2 V c t.val t.isLt) ∗ Rest2 c) from rfl]
  rw [leaves2_0, leaves2_1, leaves2_2, leaves2_3, leaves2_4, leaves2_5, Phi2_castSucc]
  by_cases h0 : t.val % 8 = 0
  · -- the first row tile: the accumulator, at anything, is stored with zero first
    have h7 : ¬ t.val % 8 = 7 := by omega
    rw [leaves2_6_idle V c t h7, acc2_reset V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi2_any V c _ _) $$ HΦ
    icases HΦ' with ⟨⟨%s, HS⟩, HR⟩
    iapply (run2_A c (grid2.coords t) _ _ _ _ _ _ _ _ _ _ _ _ _ _ _ _ ((hcond2_0 t).mpr h0) (fun h => h7 ((hcond2_1 t).mp h))
        (iblk2 V c 0 t) (iblk2 V c 1 t) (iblk2 V c 2 t) (iblk2 V c 3 t) (iblk2 V c 4 t) ((dat2 (F := F) V c).before 5 t d5) ((dat2 (F := F) V c).before 6 t d6) s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have hpos : t.val ≠ 0 := fun h => h0 (by rw [h])
    rw [Phi2_pos V c _ _ hpos, acc2_step V c t h0]
    by_cases h7 : t.val % 8 = 7
    · -- the last row tile: the accumulator, scaled and clamped, goes into the result's buffer
      rw [leaves2_6_live V c t h7, acc2_step V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply (run2_C c (grid2.coords t) _ _ _ _ _ _ _ _ _ _ _ _ _ _ _ _ (fun h => h0 ((hcond2_0 t).mp h)) ((hcond2_1 t).mpr h7)
        (iblk2 V c 0 t) (iblk2 V c 1 t) (iblk2 V c 2 t) (iblk2 V c 3 t) (iblk2 V c 4 t) ((dat2 (F := F) V c).before 5 t d5) ((dat2 (F := F) V c).before 6 t d6) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves2_6_idle V c t h7]
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply (run2_B c (grid2.coords t) _ _ _ _ _ _ _ _ _ _ _ _ _ _ _ _ (fun h => h0 ((hcond2_0 t).mp h)) (fun h => h7 ((hcond2_1 t).mp h))
        (iblk2 V c 0 t) (iblk2 V c 1 t) (iblk2 V c 2 t) (iblk2 V c 3 t) (iblk2 V c 4 t) ((dat2 (F := F) V c).before 5 t d5) ((dat2 (F := F) V c).before 6 t d6) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- What the launch hands the region is the invariant before the first point. -/
theorem hin2 (c : Dev nD) : Pipeline.ΦA spec2 c ⊢ (dat2 (F := F) V c).Φ 0 := by
  rw [show (dat2 (F := F) V c).Φ 0 = Phi2 V c 0 (Nat.zero_le _) from rfl]
  exact Idealize.SL.BI.Entails.refl _

/-- After the last point the invariant gives the class invariant back: the accumulator's contents are forgotten. -/
theorem hout2 (c : Dev nD) : (dat2 (F := F) V c).Φ (Fin.last cfg2.N) ⊢ Pipeline.ΦA spec2 c := by
  rw [show (dat2 (F := F) V c).Φ (Fin.last cfg2.N) = Phi2 V c (63 + 1) (by decide) from rfl]
  unfold Phi2 Rest2
  iintro ⟨HS, Hw⟩
  iapply Hw
  iexists _; iexact HS

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Body

end Cert.Kernel.Hand

end
-- ==== Proof.K.Run.lean ====
/-
  The run of @main: region 0, region 1, the host operations between, region 2 — each region entered from the
  contents the item before it leaves, its result arrays left at what its write-backs fold to.
-/
import proofs.«159752_j43112881717764_1_alg».proof.Proof.K.Vals
import proofs.«159752_j43112881717764_1_alg».proof.Proof.K.Body0
import proofs.«159752_j43112881717764_1_alg».proof.Proof.K.Body1
import proofs.«159752_j43112881717764_1_alg».proof.Proof.K.Body2
import proofs.«159752_j43112881717764_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

namespace RunMain

/-! ## What regions 0 and 1 leave: the result array at its write-backs folded, every other buffer as entered -/

/-- At region 0's exit each of its arrays holds what the pipeline leaves: an input what it held at entry, the result
    its blocks' write-backs folded. -/
theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans (Function.update_of_ne (StableHlo.devRef_ne_of_ne (by decide) : (Proc.devRef .tc main_arg2 : DevRef τ sig) ≠ Proc.devRef .tc main_v0) (X0 m c) (W0 m c)).symm
  | ⟨1, _⟩ => ((dat0 (V0 m) c).arrAt_in 1 rfl _).trans (Function.update_of_ne (StableHlo.devRef_ne_of_ne (by decide) : (Proc.devRef .tc main_arg0 : DevRef τ sig) ≠ Proc.devRef .tc main_v0) (X0 m c) (W0 m c)).symm
  | ⟨2, _⟩ => (Function.update_self (Proc.devRef .tc main_v0 : DevRef τ sig) (X0 m c) (W0 m c)).symm
/-- Off region 0's arrays nothing changes. -/
theorem hrest0 (c : Dev nD) : ∀ b, b ∉ Finset.univ.image (Pipeline.arrRef spec0) → V1 m c b = V0 m c b := fun b hb =>
  Function.update_of_ne (StableHlo.devRef_ne_of_ne fun e => hb (Finset.mem_image.mpr ⟨2, Finset.mem_univ _, e.symm⟩)) _ _

/-- The contents after region 1, read at the TensorCore's references. -/
abbrev V2 : (c : Dev nD) → (b : Ref sig .tc) → Buf (Elt F) ((c : Thread nD τ).loc b) := fun c b => W2 m c b

theorem hF1 (c : Dev nD) (w : Fin cfg1.W) : (dat1 (V1 m) c).arrAt w cfg1.N = V2 m c (Pipeline.arrRef spec1 w) :=
  match w with
  | ⟨0, _⟩ => ((dat1 (V1 m) c).arrAt_in 0 rfl _).trans (Function.update_of_ne (StableHlo.devRef_ne_of_ne (by decide) : (Proc.devRef .tc main_arg1 : DevRef τ sig) ≠ Proc.devRef .tc main_v1) (X1 m c) (W1 m c)).symm
  | ⟨1, _⟩ => (Function.update_self (Proc.devRef .tc main_v1 : DevRef τ sig) (X1 m c) (W1 m c)).symm
theorem hrest1 (c : Dev nD) : ∀ b, b ∉ Finset.univ.image (Pipeline.arrRef spec1) → V2 m c b = V1 m c b := fun b hb =>
  Function.update_of_ne (StableHlo.devRef_ne_of_ne fun e => hb (Finset.mem_image.mpr ⟨1, Finset.mem_univ _, e.symm⟩)) _ _

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- The thread state between two items: every unscoped buffer at the boundary's contents, the rest beside. -/
abbrev T (W : Dev nD → Valuation τ sig (Elt F)) (c : Dev nD) : sProp 𝕄 :=
  iprop(StableHlo.held (c : Thread nD τ) (Pipeline.ucRefs τ sig) (W c) ∗ R c)

/-- The host stretch as a segment: its operations over the unscoped references from the contents after region 1, the
    rest riding along; it leaves those references at the contents region 2 is entered from. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Regions 0 and 1 as segments -/

set_option backward.isDefEq.respectTransparency.types false in
/-- REGION 0 over the thread state: entered from every unscoped buffer at the launch contents, left at those with the
    product in its result array. Its arrays are split out of the unscoped buffers and put back at the exit contents;
    the generator register goes into the class invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := T (W0 m) c
  post c := T (W1 m) c
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents region 0 leaves, left at those with the row sums in its
    result array. Its invariant is the accumulator's: entered from the class invariant, returned to it after the last
    point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := T (W1 m) c
  post c := T (W2 m) c
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m) c)
    unfold Pipeline.ΦA
    iintro ⟨Hp, -, Hr⟩
    isplitl [Hr]; · iexact Hr
    iexact Hp
  hout c := by
    refine BIBase.Entails.trans (hout1 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: two of its windows read one array -/

/-- The contents after region 2, read at the TensorCore's references. -/
abbrev V4 : (c : Dev nD) → (b : Ref sig .tc) → Buf (Elt F) ((c : Thread nD τ).loc b) := fun c b => W4 m c b

/-- The distinct buffers behind region 2's seven windows, one by one: windows 3 and 4 read the same one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v0) ↦{fullShare} V main_v0)
          ∗ (((c : Thread nD τ).loc main_v4) ↦{fullShare} V main_v4) ∗ (((c : Thread nD τ).loc main_v5) ↦{fullShare} V main_v5)
          ∗ (((c : Thread nD τ).loc main_v6_0) ↦{fullShare} V main_v6_0) ∗ (((c : Thread nD τ).loc main_v6_1) ↦{fullShare} V main_v6_1)) := by
  unfold Pipeline.arrBufs
  exact bigSep_eq_bigSepL_of_eq [main_arg1, main_v0, main_v4, main_v5, main_v6_0, main_v6_1] (by decide) (by decide) _

section Shared

variable (V : (c : Dev nD) → (b : Ref sig .tc) → Buf (Elt F) ((c : Thread nD τ).loc b))

/-- A window's array is a whole buffer: the points-to over its elements is the points-to of the buffer. -/
theorem arr2_pt (c : Dev nD) (Fv : (w : Fin cfg2.W) → Buf (Elt F) ((cfg2.win w).arr.view.loc (c.tc : Thread nD τ))) (w : Fin cfg2.W) :
    ((cfg2.win w).arr.view.loc (c.tc : Thread nD τ) ↦[(cfg2.win w).arr.view.set]{(dat2 V c).share w} Fv w : sProp 𝕄)
      = (((c : Thread nD τ).loc (Pipeline.arrRef spec2 w)) ↦{(dat2 V c).share w} Fv w) := by
  rw [show (cfg2.win w).arr.view.set = Finset.univ from (arr_whole2 w).set_eq_univ]

/-- Region 2's arrays, window by window: every array whole at the full share, but the one windows 3 and 4 read, of
    which each holds a half. -/
theorem arrays2_eq (c : Dev nD) (Fv : (w : Fin cfg2.W) → Buf (Elt F) ((cfg2.win w).arr.view.loc (c.tc : Thread nD τ))) :
    ((dat2 V c).arrays Fv : sProp 𝕄)
      = iprop((((c : Thread nD τ).loc main_arg1) ↦{fullShare} Fv 0) ∗ (((c : Thread nD τ).loc main_v0) ↦{fullShare} Fv 1)
          ∗ (((c : Thread nD τ).loc main_v4) ↦{fullShare} Fv 2)
          ∗ (((c : Thread nD τ).loc main_v5) ↦{fullShare.left} Fv 3) ∗ (((c : Thread nD τ).loc main_v5) ↦{fullShare.right} Fv 4)
          ∗ (((c : Thread nD τ).loc main_v6_0) ↦{fullShare} Fv 5) ∗ (((c : Thread nD τ).loc main_v6_1) ↦{fullShare} Fv 6)) := by
  unfold Dat.arrays
  rw [bigSep_W2, arr2_pt V c Fv 0, arr2_pt V c Fv 1, arr2_pt V c Fv 2, arr2_pt V c Fv 3, arr2_pt V c Fv 4, arr2_pt V c Fv 5, arr2_pt V c Fv 6]
  rfl

/-- ENTRY of region 2, the arrays' part: the core's unscoped buffers are region 2's arrays at their entry contents —
    the array two windows read split into its two halves — and the rest. -/
theorem entry2 (c : Dev nD) :
    (unscopedBufs c (V c) : sProp 𝕄)
      ⊢ iprop((dat2 V c).arrays ((dat2 V c).arrAt · 0) ∗ Pipeline.unscopedRest spec2 c (V c)) := by
  rw [Pipeline.unscopedBufs_split₀ cfgs 2 winFacts₀2.arr_unscoped c (V c)]
  refine sep_mono ?_ .rfl
  refine BIBase.Entails.trans (BIBase.Entails.of_eq (arrBufs2_eq c (V c))) ?_
  rw [arrays2_eq]
  iintro ⟨H0, H1, H2, H5, H6, H7⟩
  ihave H5' := (pointsTo_share (PosShare.mem_left_op_right fullShare)).1 $$ H5
  icases H5' with ⟨H5l, H5r⟩
  isplitl [H0]; · iexact H0
  isplitl [H1]; · iexact H1
  isplitl [H2]; · iexact H2
  isplitl [H5l]; · iexact H5l
  isplitl [H5r]; · iexact H5r
  isplitl [H6]; · iexact H6
  iexact H7

/-- EXIT of region 2, the arrays' part: region 2's arrays at contents that a valuation has at them, the two halves of
    the shared array joined, and the rest as entered, are the core's unscoped buffers at that valuation if it agrees
    with the entry contents off the arrays. -/
theorem exit2 (V' : (c : Dev nD) → (b : Ref sig .tc) → Buf (Elt F) ((c : Thread nD τ).loc b)) (c : Dev nD)
    (hF : ∀ w, (dat2 V c).arrAt w cfg2.N = V' c (Pipeline.arrRef spec2 w))
    (hrest : ∀ b, b ∉ Finset.univ.image (Pipeline.arrRef spec2) → V' c b = V c b) :
    iprop((dat2 V c).arrays ((dat2 V c).arrAt · cfg2.N) ∗ Pipeline.unscopedRest spec2 c (V c))
      ⊢ (unscopedBufs c (V' c) : sProp 𝕄) := by
  have hFv : ((dat2 V c).arrAt · cfg2.N) = fun w => V' c (Pipeline.arrRef spec2 w) := funext hF
  rw [Pipeline.unscopedBufs_split₀ cfgs 2 winFacts₀2.arr_unscoped c (V' c), hFv]
  refine sep_mono ?_ (BIBase.Entails.of_eq ?_)
  · refine BIBase.Entails.trans ?_ (BIBase.Entails.of_eq (arrBufs2_eq c (V' c)).symm)
    rw [arrays2_eq]
    iintro ⟨H0, H1, H2, H5l, H5r, H6, H7⟩
    isplitl [H0]; · iexact H0
    isplitl [H1]; · iexact H1
    isplitl [H2]; · iexact H2
    isplitl [H5l H5r]
    · iapply (pointsTo_share (PosShare.mem_left_op_right fullShare)).2
      isplitl [H5l]; · iexact H5l
      iexact H5r
    isplitl [H6]; · iexact H6
    iexact H7
  · unfold Pipeline.unscopedRest
    exact bigSep_congr fun b hb => by rw [hrest b (Finset.mem_sdiff.mp hb).2]

end Shared

/-- Off region 2's two result arrays the contents after it are those before it. -/
theorem W4_of (c : Dev nD) (r : Ref sig .tc) (h0 : r ≠ main_v6_0) (h1 : r ≠ main_v6_1) : W4 m c r = W3 m c r := by
  simp only [W4, Function.update_of_ne (StableHlo.devRef_ne_of_ne h1 : (Proc.devRef .tc r : DevRef τ sig) ≠ Proc.devRef .tc main_v6_1),
    Function.update_of_ne (StableHlo.devRef_ne_of_ne h0 : (Proc.devRef .tc r : DevRef τ sig) ≠ Proc.devRef .tc main_v6_0)]

/-- The contents after region 2 have its results in its result arrays. -/
theorem W4_v6_1 (c : Dev nD) : W4 m c main_v6_1 = X2o m c := by
  simp only [W4, Function.update_self]
theorem W4_v6_0 (c : Dev nD) : W4 m c main_v6_0 = X2a m c := by
  simp only [W4, Function.update_of_ne (StableHlo.devRef_ne_of_ne (by decide) : (Proc.devRef .tc main_v6_0 : DevRef τ sig) ≠ Proc.devRef .tc main_v6_1),
    Function.update_self]

/-- At region 2's exit each of its arrays holds what the pipeline leaves: an input what it held at entry, each result
    its blocks' write-backs folded. -/
theorem hF2 (c : Dev nD) (w : Fin cfg2.W) : (dat2 (V3 m) c).arrAt w cfg2.N = V4 m c (Pipeline.arrRef spec2 w) :=
  match w with
  | ⟨0, _⟩ => ((dat2 (V3 m) c).arrAt_in 0 rfl _).trans (W4_of m c main_arg1 (by decide) (by decide)).symm
  | ⟨1, _⟩ => ((dat2 (V3 m) c).arrAt_in 1 rfl _).trans (W4_of m c main_v0 (by decide) (by decide)).symm
  | ⟨2, _⟩ => ((dat2 (V3 m) c).arrAt_in 2 rfl _).trans (W4_of m c main_v4 (by decide) (by decide)).symm
  | ⟨3, _⟩ => ((dat2 (V3 m) c).arrAt_in 3 rfl _).trans (W4_of m c main_v5 (by decide) (by decide)).symm
  | ⟨4, _⟩ => ((dat2 (V3 m) c).arrAt_in 4 rfl _).trans (W4_of m c main_v5 (by decide) (by decide)).symm
  | ⟨5, _⟩ => (W4_v6_0 m c).symm
  | ⟨6, _⟩ => (W4_v6_1 m c).symm
/-- Off region 2's arrays nothing changes. -/
theorem hrest2 (c : Dev nD) : ∀ b, b ∉ Finset.univ.image (Pipeline.arrRef spec2) → V4 m c b = V3 m c b := fun b hb =>
  W4_of m c b (fun e => hb (Finset.mem_image.mpr ⟨5, Finset.mem_univ _, e.symm⟩)) (fun e => hb (Finset.mem_image.mpr ⟨6, Finset.mem_univ _, e.symm⟩))

/-- An argument reaches the end as launched: no region and no host operation writes it. -/
theorem W4_arg (c : Dev nD) (r : Ref sig .tc) (h0 : r ≠ main_v6_0) (h1 : r ≠ main_v6_1) (hw : r ∉ hostOps2_W)
    (hv1 : r ≠ main_v1) (hv0 : r ≠ main_v0) : W4 m c r = m ((c : Thread nD τ).loc r) := by
  rw [W4_of m c r h0 h1, show W3 m c r = W2 m c r from StableHlo.after_of_writes_sub hostOps2 _ hostOps2_writes hw]
  simp only [W2, W1, Function.update_of_ne (StableHlo.devRef_ne_of_ne hv1 : (Proc.devRef .tc r : DevRef τ sig) ≠ Proc.devRef .tc main_v1),
    Function.update_of_ne (StableHlo.devRef_ne_of_ne hv0 : (Proc.devRef .tc r : DevRef τ sig) ≠ Proc.devRef .tc main_v0)]

/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- REGION 2 over the thread state: entered from the contents the host operations leave, left at those with its two
    results in its result arrays. The array two of its windows read enters as two halves and comes back whole; its
    invariant is the accumulator's, entered from the class invariant and returned to it after the last point. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := T (W3 m) c
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := entry2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    refine BIBase.Entails.trans (hout2 (V3 m) c) ?_
    rw [Pipeline.ownSems0_none]; unfold Pipeline.ΦA
    iintro ⟨Hr, Hp⟩
    isplitl [Hp]; · iexact Hp
    isplitr; · iempintro
    iexact Hr
  hexit c := by
    have hjoin := exit2 (V3 m) (V4 m) c (hF2 m c) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments -/

/-- @main's four segments in order: region 0, region 1, the host stretch, region 2. -/
abbrev segs : List (Pipeline.Seg (pcfgs (F := F)) adm (pdats m) () defs₀ 𝒱₀ L lv) :=
  [ .region (reg0 m), .region (reg1 m), .host (hseg m), .region (reg2 m) ]
/-- @main is the run of the segments. -/
theorem main_run (c : Dev nD) : main (F := F) c = Pipeline.Seg.run (segs m) := (main_chain c).trans (by chain_rfl)

end RunMain

set_option backward.isDefEq.respectTransparency.types false in
/-- Every weakly fair execution of @main from `m` terminates, nothing faulting, with the two results at what region 2's
    write-backs fold to and the arguments as launched. -/
theorem run_main : θ_run defs (onTc (τ := τ) (main (F := F))) ⟨m, fun _ => 0, ρ⟩ (fun r => ∀ c : Dev nD,
      r.2.mem ((c.tc : Thread nD τ).loc main_v6_1) = X2o m c
      ∧ r.2.mem ((c.tc : Thread nD τ).loc main_v6_0) = X2a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (RunMain.pdats m) () cellOf_inj emb₁ defs₀ RunMain.𝒱₀ RunMain.L RunMain.lv m ρ main (RunMain.segs m)
    (fun c Q => by rw [RunMain.main_run m c])
    (by simp only [RunMain.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := RunMain.T (W0 m)) (Tₙ := RunMain.Tₙ m)
    (hch := ⟨fun _ => .rfl, fun _ => .rfl, fun _ => .rfl, fun _ => .rfl, fun _ => .rfl⟩)
    (hinit := by
      refine Pipeline.initEach RunMain.L RunMain.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (RunMain.mem_uc main_v6_1 (by decide))).trans (RunMain.W4_v6_1 m c),
       (h c _ (RunMain.mem_uc main_v6_0 (by decide))).trans (RunMain.W4_v6_0 m c),
       (h c _ (RunMain.mem_uc main_arg0 (by decide))).trans (RunMain.W4_arg m c main_arg0 (by decide) (by decide) (by decide) (by decide) (by decide)),
       (h c _ (RunMain.mem_uc main_arg1 (by decide))).trans (RunMain.W4_arg m c main_arg1 (by decide) (by decide) (by decide) (by decide) (by decide)),
       (h c _ (RunMain.mem_uc main_arg2 (by decide))).trans (RunMain.W4_arg m c main_arg2 (by decide) (by decide) (by decide) (by decide) (by decide))⟩)

end Run

end Cert.Kernel.Hand

end
-- ==== Proof.KI.Data.lean ====
/-
  The proof data of the three kernel regions, at any float instance.

  Region 0 multiplies the weight block (transposed) by a column tile of the inputs: one store per point.
  Region 1 sums the rows of the adjacency matrix tile by tile: a column accumulator carried across the eight
  column tiles of a row tile, reset at the first and written out at the last.
  Region 2 scales a tile of (adj + I) by the inverse square roots of the row and column degrees, writes it
  out, and accumulates (x * d_row) times the unscaled tile over the eight row tiles of a column tile; the
  accumulator is reset at the first row tile, and at the last it is scaled by the column degrees, clamped at
  zero and written out.

  Every definition here is over the region's entry contents `V` (what the core's buffers hold when the region
  is entered), so that the run can instantiate each region at the contents the items before it leave.
-/
import proofs.«159752_j43112881717764_1_alg».proof.Proof.Gen.KernelIdeal.Launch
import proofs.«159752_j43112881717764_1_alg».proof.Proof.Gen.KernelIdeal.Skeleton
import proofs.«159752_j43112881717764_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

section Data

variable (V : (c : Dev nD) → (b : Ref sig .tc) → Buf (Elt F) ((c : Thread nD τ).loc b))

/-! ## The windows' blocks, read off the arrays as the region finds them -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## Region 0: the product tile -/

/-- The product tile at point `t`: the body's one payload of the weight block and the inputs' tile. -/
def prod0 (c : Dev nD) (t : Fin cfg0.N) : Vec F S128x1024 .f32 :=
  k0_pay1 (iblk0 V c 0 t) (iblk0 V c 1 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 V c t
  Φ _ := Pipeline.ΦA spec0 c
  q _ := fullShare
  owed _ := 0

/-! ## Region 1: the row sums, accumulated over the column tiles -/

/-- The accumulator after point `n`: the row sums of the point's tile added to what the point before left, or to
    zero at the first column tile of a row tile. -/
def acc1 (c : Dev nD) : (n : ℕ) → n < cfg1.N → Vec F S1024x1 .f32
  | 0, h => k1_pay2 (k1_pay1 (F := F)) (iblk1 V c 0 ⟨0, h⟩)
  | n + 1, h =>
    if (n + 1) % 8 = 0 then k1_pay2 (k1_pay1 (F := F)) (iblk1 V c 0 ⟨n + 1, h⟩)
    else k1_pay2 (acc1 c n (Nat.lt_of_succ_lt h)) (iblk1 V c 0 ⟨n + 1, h⟩)

/-- The accumulator's memref. -/
abbrev scr1 : Memref sig .tc .vmem S1024x1 .f32 := Memref.whole cc1_scratch0

/-- What is left of the class invariant once the accumulator is taken out of it: given the accumulator back, at
    anything, it is the class invariant again. -/
def Rest1 (c : Dev nD) : sProp 𝕄 :=
  iprop((∃ X, owns (c : Thread nD τ) (scr1) fullShare X) -∗ Pipeline.ΦA (U := UR sig nD τ) (Val := Elt F) spec1 c)

/-- The invariant before position `n`: before the first point the class's (the accumulator at anything); afterwards
    the accumulator at what the point before left in it, beside the rest. -/
def Phi1 (c : Dev nD) : (n : ℕ) → n ≤ cfg1.N → sProp 𝕄
  | 0, _ => Pipeline.ΦA spec1 c
  | n + 1, hn => iprop(owns (c : Thread nD τ) scr1 fullShare (acc1 V c n hn) ∗ Rest1 c)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => acc1 V c t.val t.isLt
  Φ t := Phi1 V c t.val (Nat.le_of_lt_succ t.isLt)
  q _ := fullShare
  owed _ := 0

/-! ## Region 2: the scaled tile, and the product accumulated over the row tiles -/

/-- The accumulator after point `n`: the point's product tile added to what the point before left, or to zero at
    the first row tile of a column tile. -/
def acc2 (c : Dev nD) : (n : ℕ) → n < cfg2.N → Vec F S128x1024 .f32
  | 0, h => k2_pay1 (k2_pay7 (grid2.coords ⟨0, h⟩) (iblk2 V c 3 ⟨0, h⟩) (iblk2 V c 0 ⟨0, h⟩) (iblk2 V c 1 ⟨0, h⟩)) (k2_pay3 (F := F))
  | n + 1, h =>
    if (n + 1) % 8 = 0 then
      k2_pay1 (k2_pay7 (grid2.coords ⟨n + 1, h⟩) (iblk2 V c 3 ⟨n + 1, h⟩) (iblk2 V c 0 ⟨n + 1, h⟩) (iblk2 V c 1 ⟨n + 1, h⟩)) (k2_pay3 (F := F))
    else
      k2_pay1 (k2_pay7 (grid2.coords ⟨n + 1, h⟩) (iblk2 V c 3 ⟨n + 1, h⟩) (iblk2 V c 0 ⟨n + 1, h⟩) (iblk2 V c 1 ⟨n + 1, h⟩)) (acc2 c n (Nat.lt_of_succ_lt h))

/-- The scaled tile of (adj + I) at point `t`. -/
def tile2 (c : Dev nD) (t : Fin cfg2.N) : Vec F S1024x1024 .f32 :=
  k2_pay6 (grid2.coords t) (iblk2 V c 2 t) (iblk2 V c 4 t) (iblk2 V c 0 t)

/-- What the last row tile's point writes out: the accumulator scaled by the column degrees, clamped at zero. -/
def fin2 (c : Dev nD) (t : Fin cfg2.N) : Vec F S128x1024 .f32 :=
  k2_pay2 (k2_pay4 (iblk2 V c 4 t)) (acc2 V c t.val t.isLt)

abbrev scr2 : Memref sig .tc .vmem S128x1024 .f32 := Memref.whole cc2_scratch0

def Rest2 (c : Dev nD) : sProp 𝕄 :=
  iprop((∃ X, owns (c : Thread nD τ) (scr2) fullShare X) -∗ Pipeline.ΦA (U := UR sig nD τ) (Val := Elt F) spec2 c)

def Phi2 (c : Dev nD) : (n : ℕ) → n ≤ cfg2.N → sProp 𝕄
  | 0, _ => Pipeline.ΦA spec2 c
  | n + 1, hn => iprop(owns (c : Thread nD τ) scr2 fullShare (acc2 V c n hn) ∗ Rest2 c)

/-- Windows 3 and 4 read one array (the row of inverse square roots, at the row tile and at the column tile): each
    holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => tile2 V c t
    | ⟨6, _⟩ => fin2 V c t
  Φ t := Phi2 V c t.val (Nat.le_of_lt_succ t.isLt)
  q w := match w with
    | ⟨3, _⟩ => fullShare.left
    | ⟨4, _⟩ => fullShare.right
    | _ => fullShare
  owed _ := 0

end Data

end Cert.KernelIdeal.Hand

end
-- ==== Proof.KI.Vals.lean ====
/-
  The contents of the core's buffers at each boundary between @main's items, from the launch memory `m`:
  region 0 leaves the product `x` in its result array; region 1 the row sums; the host operations between add one,
  take the inverse square root and transpose; region 2 reads all of these and leaves its two results.
-/
import proofs.«159752_j43112881717764_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

section Vals

variable (m : (ℓ : Loc nD τ sig) → Buf (Elt F) ℓ)

/-- Core `c`'s buffers at launch. -/
abbrev W0 (c : Dev nD) : Valuation τ sig (Elt F) := fun b => m (c, b)
/-- The same read at the TensorCore's references. -/
abbrev V0 : (c : Dev nD) → (b : Ref sig .tc) → Buf (Elt F) ((c : Thread nD τ).loc b) := fun c b => W0 m c b

/-- What region 0 leaves in its result array: its blocks' write-backs folded. -/
def X0 (c : Dev nD) : Buf (Elt F) ((c : Thread nD τ).loc main_v0) := (dat0 (V0 m) c).arrAt 2 cfg0.N

/-- After region 0. -/
def W1 (c : Dev nD) : Valuation τ sig (Elt F) := Function.update (W0 m c) main_v0 (X0 m c)
abbrev V1 : (c : Dev nD) → (b : Ref sig .tc) → Buf (Elt F) ((c : Thread nD τ).loc b) := fun c b => W1 m c b

/-- What region 1 leaves in its result array. -/
def X1 (c : Dev nD) : Buf (Elt F) ((c : Thread nD τ).loc main_v1) := (dat1 (V1 m) c).arrAt 1 cfg1.N

/-- After region 1. -/
def W2 (c : Dev nD) : Valuation τ sig (Elt F) := Function.update (W1 m c) main_v1 (X1 m c)

/-- After the host operations between regions 1 and 2. -/
abbrev W3 (c : Dev nD) : Valuation τ sig (Elt F) := StableHlo.after hostOps2 (W2 m c)
abbrev V3 : (c : Dev nD) → (b : Ref sig .tc) → Buf (Elt F) ((c : Thread nD τ).loc b) := fun c b => W3 m c b

/-- What region 2 leaves in its two result arrays. -/
def X2a (c : Dev nD) : Buf (Elt F) ((c : Thread nD τ).loc main_v6_0) := (dat2 (V3 m) c).arrAt 5 cfg2.N
def X2o (c : Dev nD) : Buf (Elt F) ((c : Thread nD τ).loc main_v6_1) := (dat2 (V3 m) c).arrAt 6 cfg2.N

/-- After region 2: the end of @main. -/
def W4 (c : Dev nD) : Valuation τ sig (Elt F) :=
  Function.update (Function.update (W3 m c) main_v6_0 (X2a m c)) main_v6_1 (X2o m c)

end Vals

end Cert.KernelIdeal.Hand

end
-- ==== Proof.KI.Body0.lean ====
/-
  The body obligation of region 0. At every point the body loads the weight block and the inputs' column tile,
  each through the whole of its staging buffer, multiplies them, and overwrites the result's staging buffer with
  the product tile. The two inputs' buffers hold their blocks at every point (the weights' block index never moves),
  the invariant and the core's debts pass through untouched, and the result's buffer, read back after the one
  whole-block store, is the payload itself.
-/
import proofs.«159752_j43112881717764_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

namespace Body0

/-! ## The input windows hold their blocks at every point -/

/-- What the proof data says the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by
  dsimp only [dat0, prod0]

/-- The weights' staging buffer holds the weight block at every point: it is fetched at the first point only, but
    the block index never moves, and the body leaves the buffer as it found it. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; dsimp only [dat0]; try rfl) t d).trans
    (by unfold Dat.fetched Dat.blockOf iblk0; dsimp only [dat0]; try rfl)

/-- The inputs' staging buffer holds the point's column tile: it is fetched at every point. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; dsimp only [dat0]; try rfl) t d).trans
    (by unfold Dat.fetched Dat.blockOf iblk0; dsimp only [dat0]; try rfl)

/-! ## The body's triple -/

/-- A rectangle of rank two at the origin has offset zero on each axis. -/
theorem origin2 : (![0, 0] : Fin 2 → Nat) = fun _ => 0 := funext fun a => by revert a; decide

set_option maxHeartbeats 1000000 in
/-- The body on whole staging memrefs, the two inputs' at contents `x0` and `x1` and the result's at anything,
    runs to the continuation with the inputs' as they were and the result's at the product tile of `x0` and `x1`:
    each access is through the whole block, so the loads read the buffers' contents and the one store overwrites the
    result's buffer with its payload. -/
theorem sound_kernel0 (c : Dev nD) (E : Set ℕ) (i : grid0.Coords)
    (arg1 : Memref sig .tc .vmem S512x128 .f32) (harg1 : arg1.IsWhole)
    (arg2 : Memref sig .tc .vmem S512x1024 .f32) (harg2 : arg2.IsWhole)
    (arg3 : Memref sig .tc .vmem S128x1024 .f32) (harg3 : arg3.IsWhole)
    (x0 : Vec F S512x128 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__gemm1_kernel i arg1 harg1 arg2 harg2 arg3 harg3) K := by
  simp only [cc0__gemm1_kernel_eq_skeleton]; unfold cc0__gemm1_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y =>
    ⟨_, List.mem_singleton_self _, View.mem_set_unit_zero (S := S128x1024) origin2 Gen.inb_S128x1024_S128x1024_0_0 y⟩)).trans ?_
  rw [View.canon_unit_zero (S := S128x1024) origin2]
  simp only [View.readAt_eq_ld, View.ld_unit_zero (S := S512x128) origin2, View.ld_unit_zero (S := S512x1024) origin2]

/-! ## The body obligation, at a generic point -/

/-- What the body is called with at point `t`: the invariant, the core's debts, and each window's current staging
    buffer whole, at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two inputs' buffers hold their blocks, so the body's triple applies at those blocks;
    the invariant and the core's debts are the same before and after, and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Body0

/-- The body obligation of region 0, at every point. -/
theorem body_obligation0 (c : Dev nD) : BodyObligation (dat0 (F := F) V c) (defs₀ (F := F)) Variants.none () Set.univ := fun t => by
  rw [bigSep_W0, bigSep_W0]
  exact Body0.sound_body0 V c t

end Body

end Cert.KernelIdeal.Hand

end
-- ==== Proof.KI.Body1.lean ====
/-
  Region 1: the row sums of the adjacency matrix, accumulated over the column tiles.

  Point t of the grid is the pair (row tile, column tile) = (t / 8, t % 8). The body adds the row sums of the
  point's tile into a column accumulator that lives beside the windows: at column tile 0 it first sets the
  accumulator to zero, and at column tile 7 it copies the accumulator into the result block, which is written
  back there and nowhere else. So after point t the accumulator holds the recursion `acc1` read at t: the tile's
  row sums added to zero at a first column tile, and added to what the point before left at any other.

  The region's invariant carries the accumulator from point to point: before the first point it is the class
  invariant (every buffer that is no staging buffer of the region at anything, the accumulator among them);
  afterwards the accumulator at `acc1` of the point before, beside the rest of the class invariant kept as an
  implication (give the accumulator back at anything and the class invariant holds again).
-/
import proofs.«159752_j43112881717764_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

namespace Body1

/-! ## The body's two branch conditions, in closed form over the grid -/

/-- The first branch (the accumulator is set to zero) is taken where the column-tile coordinate is 0. -/
abbrev cond1_0 (i : grid1.Coords) : Prop := (Scalar.cmpi .ne (Scalar.extui (Scalar.cmpi .eq (BitVec.ofNat 32 (i 1).val) 0#32)) 0#32) = 1#1
/-- The second branch (the accumulator is copied out) is taken where the column-tile coordinate is 7. -/
abbrev cond1_1 (i : grid1.Coords) : Prop := k1_cond2 i = 1#1

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = 7 :=
  (by decide +kernel : ∀ t : Fin grid1.N, cond1_1 (grid1.coords t) ↔ t.val % 8 = 7)

/-- The adjacency tile's window is live at every point. -/
theorem liveAt1_0 : ∀ t : Fin cfg1.N, cfg1.idle 0 (grid1.coords t) = false := by decide +kernel
/-- The result window is idle at the points whose column tile is not the last, -/
theorem idleAt1_1 : ∀ t : Fin cfg1.N, ¬t.val % 8 = 7 → cfg1.idle 1 (grid1.coords t) = true :=
  (by decide +kernel : ∀ t : Fin grid1.N, ¬t.val % 8 = 7 → cfg1.idle 1 (grid1.coords t) = true)
/-- and is not written back there; -/
theorem noFlush1_1 (t : Fin cfg1.N) (h : ¬t.val % 8 = 7) : (cfg1.win 1).flush t = false := by
  cases hf : (cfg1.win 1).flush t
  · rfl
  · exact absurd ((flush1_1 t).mp hf) h
/-- it is live at the last column tile. -/
theorem liveAt1_1 : ∀ t : Fin cfg1.N, t.val % 8 = 7 → cfg1.idle 1 (grid1.coords t) = false :=
  (by decide +kernel : ∀ t : Fin grid1.N, t.val % 8 = 7 → cfg1.idle 1 (grid1.coords t) = false)

theorem offs0 : (![0, 0] : Fin 2 → Nat) = fun _ => 0 := funext fun a => by fin_cases a <;> rfl

/-- A store of the whole column block covers it, whatever was stored before. -/
theorem cover_col (w : S1024x1.Idx → Elt F .f32) (L : List (View.Piece (Elt F) S1024x1 .f32)) (y : S1024x1.Idx) :
    ∃ p ∈ ((⟨Rect.unit (s := S1024x1) ![0, 0] S1024x1.size Gen.inb_S1024x1_S1024x1_0_0, w⟩ : View.Piece (Elt F) S1024x1 .f32) :: L), y ∈ p.1.set :=
  ⟨_, List.mem_cons_self, View.mem_set_unit_zero (S := S1024x1) offs0 Gen.inb_S1024x1_S1024x1_0_0 y⟩

/-! ## The body on any whole memrefs, case by case -/

section Runs

variable (c : Dev nD) (i : grid1.Coords) (arg2 : Memref sig .tc .vmem S1024x1024 .f32) (harg2 : arg2.IsWhole)
    (arg3 : Memref sig .tc .vmem S1024x1 .f32) (harg3 : arg3.IsWhole) (arg4 : Memref sig .tc .vmem S1024x1 .f32) (harg4 : arg4.IsWhole)

set_option maxHeartbeats 1000000 in
/-- First column tile: whatever the accumulator held, it ends at the tile's row sums added to zero; the result
    buffer is not touched. -/
theorem run1_first (hc0 : cond1_0 i) (hc1 : ¬cond1_1 i) (x0 : Vec F S1024x1024 .f32)
    (E : Set ℕ) (K : PUnit → sProp 𝕄) :
    iprop(owns (c : Thread nD τ) arg2 fullShare x0 ∗ (∃ X, owns (c : Thread nD τ) arg4 fullShare X)
        ∗ (iprop(owns (c : Thread nD τ) arg2 fullShare x0 ∗ owns (c : Thread nD τ) arg4 fullShare (k1_pay2 (k1_pay1 (F := F)) x0)) -∗ K ⟨⟩))
      ⊢ wp frame (wpE (defs₀ (F := F)) Variants.none c none) E (cc1__deg_kernel i arg2 harg2 arg3 harg3 arg4 harg4) K := by
  simp only [cc1__deg_kernel_eq_skeleton]; unfold cc1__deg_kernel_skel
  unfold owns
  iintro ⟨⟨%f0, %hf0, H0⟩, ⟨%X, %fs0, -, HS0⟩, Hk⟩
  obtain rfl := harg2.eq_unread hf0
  sl_exec (disch := first | exact hc0 | exact hc1)
  sl_step
  iapply Hk
  isplitl [H0]
  · iexists _; isplitr; · ipureintro; exact harg2.read_unread _
    iexact H0
  iexists _; isplitr
  swap; · iexact HS0
  ipureintro
  sl_unfold_words
  rw [View.read_writes_eq_canon _ _ _ (cover_col _ _),
    View.canon_cons_unit_zero offs0]
  simp only [View.readCov_unit_zero (S := S1024x1) _ offs0, View.readAt_eq_ld, harg2.read_unread, View.ld_unit_zero (S := S1024x1) offs0,
    View.ld_unit_zero (S := S1024x1024) offs0]

set_option maxHeartbeats 1000000 in
/-- A middle column tile: the accumulator ends at the tile's row sums added to what it held. -/
theorem run1_mid (hc0 : ¬cond1_0 i) (hc1 : ¬cond1_1 i) (x0 : Vec F S1024x1024 .f32) (xs : Vec F S1024x1 .f32)
    (E : Set ℕ) (K : PUnit → sProp 𝕄) :
    iprop(owns (c : Thread nD τ) arg2 fullShare x0 ∗ owns (c : Thread nD τ) arg4 fullShare xs
        ∗ (iprop(owns (c : Thread nD τ) arg2 fullShare x0 ∗ owns (c : Thread nD τ) arg4 fullShare (k1_pay2 xs x0)) -∗ K ⟨⟩))
      ⊢ wp frame (wpE (defs₀ (F := F)) Variants.none c none) E (cc1__deg_kernel i arg2 harg2 arg3 harg3 arg4 harg4) K := by
  simp only [cc1__deg_kernel_eq_skeleton]; unfold cc1__deg_kernel_skel
  unfold owns
  iintro ⟨⟨%f0, %hf0, H0⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  iexists _; isplitr
  swap; · iexact HS0
  ipureintro
  rw [View.read_writes_eq_canon _ _ _ (cover_col _ _),
    View.canon_unit_zero offs0]
  simp only [View.readAt_eq_ld, harg2.read_unread, harg4.read_unread, View.ld_unit_zero (S := S1024x1) offs0,
    View.ld_unit_zero (S := S1024x1024) offs0]

set_option maxHeartbeats 1000000 in
/-- Last column tile: the accumulator ends as at a middle tile, and the result buffer at the same. -/
theorem run1_last (hc0 : ¬cond1_0 i) (hc1 : cond1_1 i) (x0 : Vec F S1024x1024 .f32) (xs : Vec F S1024x1 .f32)
    (E : Set ℕ) (K : PUnit → sProp 𝕄) :
    iprop(owns (c : Thread nD τ) arg2 fullShare x0 ∗ (∃ d, owns (c : Thread nD τ) arg3 fullShare d) ∗ owns (c : Thread nD τ) arg4 fullShare xs
        ∗ (iprop(owns (c : Thread nD τ) arg2 fullShare x0 ∗ owns (c : Thread nD τ) arg3 fullShare (k1_pay2 xs x0)
            ∗ owns (c : Thread nD τ) arg4 fullShare (k1_pay2 xs x0)) -∗ K ⟨⟩))
      ⊢ wp frame (wpE (defs₀ (F := F)) Variants.none c none) E (cc1__deg_kernel i arg2 harg2 arg3 harg3 arg4 harg4) K := by
  simp only [cc1__deg_kernel_eq_skeleton]; unfold cc1__deg_kernel_skel
  unfold owns
  iintro ⟨⟨%f0, %hf0, H0⟩, ⟨%d1, %f1, -, H1⟩, ⟨%fs0, %hfs0, HS0⟩, Hk⟩
  obtain rfl := harg2.eq_unread hf0; obtain rfl := harg4.eq_unread hfs0
  sl_exec (disch := first | exact hc0 | exact hc1)
  sl_step
  iapply Hk
  isplitl [H0]
  · iexists _; isplitr; · ipureintro; exact harg2.read_unread _
    iexact H0
  isplitl [H1]
  · iexists _; isplitr
    swap; · iexact H1
    ipureintro
    sl_unfold_words
    rw [View.read_writes_eq_canon _ _ _ (cover_col _ _),
      View.canon_unit_zero offs0]
    simp only [View.readCov_unit_zero (S := S1024x1) _ offs0, View.readAt_eq_ld, harg2.read_unread, harg4.read_unread,
      View.ld_unit_zero (S := S1024x1) offs0, View.ld_unit_zero (S := S1024x1024) offs0]
  iexists _; isplitr
  swap; · iexact HS0
  ipureintro
  sl_unfold_words
  rw [View.read_writes_eq_canon _ _ _ (cover_col _ _),
    View.canon_unit_zero offs0]
  simp only [View.readAt_eq_ld, harg2.read_unread, harg4.read_unread, View.ld_unit_zero (S := S1024x1) offs0,
    View.ld_unit_zero (S := S1024x1024) offs0]

end Runs

/-! ## The accumulator's recursion, case by case -/

section Aux

variable (V : (c : Dev nD) → (b : Ref sig .tc) → Buf (Elt F) ((c : Thread nD τ).loc b))

/-- At a first column tile the accumulator is the tile's row sums added to zero. -/
theorem acc1_first (c : Dev nD) (t : Fin cfg1.N) (h0 : t.val % 8 = 0) :
    acc1 V c t.val t.isLt = k1_pay2 (k1_pay1 (F := F)) (iblk1 V c 0 t) := by
  obtain ⟨n, hn⟩ := t
  cases n with
  | zero => rfl
  | succ n => exact (if_pos h0)

/-- At any other it is the tile's row sums added to what the point before left. -/
theorem acc1_later (c : Dev nD) (t : Fin cfg1.N) (h0 : ¬t.val % 8 = 0) :
    acc1 V c t.val t.isLt = k1_pay2 (acc1 V c (t.val - 1) (Nat.lt_of_le_of_lt (Nat.sub_le _ _) t.isLt)) (iblk1 V c 0 t) := by
  obtain ⟨n, hn⟩ := t
  cases n with
  | zero => exact absurd (Nat.zero_mod _) h0
  | succ n => exact (if_neg h0)

/-! ## The invariant: the accumulator taken out of the class invariant -/

/-- The class invariant is the accumulator at something, beside the rest: the accumulator is one of the scoped
    buffers that are no staging buffer of this region, and putting it back among the others gives the class
    invariant again. -/
theorem take_scr1 (c : Dev nD) :
    (Pipeline.ΦA spec1 c : sProp 𝕄) ⊢ iprop((∃ X, owns (c : Thread nD τ) scr1 fullShare X) ∗ Rest1 (F := F) c) := by
  unfold Rest1 Pipeline.ΦA
  rw [scopedRest1_eq]
  simp only [scr1, owns_whole]
  iintro ⟨⟨H1, H2, H3, H4, H5, HS, Hr⟩, Hg⟩
  isplitl [HS]; · iexact HS
  iintro HS
  isplitr [Hg]
  swap; · iexact Hg
  isplitl [H1]; · iexact H1
  isplitl [H2]; · iexact H2
  isplitl [H3]; · iexact H3
  isplitl [H4]; · iexact H4
  isplitl [H5]; · iexact H5
  isplitl [HS]; · iexact HS
  iexact Hr

/-- Before a point that is not the first: the accumulator at what the point before left, beside the rest. -/
theorem Phi1_pos (c : Dev nD) (n : ℕ) (h : n ≤ cfg1.N) (hz : n ≠ 0) :
    Phi1 V c n h = iprop(owns (c : Thread nD τ) scr1 fullShare (acc1 V c (n - 1) (by omega)) ∗ Rest1 c) := by
  cases n with
  | zero => exact absurd rfl hz
  | succ n => rfl

/-! ## The body obligation -/

/-- Each window's current staging memref at point `t`, and its wholeness. -/
abbrev ms1_0 (t : Fin cfg1.N) : Memref sig .tc .vmem S1024x1024 .f32 := win1_0.stage (cfg1.slots t 0)
abbrev hs1_0 (t : Fin cfg1.N) : (ms1_0 t).IsWhole := Gen.hstage1_0 ((cfg1.slots t 0).cast Gen.nbuf1_0)
abbrev ms1_1 (t : Fin cfg1.N) : Memref sig .tc .vmem S1024x1 .f32 := win1_1.stage (cfg1.slots t 1)
abbrev hs1_1 (t : Fin cfg1.N) : (ms1_1 t).IsWhole := Gen.hstage1_1 ((cfg1.slots t 1).cast Gen.nbuf1_1)

theorem after1_0 (c : Dev nD) (t : Fin cfg1.N) : (dat1 (F := F) V c).after 0 t = iblk1 V c 0 t := by dsimp only [dat1]
theorem after1_1 (c : Dev nD) (t : Fin cfg1.N) : (dat1 (F := F) V c).after 1 t = acc1 V c t.val t.isLt := by dsimp only [dat1]

/-- The adjacency tile's buffer holds the tile at every point: the window is an input, never idle and uncut, and
    the body leaves its block in place. -/
theorem before1_0 (c : Dev nD) (t : Fin cfg1.N) (d) : (dat1 (F := F) V c).before 0 t d = iblk1 V c 0 t :=
  ((dat1 (F := F) V c).before_in_eq_fetched 0 rfl (fun _ => rfl) (fun _ _ _ => rfl)
    (fun t => by rw [after1_0]; unfold Dat.blockOf iblk1; try rfl) t d).trans
    (by unfold Dat.fetched Dat.blockOf iblk1; try rfl)

theorem Phi1_castSucc (c : Dev nD) (t : Fin cfg1.N) :
    (dat1 (F := F) V c).Φ t.castSucc = Phi1 V c t.val (Nat.le_of_lt t.isLt) := by
  dsimp only [dat1]; simp only [Fin.coe_castSucc]

/-- What the body is called with at point `t`, -/
def bodyPre1 (c : Dev nD) (t : Fin cfg1.N) : sProp 𝕄 :=
  iprop((dat1 (F := F) V c).Φ t.castSucc ∗ (dat1 (F := F) V c).owesAt () t.castSucc
    ∗ (∃ d, owns (c : Thread nD τ) (ms1_0 t) fullShare ((dat1 (F := F) V c).before 0 t d))
    ∗ (∃ d, owns (c : Thread nD τ) (ms1_1 t) fullShare ((dat1 (F := F) V c).before 1 t d)))

/-- and what it returns. -/
def bodyPost1 (c : Dev nD) (t : Fin cfg1.N) : sProp 𝕄 :=
  iprop((dat1 (F := F) V c).Φ t.succ ∗ (dat1 (F := F) V c).owesAt () t.succ
    ∗ (dat1 (F := F) V c).leavesExact 0 t
    ∗ (dat1 (F := F) V c).leavesExact 1 t)

/-- The body at any point. The tile's buffer holds the tile; the point's column tile says which branches are taken;
    the invariant hands the body the accumulator (at anything at the very first point, else at what the point
    before left) and takes it back at this point's value, which is the accumulator's recursion read at the point;
    the result buffer is handed back untouched except at the last column tile, where it receives the accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 (F := F) V c).owesAt () t.succ = (dat1 (F := F) V c).owesAt () t.castSucc from rfl]
  rw [show (dat1 (F := F) V c).Φ t.succ = iprop(owns (c : Thread nD τ) scr1 fullShare (acc1 V c t.val t.isLt) ∗ Rest1 c) from rfl]
  rw [show (dat1 (F := F) V c).leavesExact 0 t = owns (c : Thread nD τ) (ms1_0 t) fullShare ((dat1 (F := F) V c).after 0 t) from by
    unfold Dat.leavesExact; rw [liveAt1_0 t], after1_0]
  have hN : t.val < 64 := lt_of_lt_of_eq t.isLt (show cfg1.N = 64 from N_1)
  by_cases h0 : t.val % 8 = 0
  · have h1 : ¬t.val % 8 = 7 := by omega
    rw [Dat.leavesExact_idle (dat1 (F := F) V c) 1 t (idleAt1_1 t h1) (noFlush1_1 t h1)]
    rw [acc1_first V c t h0]
    by_cases hz : t.val = 0
    · rw [Phi1_castSucc V c t, show Phi1 V c t.val (Nat.le_of_lt t.isLt) = Phi1 V c 0 (Nat.zero_le _) from by congr 1]
      rw [show Phi1 V c 0 (Nat.zero_le _) = Pipeline.ΦA spec1 c from rfl]
      iintro ⟨HP, Ho, ⟨%d0, H0⟩, H1⟩
      ihave HP' := take_scr1 (F := F) c $$ HP
      icases HP' with ⟨HS, HR⟩
      iapply (run1_first c (grid1.coords t) (ms1_0 t) (hs1_0 t) (ms1_1 t) (hs1_1 t) scr1 (Memref.isWhole_whole _)
        ((hcond1_0 t).mpr h0) (fun h => h1 ((hcond1_1 t).mp h)) (iblk1 V c 0 t) Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      iexact H1
    · rw [Phi1_castSucc V c t, Phi1_pos V c _ _ hz]
      iintro ⟨⟨HS, HR⟩, Ho, ⟨%d0, H0⟩, H1⟩
      iapply (run1_first c (grid1.coords t) (ms1_0 t) (hs1_0 t) (ms1_1 t) (hs1_1 t) scr1 (Memref.isWhole_whole _)
        ((hcond1_0 t).mpr h0) (fun h => h1 ((hcond1_1 t).mp h)) (iblk1 V c 0 t) Set.univ _)
      isplitl [H0]; · iexact H0
      isplitl [HS]; · iexists _; iexact HS
      iintro ⟨H0, HS⟩
      isplitl [HS HR]
      · isplitl [HS]; · iexact HS
        iexact HR
      isplitl [Ho]; · iexact Ho
      isplitl [H0]; · iexact H0
      iexact H1
  · have hz : t.val ≠ 0 := fun e => h0 (by rw [e])
    rw [acc1_later V c t h0]
    rw [Phi1_castSucc V c t, Phi1_pos V c _ _ hz]
    by_cases h1 : t.val % 8 = 7
    · rw [show (dat1 (F := F) V c).leavesExact 1 t = owns (c : Thread nD τ) (ms1_1 t) fullShare ((dat1 (F := F) V c).after 1 t) from by
        unfold Dat.leavesExact; rw [liveAt1_1 t h1], after1_1, acc1_later V c t h0]
      iintro ⟨⟨HS, HR⟩, Ho, ⟨%d0, H0⟩, H1⟩
      iapply (run1_last c (grid1.coords t) (ms1_0 t) (hs1_0 t) (ms1_1 t) (hs1_1 t) scr1 (Memref.isWhole_whole _)
        (fun h => h0 ((hcond1_0 t).mp h)) ((hcond1_1 t).mpr h1) (iblk1 V c 0 t)
        (acc1 V c (t.val - 1) (Nat.lt_of_le_of_lt (Nat.sub_le _ _) t.isLt)) Set.univ _)
      isplitl [H0]; · iexact H0
      isplitl [H1]; · icases H1 with ⟨%d1, H1⟩; iexists _; iexact H1
      isplitl [HS]; · iexact HS
      iintro ⟨H0, H1, HS⟩
      isplitl [HS HR]
      · isplitl [HS]; · iexact HS
        iexact HR
      isplitl [Ho]; · iexact Ho
      isplitl [H0]; · iexact H0
      iexact H1
    · rw [Dat.leavesExact_idle (dat1 (F := F) V c) 1 t (idleAt1_1 t h1) (noFlush1_1 t h1)]
      iintro ⟨⟨HS, HR⟩, Ho, ⟨%d0, H0⟩, H1⟩
      iapply (run1_mid c (grid1.coords t) (ms1_0 t) (hs1_0 t) (ms1_1 t) (hs1_1 t) scr1 (Memref.isWhole_whole _)
        (fun h => h0 ((hcond1_0 t).mp h)) (fun h => h1 ((hcond1_1 t).mp h)) (iblk1 V c 0 t)
        (acc1 V c (t.val - 1) (Nat.lt_of_le_of_lt (Nat.sub_le _ _) t.isLt)) Set.univ _)
      isplitl [H0]; · iexact H0
      isplitl [HS]; · iexact HS
      iintro ⟨H0, HS⟩
      isplitl [HS HR]
      · isplitl [HS]; · iexact HS
        iexact HR
      isplitl [Ho]; · iexact Ho
      isplitl [H0]; · iexact H0
      iexact H1

end Aux

end Body1

section Body

variable (V : (c : Dev nD) → (b : Ref sig .tc) → Buf (Elt F) ((c : Thread nD τ).loc b))

open Body1

/-- What the launch hands the region is the invariant before the first point. -/
theorem hin1 (c : Dev nD) : Pipeline.ΦA spec1 c ⊢ (dat1 (F := F) V c).Φ 0 := by
  rw [show (dat1 (F := F) V c).Φ 0 = Phi1 V c 0 (Nat.zero_le _) from rfl]
  exact Idealize.SL.BI.Entails.refl _

/-- After the last point the invariant gives the class invariant back: the accumulator's contents are forgotten. -/
theorem hout1 (c : Dev nD) : (dat1 (F := F) V c).Φ (Fin.last cfg1.N) ⊢ Pipeline.ΦA spec1 c := by
  rw [show (dat1 (F := F) V c).Φ (Fin.last cfg1.N) = Phi1 V c (Fin.last cfg1.N).val (Nat.le_of_lt_succ (Fin.last cfg1.N).isLt) from rfl,
    Phi1_pos V c _ _ (by rw [Fin.val_last]; have : cfg1.N = 64 := N_1; omega)]
  unfold Rest1
  iintro ⟨HS, Hw⟩
  iapply Hw
  iexists _; iexact HS

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Body

end Cert.KernelIdeal.Hand

end
-- ==== Proof.KI.Body2.lean ====
/-
  Region 2 at a grid point. Point `t` is (column tile, row tile) = (t / 8, t % 8). At every point the body scales the
  point's tile of (adj + I) by the inverse square roots of its row and column degrees and stores it, whole, into the
  scaled matrix's buffer; it adds (x * d_row) times the unscaled tile to the accumulator, which it first stores with zero
  when the row tile is the first of its column tile; and when the row tile is the last it stores the accumulator, scaled
  by the column degrees and clamped at zero, into the result's buffer — a buffer it leaves untouched at every other point.

  Every load and every store is of a whole buffer: a load reads the buffer's contents, and after a store the buffer
  reads as the stored block, whatever it held before. So each of the three control cases (first row tile, last row
  tile, neither) leaves in each buffer exactly the term the proof data names, and the accumulator's recursion over the
  points is the body's own: reset where the row tile is the first, carried from the point before elsewhere.
-/
import proofs.«159752_j43112881717764_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

section Body

variable (V : (c : Dev nD) → (b : Ref sig .tc) → Buf (Elt F) ((c : Thread nD τ).loc b))

/-! ## The branch conditions and the idle points, in closed form over the grid -/

/-- The condition of the reset branch: the row tile is the first. -/
abbrev cond2_0 (i : grid2.Coords) : Prop :=
  (Scalar.cmpi .ne (Scalar.extui (Scalar.cmpi .eq (BitVec.ofNat 32 (i 1).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The condition of the closing branch: the row tile is the last. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- Off the last row tile nothing is stored into the result's buffer; -/
theorem idle2_6 : ∀ t : Fin cfg2.N, ¬ t.val % 8 = 7 → cfg2.idle 6 (grid2.coords t) = true :=
  (by decide +kernel : ∀ t : Fin grid2.N, ¬ t.val % 8 = 7 → idle2 6 (grid2.coords t) = true)
/-- at the last row tile the buffer is stored whole. -/
theorem live2_6 : ∀ t : Fin cfg2.N, t.val % 8 = 7 → cfg2.idle 6 (grid2.coords t) = false :=
  (by decide +kernel : ∀ t : Fin grid2.N, t.val % 8 = 7 → idle2 6 (grid2.coords t) = false)

/-! ## The input windows' buffers hold their blocks, fetched at the point or not -/

theorem before2_0 (c : Dev nD) (t : Fin cfg2.N) (d) : (dat2 (F := F) V c).before 0 t d = iblk2 V c 0 t :=
  ((dat2 (F := F) V c).before_in_eq_fetched 0 rfl (fun _ => rfl) (fun _ _ _ => rfl) (fun _ => rfl) t d).trans rfl
theorem before2_1 (c : Dev nD) (t : Fin cfg2.N) (d) : (dat2 (F := F) V c).before 1 t d = iblk2 V c 1 t :=
  ((dat2 (F := F) V c).before_in_eq_fetched 1 rfl (fun _ => rfl) (fun _ _ _ => rfl) (fun _ => rfl) t d).trans rfl
theorem before2_2 (c : Dev nD) (t : Fin cfg2.N) (d) : (dat2 (F := F) V c).before 2 t d = iblk2 V c 2 t :=
  ((dat2 (F := F) V c).before_in_eq_fetched 2 rfl (fun _ => rfl) (fun _ _ _ => rfl) (fun _ => rfl) t d).trans rfl
theorem before2_3 (c : Dev nD) (t : Fin cfg2.N) (d) : (dat2 (F := F) V c).before 3 t d = iblk2 V c 3 t :=
  ((dat2 (F := F) V c).before_in_eq_fetched 3 rfl (fun _ => rfl) (fun _ _ _ => rfl) (fun _ => rfl) t d).trans rfl
theorem before2_4 (c : Dev nD) (t : Fin cfg2.N) (d) : (dat2 (F := F) V c).before 4 t d = iblk2 V c 4 t :=
  ((dat2 (F := F) V c).before_in_eq_fetched 4 rfl (fun _ => rfl) (fun _ _ _ => rfl) (fun _ => rfl) t d).trans rfl

/-! ## The body on any whole buffers, case by case -/

theorem hz2 : (![0, 0] : Fin 2 → Nat) = fun _ => 0 := funext fun a => by fin_cases a <;> rfl

/-- A store of the whole block, made last, leaves its payload, whatever was stored before it. -/
theorem read_store_whole2 {κ : Kind} {sp : Space} {S : Shape} {e : EltTy} (v : View sig κ sp S e) (f : v.ty.Contents (Elt F))
    {off : Fin S.rank → Nat} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hoff inb y⟩),
    View.canon_cons_unit_zero hoff]

set_option maxHeartbeats 1000000 in
/-- Neither the first nor the last row tile: the scaled tile is stored, and the product is added to the accumulator. -/
theorem run2_B (c : Dev nD) (i : grid2.Coords)
    (a2 : Memref sig .tc .vmem S1024x1024 .f32) (h2 : a2.IsWhole)
    (a3 : Memref sig .tc .vmem S128x1024 .f32) (h3 : a3.IsWhole)
    (a4 : Memref sig .tc .vmem S1024x1 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S128x1024 .f32) (h8 : a8.IsWhole)
    (a9 : Memref sig .tc .vmem S128x1024 .f32) (h9 : a9.IsWhole)
    (hc0 : ¬cond2_0 i) (hc1 : ¬cond2_1 i)
    (x0 : Vec F S1024x1024 .f32) (x1 : Vec F S128x1024 .f32) (x2 : Vec F S1024x1 .f32)
    (x3 : Vec F S1x1024 .f32) (x4 : Vec F S1x1024 .f32) (y5 : Vec F S1024x1024 .f32) (y6 : Vec F S128x1024 .f32)
    (s : Vec F S128x1024 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare y5 ∗ owns (c : Thread nD τ) a8 fullShare y6 ∗ owns (c : Thread nD τ) a9 fullShare s
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare (k2_pay6 i x2 x4 x0) ∗ owns (c : Thread nD τ) a8 fullShare y6 ∗ owns (c : Thread nD τ) a9 fullShare (k2_pay1 (k2_pay7 i x3 x0 x1) s)) -∗ K ⟨⟩))
      ⊢ wp frame (wpE (defs₀ (F := F)) Variants.none c none) E (cc2__main_kernel i a2 h2 a3 h3 a4 h4 a5 h5 a6 h6 a7 h7 a8 h8 a9 h9) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hf6; obtain rfl := h9.eq_unread hf9
  sl_exec (disch := first | exact hc0 | exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    refine (read_store_whole2 _ _ hz2 _ _ _).trans ?_
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]
  isplitl [H6]
  · iexists _; isplitr; swap; · iexact H6
    ipureintro; exact hf6
  iexists _; isplitr; swap; · iexact H9
  ipureintro
  refine (read_store_whole2 _ _ hz2 _ _ _).trans ?_
  dsimp only
  simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]

set_option maxHeartbeats 1000000 in
/-- The first row tile: the accumulator, whatever it held, is stored with zero before the product is added. -/
theorem run2_A (c : Dev nD) (i : grid2.Coords)
    (a2 : Memref sig .tc .vmem S1024x1024 .f32) (h2 : a2.IsWhole)
    (a3 : Memref sig .tc .vmem S128x1024 .f32) (h3 : a3.IsWhole)
    (a4 : Memref sig .tc .vmem S1024x1 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S128x1024 .f32) (h8 : a8.IsWhole)
    (a9 : Memref sig .tc .vmem S128x1024 .f32) (h9 : a9.IsWhole)
    (hc0 : cond2_0 i) (hc1 : ¬cond2_1 i)
    (x0 : Vec F S1024x1024 .f32) (x1 : Vec F S128x1024 .f32) (x2 : Vec F S1024x1 .f32)
    (x3 : Vec F S1x1024 .f32) (x4 : Vec F S1x1024 .f32) (y5 : Vec F S1024x1024 .f32) (y6 : Vec F S128x1024 .f32)
    (s : Vec F S128x1024 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare y5 ∗ owns (c : Thread nD τ) a8 fullShare y6 ∗ owns (c : Thread nD τ) a9 fullShare s
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare (k2_pay6 i x2 x4 x0) ∗ owns (c : Thread nD τ) a8 fullShare y6 ∗ owns (c : Thread nD τ) a9 fullShare (k2_pay1 (k2_pay7 i x3 x0 x1) (k2_pay3 (F := F)))) -∗ K ⟨⟩))
      ⊢ wp frame (wpE (defs₀ (F := F)) Variants.none c none) E (cc2__main_kernel i a2 h2 a3 h3 a4 h4 a5 h5 a6 h6 a7 h7 a8 h8 a9 h9) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hf6; obtain rfl := h9.eq_unread hf9
  sl_exec (disch := first | exact hc0 | exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    refine (read_store_whole2 _ _ hz2 _ _ _).trans ?_
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]
  isplitl [H6]
  · iexists _; isplitr; swap; · iexact H6
    ipureintro; exact hf6
  iexists _; isplitr; swap; · iexact H9
  ipureintro
  sl_unfold_words
  refine (read_store_whole2 _ _ hz2 _ _ _).trans ?_
  dsimp only
  simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2, View.readCov_unit_zero (S := S128x1024) _ hz2]

set_option maxHeartbeats 1000000 in
/-- The last row tile: after the product is added, the accumulator scaled by the column degrees and clamped at zero is
    stored into the result's buffer. -/
theorem run2_C (c : Dev nD) (i : grid2.Coords)
    (a2 : Memref sig .tc .vmem S1024x1024 .f32) (h2 : a2.IsWhole)
    (a3 : Memref sig .tc .vmem S128x1024 .f32) (h3 : a3.IsWhole)
    (a4 : Memref sig .tc .vmem S1024x1 .f32) (h4 : a4.IsWhole)
    (a5 : Memref sig .tc .vmem S1x1024 .f32) (h5 : a5.IsWhole)
    (a6 : Memref sig .tc .vmem S1x1024 .f32) (h6 : a6.IsWhole)
    (a7 : Memref sig .tc .vmem S1024x1024 .f32) (h7 : a7.IsWhole)
    (a8 : Memref sig .tc .vmem S128x1024 .f32) (h8 : a8.IsWhole)
    (a9 : Memref sig .tc .vmem S128x1024 .f32) (h9 : a9.IsWhole)
    (hc0 : ¬cond2_0 i) (hc1 : cond2_1 i)
    (x0 : Vec F S1024x1024 .f32) (x1 : Vec F S128x1024 .f32) (x2 : Vec F S1024x1 .f32)
    (x3 : Vec F S1x1024 .f32) (x4 : Vec F S1x1024 .f32) (y5 : Vec F S1024x1024 .f32) (y6 : Vec F S128x1024 .f32)
    (s : Vec F S128x1024 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare y5 ∗ owns (c : Thread nD τ) a8 fullShare y6 ∗ owns (c : Thread nD τ) a9 fullShare s
        ∗ (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare x4
        ∗ owns (c : Thread nD τ) a7 fullShare (k2_pay6 i x2 x4 x0) ∗ owns (c : Thread nD τ) a8 fullShare (k2_pay2 (k2_pay4 x4) (k2_pay1 (k2_pay7 i x3 x0 x1) s)) ∗ owns (c : Thread nD τ) a9 fullShare (k2_pay1 (k2_pay7 i x3 x0 x1) s)) -∗ K ⟨⟩))
      ⊢ wp frame (wpE (defs₀ (F := F)) Variants.none c none) E (cc2__main_kernel i a2 h2 a3 h3 a4 h4 a5 h5 a6 h6 a7 h7 a8 h8 a9 h9) K := by
  simp only [cc2__main_kernel_eq_skeleton]; unfold cc2__main_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f9, %hf9, H9⟩, Hk⟩
  obtain rfl := h2.eq_unread hf0; obtain rfl := h3.eq_unread hf1; obtain rfl := h4.eq_unread hf2
  obtain rfl := h5.eq_unread hf3; obtain rfl := h6.eq_unread hf4; obtain rfl := h7.eq_unread hf5
  obtain rfl := h8.eq_unread hf6; obtain rfl := h9.eq_unread hf9
  sl_exec (disch := first | exact hc0 | exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro
    refine (read_store_whole2 _ _ hz2 _ _ _).trans ?_
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]
  isplitl [H6]
  · iexists _; isplitr; swap; · iexact H6
    ipureintro
    sl_unfold_words
    refine (read_store_whole2 _ _ hz2 _ _ _).trans ?_
    dsimp only
    simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2, View.readCov_unit_zero (S := S128x1024) _ hz2]
  iexists _; isplitr; swap; · iexact H9
  ipureintro
  sl_unfold_words
  refine (read_store_whole2 _ _ hz2 _ _ _).trans ?_
  dsimp only
  simp only [View.readAt_eq_ld, h2.read_unread, h3.read_unread, h4.read_unread, h5.read_unread, h6.read_unread, h9.read_unread,
          View.ld_unit_zero (S := S1024x1024) hz2, View.ld_unit_zero (S := S128x1024) hz2, View.ld_unit_zero (S := S1024x1) hz2,
          View.ld_unit_zero (S := S1x1024) hz2]

/-! ## The class invariant and the accumulator -/

/-- The class invariant with the accumulator taken out of it, at anything, beside what is left. -/
theorem PhiA2_split (c : Dev nD) :
    (Pipeline.ΦA spec2 c : sProp 𝕄) ⊢ iprop((∃ X, owns (c : Thread nD τ) scr2 fullShare X) ∗ Rest2 (F := F) c) := by
  unfold Rest2 Pipeline.ΦA
  rw [scopedRest2_eq]
  simp only [scr2, owns_whole]
  iintro ⟨⟨H1, H2, H3, H4, H5, H6, H7, H8, H9, H10, HS⟩, Hg⟩
  isplitl [HS]
  · iexact HS
  iintro HS
  iframe

/-! ## The accumulator and the invariant, point by point -/

/-- At the first row tile of a column tile the accumulator is the point's product added to zero. -/
theorem acc2_reset (c : Dev nD) (t : Fin cfg2.N) (h0 : t.val % 8 = 0) :
    acc2 V c t.val t.isLt
      = k2_pay1 (k2_pay7 (grid2.coords t) (iblk2 V c 3 t) (iblk2 V c 0 t) (iblk2 V c 1 t)) (k2_pay3 (F := F)) := by
  obtain ⟨n, hn⟩ := t
  cases n with
  | zero => rfl
  | succ n => exact if_pos h0

/-- At any other row tile it is the point's product added to what the point before left. -/
theorem acc2_step (c : Dev nD) (t : Fin cfg2.N) (h0 : ¬ t.val % 8 = 0) :
    acc2 V c t.val t.isLt
      = k2_pay1 (k2_pay7 (grid2.coords t) (iblk2 V c 3 t) (iblk2 V c 0 t) (iblk2 V c 1 t))
          (acc2 V c (t.val - 1) (Nat.lt_of_le_of_lt (Nat.sub_le _ _) t.isLt)) := by
  obtain ⟨n, hn⟩ := t
  cases n with
  | zero => exact absurd (Nat.zero_mod _) h0
  | succ n => exact if_neg h0

theorem Phi2_castSucc (c : Dev nD) (t : Fin cfg2.N) :
    (dat2 (F := F) V c).Φ t.castSucc = Phi2 V c t.val (Nat.le_of_lt t.isLt) := rfl

/-- Before a point that is not the first the accumulator holds what the point before left. -/
theorem Phi2_pos (c : Dev nD) (n : ℕ) (h : n ≤ cfg2.N) (hn0 : n ≠ 0) :
    Phi2 V c n h = iprop(owns (c : Thread nD τ) scr2 fullShare (acc2 V c (n - 1) (by omega)) ∗ Rest2 c) := by
  cases n with
  | zero => exact absurd rfl hn0
  | succ n => rfl

/-- Before any point the accumulator holds something, beside the rest. -/
theorem Phi2_any (c : Dev nD) (n : ℕ) (h : n ≤ cfg2.N) :
    Phi2 V c n h ⊢ iprop((∃ X, owns (c : Thread nD τ) scr2 fullShare X) ∗ Rest2 (F := F) c) := by
  cases n with
  | zero => exact PhiA2_split c
  | succ n =>
    unfold Phi2
    iintro ⟨HS, HR⟩
    isplitl [HS]; · iexists _; iexact HS
    iexact HR

/-! ## What the body leaves in each window's buffer -/

theorem leaves2_0 (c : Dev nD) (t : Fin cfg2.N) :
    (dat2 (F := F) V c).leavesExact 0 t = owns (c : Thread nD τ) (st2_0 t) fullShare (iblk2 V c 0 t) := rfl
theorem leaves2_1 (c : Dev nD) (t : Fin cfg2.N) :
    (dat2 (F := F) V c).leavesExact 1 t = owns (c : Thread nD τ) (st2_1 t) fullShare (iblk2 V c 1 t) := rfl
theorem leaves2_2 (c : Dev nD) (t : Fin cfg2.N) :
    (dat2 (F := F) V c).leavesExact 2 t = owns (c : Thread nD τ) (st2_2 t) fullShare (iblk2 V c 2 t) := rfl
theorem leaves2_3 (c : Dev nD) (t : Fin cfg2.N) :
    (dat2 (F := F) V c).leavesExact 3 t = owns (c : Thread nD τ) (st2_3 t) fullShare (iblk2 V c 3 t) := rfl
theorem leaves2_4 (c : Dev nD) (t : Fin cfg2.N) :
    (dat2 (F := F) V c).leavesExact 4 t = owns (c : Thread nD τ) (st2_4 t) fullShare (iblk2 V c 4 t) := rfl
theorem leaves2_5 (c : Dev nD) (t : Fin cfg2.N) :
    (dat2 (F := F) V c).leavesExact 5 t
      = owns (c : Thread nD τ) (st2_5 t) fullShare (k2_pay6 (grid2.coords t) (iblk2 V c 2 t) (iblk2 V c 4 t) (iblk2 V c 0 t)) := rfl
/-- Off the last row tile the result's buffer is handed back as found: nothing is stored into it, and it is not written back. -/
theorem leaves2_6_idle (c : Dev nD) (t : Fin cfg2.N) (h7 : ¬ t.val % 8 = 7) :
    (dat2 (F := F) V c).leavesExact 6 t
      = iprop(∃ d, owns (c : Thread nD τ) (st2_6 t) fullShare ((dat2 (F := F) V c).before 6 t d)) :=
  (dat2 (F := F) V c).leavesExact_idle 6 t (idle2_6 t h7) (Bool.eq_false_iff.mpr fun h => h7 ((flush2_6 t).mp h))
/-- At the last row tile it holds the accumulator scaled by the column degrees and clamped at zero. -/
theorem leaves2_6_live (c : Dev nD) (t : Fin cfg2.N) (h7 : t.val % 8 = 7) :
    (dat2 (F := F) V c).leavesExact 6 t
      = owns (c : Thread nD τ) (st2_6 t) fullShare (k2_pay2 (k2_pay4 (iblk2 V c 4 t)) (acc2 V c t.val t.isLt)) := by
  unfold Dat.leavesExact; rw [live2_6 t h7]; rfl

/-! ## The body at a point -/

set_option maxHeartbeats 4000000 in
theorem sound_body2 (c : Dev nD) (t : Fin cfg2.N) :
    iprop((dat2 (F := F) V c).Φ t.castSucc ∗ (dat2 (F := F) V c).owesAt () t.castSucc
      ∗ (∃ d, owns (c : Thread nD τ) (st2_0 t) fullShare ((dat2 (F := F) V c).before 0 t d))
      ∗ (∃ d, owns (c : Thread nD τ) (st2_1 t) fullShare ((dat2 (F := F) V c).before 1 t d))
      ∗ (∃ d, owns (c : Thread nD τ) (st2_2 t) fullShare ((dat2 (F := F) V c).before 2 t d))
      ∗ (∃ d, owns (c : Thread nD τ) (st2_3 t) fullShare ((dat2 (F := F) V c).before 3 t d))
      ∗ (∃ d, owns (c : Thread nD τ) (st2_4 t) fullShare ((dat2 (F := F) V c).before 4 t d))
      ∗ (∃ d, owns (c : Thread nD τ) (st2_5 t) fullShare ((dat2 (F := F) V c).before 5 t d))
      ∗ (∃ d, owns (c : Thread nD τ) (st2_6 t) fullShare ((dat2 (F := F) V c).before 6 t d)))
    ⊢ wp frame (wpE (defs₀ (F := F)) Variants.none c none) Set.univ (bodyAt2 t) (fun _ =>
      iprop((dat2 (F := F) V c).Φ t.succ ∗ (dat2 (F := F) V c).owesAt () t.succ
        ∗ (dat2 (F := F) V c).leavesExact 0 t ∗ (dat2 (F := F) V c).leavesExact 1 t
        ∗ (dat2 (F := F) V c).leavesExact 2 t ∗ (dat2 (F := F) V c).leavesExact 3 t
        ∗ (dat2 (F := F) V c).leavesExact 4 t ∗ (dat2 (F := F) V c).leavesExact 5 t
        ∗ (dat2 (F := F) V c).leavesExact 6 t)) := by
  simp only [before2_0, before2_1, before2_2, before2_3, before2_4]
  rw [show (dat2 (F := F) V c).owesAt () t.succ = (dat2 (F := F) V c).owesAt () t.castSucc from rfl]
  rw [show (dat2 (F := F) V c).Φ t.succ
      = iprop(owns (c : Thread nD τ) scr2 fullShare (acc2 V c t.val t.isLt) ∗ Rest2 c) from rfl]
  rw [leaves2_0, leaves2_1, leaves2_2, leaves2_3, leaves2_4, leaves2_5, Phi2_castSucc]
  by_cases h0 : t.val % 8 = 0
  · -- the first row tile: the accumulator, at anything, is stored with zero first
    have h7 : ¬ t.val % 8 = 7 := by omega
    rw [leaves2_6_idle V c t h7, acc2_reset V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := (Phi2_any V c _ _) $$ HΦ
    icases HΦ' with ⟨⟨%s, HS⟩, HR⟩
    iapply (run2_A c (grid2.coords t) _ _ _ _ _ _ _ _ _ _ _ _ _ _ _ _ ((hcond2_0 t).mpr h0) (fun h => h7 ((hcond2_1 t).mp h))
        (iblk2 V c 0 t) (iblk2 V c 1 t) (iblk2 V c 2 t) (iblk2 V c 3 t) (iblk2 V c 4 t) ((dat2 (F := F) V c).before 5 t d5) ((dat2 (F := F) V c).before 6 t d6) s Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR]
    · isplitl [HS]; · iexact HS
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists d6; iexact H6
  · have hpos : t.val ≠ 0 := fun h => h0 (by rw [h])
    rw [Phi2_pos V c _ _ hpos, acc2_step V c t h0]
    by_cases h7 : t.val % 8 = 7
    · -- the last row tile: the accumulator, scaled and clamped, goes into the result's buffer
      rw [leaves2_6_live V c t h7, acc2_step V c t h0]
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply (run2_C c (grid2.coords t) _ _ _ _ _ _ _ _ _ _ _ _ _ _ _ _ (fun h => h0 ((hcond2_0 t).mp h)) ((hcond2_1 t).mpr h7)
        (iblk2 V c 0 t) (iblk2 V c 1 t) (iblk2 V c 2 t) (iblk2 V c 3 t) (iblk2 V c 4 t) ((dat2 (F := F) V c).before 5 t d5) ((dat2 (F := F) V c).before 6 t d6) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [leaves2_6_idle V c t h7]
      iintro ⟨⟨HS, HR⟩, Ho, ⟨%d0, H0⟩, ⟨%d1, H1⟩, ⟨%d2, H2⟩, ⟨%d3, H3⟩, ⟨%d4, H4⟩, ⟨%d5, H5⟩, ⟨%d6, H6⟩⟩
      iapply (run2_B c (grid2.coords t) _ _ _ _ _ _ _ _ _ _ _ _ _ _ _ _ (fun h => h0 ((hcond2_0 t).mp h)) (fun h => h7 ((hcond2_1 t).mp h))
        (iblk2 V c 0 t) (iblk2 V c 1 t) (iblk2 V c 2 t) (iblk2 V c 3 t) (iblk2 V c 4 t) ((dat2 (F := F) V c).before 5 t d5) ((dat2 (F := F) V c).before 6 t d6) (acc2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS HR]
      · isplitl [HS]; · iexact HS
        iexact HR
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists d6; iexact H6

/-- What the launch hands the region is the invariant before the first point. -/
theorem hin2 (c : Dev nD) : Pipeline.ΦA spec2 c ⊢ (dat2 (F := F) V c).Φ 0 := by
  rw [show (dat2 (F := F) V c).Φ 0 = Phi2 V c 0 (Nat.zero_le _) from rfl]
  exact Idealize.SL.BI.Entails.refl _

/-- After the last point the invariant gives the class invariant back: the accumulator's contents are forgotten. -/
theorem hout2 (c : Dev nD) : (dat2 (F := F) V c).Φ (Fin.last cfg2.N) ⊢ Pipeline.ΦA spec2 c := by
  rw [show (dat2 (F := F) V c).Φ (Fin.last cfg2.N) = Phi2 V c (63 + 1) (by decide) from rfl]
  unfold Phi2 Rest2
  iintro ⟨HS, Hw⟩
  iapply Hw
  iexists _; iexact HS

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Body

end Cert.KernelIdeal.Hand

end
-- ==== Proof.KI.Run.lean ====
/-
  The run of @main: region 0, region 1, the host operations between, region 2 — each region entered from the
  contents the item before it leaves, its result arrays left at what its write-backs fold to.
-/
import proofs.«159752_j43112881717764_1_alg».proof.Proof.KI.Vals
import proofs.«159752_j43112881717764_1_alg».proof.Proof.KI.Body0
import proofs.«159752_j43112881717764_1_alg».proof.Proof.KI.Body1
import proofs.«159752_j43112881717764_1_alg».proof.Proof.KI.Body2
import proofs.«159752_j43112881717764_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

namespace RunMain

/-! ## What regions 0 and 1 leave: the result array at its write-backs folded, every other buffer as entered -/

/-- At region 0's exit each of its arrays holds what the pipeline leaves: an input what it held at entry, the result
    its blocks' write-backs folded. -/
theorem hF0 (c : Dev nD) (w : Fin cfg0.W) : (dat0 (V0 m) c).arrAt w cfg0.N = V1 m c (Pipeline.arrRef spec0 w) :=
  match w with
  | ⟨0, _⟩ => ((dat0 (V0 m) c).arrAt_in 0 rfl _).trans (Function.update_of_ne (StableHlo.devRef_ne_of_ne (by decide) : (Proc.devRef .tc main_arg2 : DevRef τ sig) ≠ Proc.devRef .tc main_v0) (X0 m c) (W0 m c)).symm
  | ⟨1, _⟩ => ((dat0 (V0 m) c).arrAt_in 1 rfl _).trans (Function.update_of_ne (StableHlo.devRef_ne_of_ne (by decide) : (Proc.devRef .tc main_arg0 : DevRef τ sig) ≠ Proc.devRef .tc main_v0) (X0 m c) (W0 m c)).symm
  | ⟨2, _⟩ => (Function.update_self (Proc.devRef .tc main_v0 : DevRef τ sig) (X0 m c) (W0 m c)).symm
/-- Off region 0's arrays nothing changes. -/
theorem hrest0 (c : Dev nD) : ∀ b, b ∉ Finset.univ.image (Pipeline.arrRef spec0) → V1 m c b = V0 m c b := fun b hb =>
  Function.update_of_ne (StableHlo.devRef_ne_of_ne fun e => hb (Finset.mem_image.mpr ⟨2, Finset.mem_univ _, e.symm⟩)) _ _

/-- The contents after region 1, read at the TensorCore's references. -/
abbrev V2 : (c : Dev nD) → (b : Ref sig .tc) → Buf (Elt F) ((c : Thread nD τ).loc b) := fun c b => W2 m c b

theorem hF1 (c : Dev nD) (w : Fin cfg1.W) : (dat1 (V1 m) c).arrAt w cfg1.N = V2 m c (Pipeline.arrRef spec1 w) :=
  match w with
  | ⟨0, _⟩ => ((dat1 (V1 m) c).arrAt_in 0 rfl _).trans (Function.update_of_ne (StableHlo.devRef_ne_of_ne (by decide) : (Proc.devRef .tc main_arg1 : DevRef τ sig) ≠ Proc.devRef .tc main_v1) (X1 m c) (W1 m c)).symm
  | ⟨1, _⟩ => (Function.update_self (Proc.devRef .tc main_v1 : DevRef τ sig) (X1 m c) (W1 m c)).symm
theorem hrest1 (c : Dev nD) : ∀ b, b ∉ Finset.univ.image (Pipeline.arrRef spec1) → V2 m c b = V1 m c b := fun b hb =>
  Function.update_of_ne (StableHlo.devRef_ne_of_ne fun e => hb (Finset.mem_image.mpr ⟨1, Finset.mem_univ _, e.symm⟩)) _ _

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- The thread state between two items: every unscoped buffer at the boundary's contents, the rest beside. -/
abbrev T (W : Dev nD → Valuation τ sig (Elt F)) (c : Dev nD) : sProp 𝕄 :=
  iprop(StableHlo.held (c : Thread nD τ) (Pipeline.ucRefs τ sig) (W c) ∗ R c)

/-- The host stretch as a segment: its operations over the unscoped references from the contents after region 1, the
    rest riding along; it leaves those references at the contents region 2 is entered from. -/
abbrev hseg : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Regions 0 and 1 as segments -/

set_option backward.isDefEq.respectTransparency.types false in
/-- REGION 0 over the thread state: entered from every unscoped buffer at the launch contents, left at those with the
    product in its result array. Its arrays are split out of the unscoped buffers and put back at the exit contents;
    the generator register goes into the class invariant and comes out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := T (W0 m) c
  post c := T (W1 m) c
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents region 0 leaves, left at those with the row sums in its
    result array. Its invariant is the accumulator's: entered from the class invariant, returned to it after the last
    point. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := T (W1 m) c
  post c := T (W2 m) c
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V1 m) c)
    unfold Pipeline.ΦA
    iintro ⟨Hp, -, Hr⟩
    isplitl [Hr]; · iexact Hr
    iexact Hp
  hout c := by
    refine BIBase.Entails.trans (hout1 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2: two of its windows read one array -/

/-- The contents after region 2, read at the TensorCore's references. -/
abbrev V4 : (c : Dev nD) → (b : Ref sig .tc) → Buf (Elt F) ((c : Thread nD τ).loc b) := fun c b => W4 m c b

/-- The distinct buffers behind region 2's seven windows, one by one: windows 3 and 4 read the same one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v0) ↦{fullShare} V main_v0)
          ∗ (((c : Thread nD τ).loc main_v4) ↦{fullShare} V main_v4) ∗ (((c : Thread nD τ).loc main_v5) ↦{fullShare} V main_v5)
          ∗ (((c : Thread nD τ).loc main_v6_0) ↦{fullShare} V main_v6_0) ∗ (((c : Thread nD τ).loc main_v6_1) ↦{fullShare} V main_v6_1)) := by
  unfold Pipeline.arrBufs
  exact bigSep_eq_bigSepL_of_eq [main_arg1, main_v0, main_v4, main_v5, main_v6_0, main_v6_1] (by decide) (by decide) _

section Shared

variable (V : (c : Dev nD) → (b : Ref sig .tc) → Buf (Elt F) ((c : Thread nD τ).loc b))

/-- A window's array is a whole buffer: the points-to over its elements is the points-to of the buffer. -/
theorem arr2_pt (c : Dev nD) (Fv : (w : Fin cfg2.W) → Buf (Elt F) ((cfg2.win w).arr.view.loc (c.tc : Thread nD τ))) (w : Fin cfg2.W) :
    ((cfg2.win w).arr.view.loc (c.tc : Thread nD τ) ↦[(cfg2.win w).arr.view.set]{(dat2 V c).share w} Fv w : sProp 𝕄)
      = (((c : Thread nD τ).loc (Pipeline.arrRef spec2 w)) ↦{(dat2 V c).share w} Fv w) := by
  rw [show (cfg2.win w).arr.view.set = Finset.univ from (arr_whole2 w).set_eq_univ]

/-- Region 2's arrays, window by window: every array whole at the full share, but the one windows 3 and 4 read, of
    which each holds a half. -/
theorem arrays2_eq (c : Dev nD) (Fv : (w : Fin cfg2.W) → Buf (Elt F) ((cfg2.win w).arr.view.loc (c.tc : Thread nD τ))) :
    ((dat2 V c).arrays Fv : sProp 𝕄)
      = iprop((((c : Thread nD τ).loc main_arg1) ↦{fullShare} Fv 0) ∗ (((c : Thread nD τ).loc main_v0) ↦{fullShare} Fv 1)
          ∗ (((c : Thread nD τ).loc main_v4) ↦{fullShare} Fv 2)
          ∗ (((c : Thread nD τ).loc main_v5) ↦{fullShare.left} Fv 3) ∗ (((c : Thread nD τ).loc main_v5) ↦{fullShare.right} Fv 4)
          ∗ (((c : Thread nD τ).loc main_v6_0) ↦{fullShare} Fv 5) ∗ (((c : Thread nD τ).loc main_v6_1) ↦{fullShare} Fv 6)) := by
  unfold Dat.arrays
  rw [bigSep_W2, arr2_pt V c Fv 0, arr2_pt V c Fv 1, arr2_pt V c Fv 2, arr2_pt V c Fv 3, arr2_pt V c Fv 4, arr2_pt V c Fv 5, arr2_pt V c Fv 6]
  rfl

/-- ENTRY of region 2, the arrays' part: the core's unscoped buffers are region 2's arrays at their entry contents —
    the array two windows read split into its two halves — and the rest. -/
theorem entry2 (c : Dev nD) :
    (unscopedBufs c (V c) : sProp 𝕄)
      ⊢ iprop((dat2 V c).arrays ((dat2 V c).arrAt · 0) ∗ Pipeline.unscopedRest spec2 c (V c)) := by
  rw [Pipeline.unscopedBufs_split₀ cfgs 2 winFacts₀2.arr_unscoped c (V c)]
  refine sep_mono ?_ .rfl
  refine BIBase.Entails.trans (BIBase.Entails.of_eq (arrBufs2_eq c (V c))) ?_
  rw [arrays2_eq]
  iintro ⟨H0, H1, H2, H5, H6, H7⟩
  ihave H5' := (pointsTo_share (PosShare.mem_left_op_right fullShare)).1 $$ H5
  icases H5' with ⟨H5l, H5r⟩
  isplitl [H0]; · iexact H0
  isplitl [H1]; · iexact H1
  isplitl [H2]; · iexact H2
  isplitl [H5l]; · iexact H5l
  isplitl [H5r]; · iexact H5r
  isplitl [H6]; · iexact H6
  iexact H7

/-- EXIT of region 2, the arrays' part: region 2's arrays at contents that a valuation has at them, the two halves of
    the shared array joined, and the rest as entered, are the core's unscoped buffers at that valuation if it agrees
    with the entry contents off the arrays. -/
theorem exit2 (V' : (c : Dev nD) → (b : Ref sig .tc) → Buf (Elt F) ((c : Thread nD τ).loc b)) (c : Dev nD)
    (hF : ∀ w, (dat2 V c).arrAt w cfg2.N = V' c (Pipeline.arrRef spec2 w))
    (hrest : ∀ b, b ∉ Finset.univ.image (Pipeline.arrRef spec2) → V' c b = V c b) :
    iprop((dat2 V c).arrays ((dat2 V c).arrAt · cfg2.N) ∗ Pipeline.unscopedRest spec2 c (V c))
      ⊢ (unscopedBufs c (V' c) : sProp 𝕄) := by
  have hFv : ((dat2 V c).arrAt · cfg2.N) = fun w => V' c (Pipeline.arrRef spec2 w) := funext hF
  rw [Pipeline.unscopedBufs_split₀ cfgs 2 winFacts₀2.arr_unscoped c (V' c), hFv]
  refine sep_mono ?_ (BIBase.Entails.of_eq ?_)
  · refine BIBase.Entails.trans ?_ (BIBase.Entails.of_eq (arrBufs2_eq c (V' c)).symm)
    rw [arrays2_eq]
    iintro ⟨H0, H1, H2, H5l, H5r, H6, H7⟩
    isplitl [H0]; · iexact H0
    isplitl [H1]; · iexact H1
    isplitl [H2]; · iexact H2
    isplitl [H5l H5r]
    · iapply (pointsTo_share (PosShare.mem_left_op_right fullShare)).2
      isplitl [H5l]; · iexact H5l
      iexact H5r
    isplitl [H6]; · iexact H6
    iexact H7
  · unfold Pipeline.unscopedRest
    exact bigSep_congr fun b hb => by rw [hrest b (Finset.mem_sdiff.mp hb).2]

end Shared

/-- Off region 2's two result arrays the contents after it are those before it. -/
theorem W4_of (c : Dev nD) (r : Ref sig .tc) (h0 : r ≠ main_v6_0) (h1 : r ≠ main_v6_1) : W4 m c r = W3 m c r := by
  simp only [W4, Function.update_of_ne (StableHlo.devRef_ne_of_ne h1 : (Proc.devRef .tc r : DevRef τ sig) ≠ Proc.devRef .tc main_v6_1),
    Function.update_of_ne (StableHlo.devRef_ne_of_ne h0 : (Proc.devRef .tc r : DevRef τ sig) ≠ Proc.devRef .tc main_v6_0)]

/-- The contents after region 2 have its results in its result arrays. -/
theorem W4_v6_1 (c : Dev nD) : W4 m c main_v6_1 = X2o m c := by
  simp only [W4, Function.update_self]
theorem W4_v6_0 (c : Dev nD) : W4 m c main_v6_0 = X2a m c := by
  simp only [W4, Function.update_of_ne (StableHlo.devRef_ne_of_ne (by decide) : (Proc.devRef .tc main_v6_0 : DevRef τ sig) ≠ Proc.devRef .tc main_v6_1),
    Function.update_self]

/-- At region 2's exit each of its arrays holds what the pipeline leaves: an input what it held at entry, each result
    its blocks' write-backs folded. -/
theorem hF2 (c : Dev nD) (w : Fin cfg2.W) : (dat2 (V3 m) c).arrAt w cfg2.N = V4 m c (Pipeline.arrRef spec2 w) :=
  match w with
  | ⟨0, _⟩ => ((dat2 (V3 m) c).arrAt_in 0 rfl _).trans (W4_of m c main_arg1 (by decide) (by decide)).symm
  | ⟨1, _⟩ => ((dat2 (V3 m) c).arrAt_in 1 rfl _).trans (W4_of m c main_v0 (by decide) (by decide)).symm
  | ⟨2, _⟩ => ((dat2 (V3 m) c).arrAt_in 2 rfl _).trans (W4_of m c main_v4 (by decide) (by decide)).symm
  | ⟨3, _⟩ => ((dat2 (V3 m) c).arrAt_in 3 rfl _).trans (W4_of m c main_v5 (by decide) (by decide)).symm
  | ⟨4, _⟩ => ((dat2 (V3 m) c).arrAt_in 4 rfl _).trans (W4_of m c main_v5 (by decide) (by decide)).symm
  | ⟨5, _⟩ => (W4_v6_0 m c).symm
  | ⟨6, _⟩ => (W4_v6_1 m c).symm
/-- Off region 2's arrays nothing changes. -/
theorem hrest2 (c : Dev nD) : ∀ b, b ∉ Finset.univ.image (Pipeline.arrRef spec2) → V4 m c b = V3 m c b := fun b hb =>
  W4_of m c b (fun e => hb (Finset.mem_image.mpr ⟨5, Finset.mem_univ _, e.symm⟩)) (fun e => hb (Finset.mem_image.mpr ⟨6, Finset.mem_univ _, e.symm⟩))

/-- An argument reaches the end as launched: no region and no host operation writes it. -/
theorem W4_arg (c : Dev nD) (r : Ref sig .tc) (h0 : r ≠ main_v6_0) (h1 : r ≠ main_v6_1) (hw : r ∉ hostOps2_W)
    (hv1 : r ≠ main_v1) (hv0 : r ≠ main_v0) : W4 m c r = m ((c : Thread nD τ).loc r) := by
  rw [W4_of m c r h0 h1, show W3 m c r = W2 m c r from StableHlo.after_of_writes_sub hostOps2 _ hostOps2_writes hw]
  simp only [W2, W1, Function.update_of_ne (StableHlo.devRef_ne_of_ne hv1 : (Proc.devRef .tc r : DevRef τ sig) ≠ Proc.devRef .tc main_v1),
    Function.update_of_ne (StableHlo.devRef_ne_of_ne hv0 : (Proc.devRef .tc r : DevRef τ sig) ≠ Proc.devRef .tc main_v0)]

/-- The last thread state without the dues: every unscoped buffer at the last boundary's contents, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- REGION 2 over the thread state: entered from the contents the host operations leave, left at those with its two
    results in its result arrays. The array two of its windows read enters as two halves and comes back whole; its
    invariant is the accumulator's, entered from the class invariant and returned to it after the last point. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := T (W3 m) c
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := entry2 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    refine BIBase.Entails.trans (hout2 (V3 m) c) ?_
    rw [Pipeline.ownSems0_none]; unfold Pipeline.ΦA
    iintro ⟨Hr, Hp⟩
    isplitl [Hp]; · iexact Hp
    isplitr; · iempintro
    iexact Hr
  hexit c := by
    have hjoin := exit2 (V3 m) (V4 m) c (hF2 m c) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments -/

/-- @main's four segments in order: region 0, region 1, the host stretch, region 2. -/
abbrev segs : List (Pipeline.Seg (pcfgs (F := F)) adm (pdats m) () defs₀ 𝒱₀ L lv) :=
  [ .region (reg0 m), .region (reg1 m), .host (hseg m), .region (reg2 m) ]
/-- @main is the run of the segments. -/
theorem main_run (c : Dev nD) : main (F := F) c = Pipeline.Seg.run (segs m) := (main_chain c).trans (by chain_rfl)

end RunMain

set_option backward.isDefEq.respectTransparency.types false in
/-- Every weakly fair execution of @main from `m` terminates, nothing faulting, with the two results at what region 2's
    write-backs fold to and the arguments as launched. -/
theorem run_main : θ_run defs (onTc (τ := τ) (main (F := F))) ⟨m, fun _ => 0, ρ⟩ (fun r => ∀ c : Dev nD,
      r.2.mem ((c.tc : Thread nD τ).loc main_v6_1) = X2o m c
      ∧ r.2.mem ((c.tc : Thread nD τ).loc main_v6_0) = X2a m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (RunMain.pdats m) () cellOf_inj emb₁ defs₀ RunMain.𝒱₀ RunMain.L RunMain.lv m ρ main (RunMain.segs m)
    (fun c Q => by rw [RunMain.main_run m c])
    (by simp only [RunMain.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := RunMain.T (W0 m)) (Tₙ := RunMain.Tₙ m)
    (hch := ⟨fun _ => .rfl, fun _ => .rfl, fun _ => .rfl, fun _ => .rfl, fun _ => .rfl⟩)
    (hinit := by
      refine Pipeline.initEach RunMain.L RunMain.lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (RunMain.mem_uc main_v6_1 (by decide))).trans (RunMain.W4_v6_1 m c),
       (h c _ (RunMain.mem_uc main_v6_0 (by decide))).trans (RunMain.W4_v6_0 m c),
       (h c _ (RunMain.mem_uc main_arg0 (by decide))).trans (RunMain.W4_arg m c main_arg0 (by decide) (by decide) (by decide) (by decide) (by decide)),
       (h c _ (RunMain.mem_uc main_arg1 (by decide))).trans (RunMain.W4_arg m c main_arg1 (by decide) (by decide) (by decide) (by decide) (by decide)),
       (h c _ (RunMain.mem_uc main_arg2 (by decide))).trans (RunMain.W4_arg m c main_arg2 (by decide) (by decide) (by decide) (by decide) (by decide))⟩)

end Run

end Cert.KernelIdeal.Hand

end
-- ==== Proof.KI.Rd.lean ====
/-
  The arrays a region is entered with, read as functions of coordinates at the ideal instance (extended reals).
-/
import proofs.«159752_j43112881717764_1_alg».proof.Proof.KI.Data
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

open ValueIdx

section Rd

variable (V : (c : Dev nD) → (b : Ref sig .tc) → Buf (Elt Ideal) ((c : Thread nD τ).loc b))

/-- The adjacency matrix. -/
abbrev adjOf (c : Dev nD) : Fin 8192 → Fin 8192 → EReal := fun i j => V c main_arg1 (ix2 i j)
/-- The weights. -/
abbrev wOf (c : Dev nD) : Fin 512 → Fin 128 → EReal := fun k o => V c main_arg2 (ix2 k o)
/-- The inputs. -/
abbrev inpOf (c : Dev nD) : Fin 512 → Fin 8192 → EReal := fun k n => V c main_arg0 (ix2 k n)
/-- The product region 0 leaves. -/
abbrev xOf (c : Dev nD) : Fin 128 → Fin 8192 → EReal := fun o n => V c main_v0 (ix2 o n)
/-- The row sums region 1 leaves (a column). -/
abbrev sumOf (c : Dev nD) : Fin 8192 → EReal := fun i => V c main_v1 (ix2 i 0)
/-- The inverse square roots as a column, -/
abbrev dcolOf (c : Dev nD) : Fin 8192 → EReal := fun i => V c main_v4 (ix2 i 0)
/-- and as a row. -/
abbrev drowOf (c : Dev nD) : Fin 8192 → EReal := fun j => V c main_v5 (ix2 0 j)

end Rd

end Cert.KernelIdeal.Hand

end
-- ==== Proof.Spec.lean ====
/-
  The mathematics both programs compute, over the extended reals, as functions of coordinates; and the laws
  that join the kernel's arrangement to the reference's.

  With A = adj + I, deg i = Σ_j A i j, d i = (deg i)^(-1/2):
    adjn i j = (A i j · d i) · d j,        x o n = Σ_k w k o · inp k n,
    out o j  = max (Σ_i x o i · adjn i j) 0.
  The kernel sums adj's rows first and adds 1 afterwards (the same sum in another order), and computes
  max ((Σ_i (x o i · d i) · A i j) · d j) 0: the factor d j moved out of the sum. That last step is the distributive
  law, which on the extended reals holds for a multiplier that is a non-negative real: d j is one as soon as
  deg j > 0, the domain of the reference's inverse square root.
-/
import Idealize.ShloMosaic.PureOps.Ideal
import Idealize.ShloMosaic.Lib.ValueIdx

noncomputable section

namespace Cert.Spec

open Idealize.ShloMosaic

/-- The identity matrix's entry. -/
def eye (i j : Fin 8192) : EReal := if i = j then 1 else 0

/-- The degree of row `i` with its self loop, as the reference sums it. -/
def deg (adj : Fin 8192 → Fin 8192 → EReal) (i : Fin 8192) : EReal := ∑ j : Fin 8192, (adj i j + eye i j)

/-- The inverse square root of the degree. -/
def dinv (adj : Fin 8192 → Fin 8192 → EReal) (i : Fin 8192) : EReal := Ideal.rsqrt (deg adj i)

/-- The normalised adjacency matrix. -/
def adjn (adj : Fin 8192 → Fin 8192 → EReal) (i j : Fin 8192) : EReal := ((adj i j + eye i j) * dinv adj i) * dinv adj j

/-- The product of the transposed weights and the inputs. -/
def xprod (w : Fin 512 → Fin 128 → EReal) (inp : Fin 512 → Fin 8192 → EReal) (o : Fin 128) (n : Fin 8192) : EReal :=
  ∑ k : Fin 512, w k o * inp k n

/-- The layer's output. -/
def out (w : Fin 512 → Fin 128 → EReal) (inp : Fin 512 → Fin 8192 → EReal) (adj : Fin 8192 → Fin 8192 → EReal)
    (o : Fin 128) (j : Fin 8192) : EReal :=
  max (∑ i : Fin 8192, xprod w inp o i * adjn adj i j) 0

/-- The row sum first and the self loop's 1 afterwards is the degree. -/
theorem deg_eq (adj : Fin 8192 → Fin 8192 → EReal) (i : Fin 8192) :
    (∑ j : Fin 8192, adj i j) + 1 = deg adj i := by
  -- the sum of a sum is the sum of the sums, and row i of the identity has its single 1 at j = i
  unfold deg
  rw [Finset.sum_add_distrib]
  congr 1
  simp [eye, Finset.sum_ite_eq]

/-- On a positive degree the inverse square root is a non-negative real. -/
theorem dinv_nonneg_ne_top (adj : Fin 8192 → Fin 8192 → EReal) (i : Fin 8192) (h : 0 < deg adj i) :
    0 ≤ dinv adj i ∧ dinv adj i ≠ ⊤ := by
  unfold dinv
  generalize deg adj i = d at h
  induction d using EReal.rec with
  | bot => exact absurd h (by simp)
  | top => simp [Ideal.rsqrt_top]
  | coe r =>
    -- a positive real: the inverse of its square root, a non-negative real
    have hr : 0 < r := by exact_mod_cast h
    rw [Ideal.rsqrt_coe, if_neg (not_lt.mpr hr.le), if_neg hr.ne']
    exact ⟨by exact_mod_cast (inv_nonneg.mpr (Real.sqrt_nonneg r)), EReal.coe_ne_top _⟩

/-- The kernel's arrangement of the output is the reference's: the column factor moved out of the sum. -/
theorem out_eq (adj : Fin 8192 → Fin 8192 → EReal) (hd : ∀ j, 0 < deg adj j) (x : Fin 128 → Fin 8192 → EReal)
    (o : Fin 128) (j : Fin 8192) :
    max ((∑ i : Fin 8192, (x o i * dinv adj i) * (adj i j + eye i j)) * dinv adj j) 0
      = max (∑ i : Fin 8192, x o i * adjn adj i j) 0 := by
  obtain ⟨h0, ht⟩ := dinv_nonneg_ne_top adj j (hd j)
  -- a non-negative real multiplier distributes over a finite sum
  have key : ∀ (s : Finset (Fin 8192)) (f : Fin 8192 → EReal),
      (∑ i ∈ s, f i) * dinv adj j = ∑ i ∈ s, f i * dinv adj j := by
    intro s f
    induction s using Finset.induction_on with
    | empty => simp
    | insert a s ha ih =>
      rw [Finset.sum_insert ha, Finset.sum_insert ha, EReal.right_distrib_of_nonneg_of_ne_top h0 ht, ih]
  congr 1
  rw [key]
  refine Finset.sum_congr rfl (fun i _ => ?_)
  -- term by term: multiplication is associative and commutative
  unfold adjn
  ac_rfl

end Cert.Spec

end
-- ==== Proof.KI.Val0.lean ====
/-
  What region 0 leaves in its result array, at the ideal instance: entry (o, n) is Σ_k w k o · inp k n. Each grid point
  writes the column tile n / 1024 whole, from the whole weight block and the inputs' column tile; the eight tiles cover
  the array.
-/
import proofs.«159752_j43112881717764_1_alg».proof.Proof.KI.Data
import proofs.«159752_j43112881717764_1_alg».proof.Proof.KI.Rd
import proofs.«159752_j43112881717764_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

open ValueIdx

section Val0

variable (V : (c : Dev nD) → (b : Ref sig .tc) → Buf (Elt Ideal) ((c : Thread nD τ).loc b))

namespace XProd

/-! ## The product tile at an index -/

/-- The weights' operand index at output index i and contraction index q: its row is q, -/
theorem lhs_prod_0 (i : S128x1024.Idx) (q : dot_S512x128_S512x1024_S128x1024_0_0_1_1_n_n.contr.Idx) :
    (dot_S512x128_S512x1024_S128x1024_0_0_1_1_n_n.lhsIdx i q 0).val = (q ⟨0, by decide⟩).val :=
  dot_S512x128_S512x1024_S128x1024_0_0_1_1_n_n.lhsIdx_val_of_single rfl i q
/-- and its column is the output's row. -/
theorem lhs_prod_1 (i : S128x1024.Idx) (q : dot_S512x128_S512x1024_S128x1024_0_0_1_1_n_n.contr.Idx) :
    (dot_S512x128_S512x1024_S128x1024_0_0_1_1_n_n.lhsIdx i q 1).val = (i 0).val := by
  unfold DotDims.lhsIdx
  rw [dif_neg (show ¬(1 : Fin S512x128.rank) ∈ dot_S512x128_S512x1024_S128x1024_0_0_1_1_n_n.lhsBatch by decide), dif_pos (show (1 : Fin S512x128.rank) ∈ dot_S512x128_S512x1024_S128x1024_0_0_1_1_n_n.lhsNonContracting by decide)]
  rfl
/-- The inputs' operand index: its row is q, -/
theorem rhs_prod_0 (i : S128x1024.Idx) (q : dot_S512x128_S512x1024_S128x1024_0_0_1_1_n_n.contr.Idx) :
    (dot_S512x128_S512x1024_S128x1024_0_0_1_1_n_n.rhsIdx i q 0).val = (q ⟨0, by decide⟩).val :=
  dot_S512x128_S512x1024_S128x1024_0_0_1_1_n_n.rhsIdx_val_of_single rfl i q
/-- and its column is the output's column. -/
theorem rhs_prod_1 (i : S128x1024.Idx) (q : dot_S512x128_S512x1024_S128x1024_0_0_1_1_n_n.contr.Idx) :
    (dot_S512x128_S512x1024_S128x1024_0_0_1_1_n_n.rhsIdx i q 1).val = (i 1).val := by
  unfold DotDims.rhsIdx
  rw [dif_neg (show ¬(1 : Fin S512x1024.rank) ∈ dot_S512x128_S512x1024_S128x1024_0_0_1_1_n_n.rhsBatch by decide), dif_pos (show (1 : Fin S512x1024.rank) ∈ dot_S512x128_S512x1024_S128x1024_0_0_1_1_n_n.rhsNonContracting by decide)]
  rfl

/-- The product tile at (p, q): the weights' column p against the inputs' column q, summed over the 512 rows. -/
theorem pay_apply (wb : Vec Ideal S512x128 .f32) (xb : Vec Ideal S512x1024 .f32) (p : Fin 128) (q : Fin 1024) :
    k0_pay1 (F := Ideal) wb xb (ix2 p q) = ∑ k : Fin 512, wb (ix2 k p) * xb (ix2 k q) := by
  unfold k0_pay1
  simp only [matmul]
  rw [Ideal.matmul_constant_zero_apply, ← Equiv.sum_comp (ValueIdx.contrEquiv1 dot_S512x128_S512x1024_S128x1024_0_0_1_1_n_n 512 rfl rfl).symm]
  refine Finset.sum_congr rfl fun k _ => ?_
  have hk := ValueIdx.contrEquiv1_symm_val dot_S512x128_S512x1024_S128x1024_0_0_1_1_n_n 512 rfl rfl k
  have el : dot_S512x128_S512x1024_S128x1024_0_0_1_1_n_n.lhsIdx (ix2 p q) ((ValueIdx.contrEquiv1 dot_S512x128_S512x1024_S128x1024_0_0_1_1_n_n 512 rfl rfl).symm k) = ix2 k p := funext fun a => Fin.ext (by
    match a with
    | ⟨0, _⟩ => exact (lhs_prod_0 _ _).trans hk
    | ⟨1, _⟩ => exact lhs_prod_1 _ _)
  have er : dot_S512x128_S512x1024_S128x1024_0_0_1_1_n_n.rhsIdx (ix2 p q) ((ValueIdx.contrEquiv1 dot_S512x128_S512x1024_S128x1024_0_0_1_1_n_n 512 rfl rfl).symm k) = ix2 k q := funext fun a => Fin.ext (by
    match a with
    | ⟨0, _⟩ => exact (rhs_prod_0 _ _).trans hk
    | ⟨1, _⟩ => exact rhs_prod_1 _ _)
  rw [el, er]
  rfl

/-! ## The blocks a point reads and writes, as parts of the arrays -/

/-- The index maps over the grid: the weights' block is always block (0, 0); the inputs' tile and the result's tile
    at point t are column tile t. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The whole result array: entry (o, n) is Σ_k w k o · inp k n. -/
abbrev prodArr (c : Dev nD) : S128x8192.Idx → EReal :=
  fun i => Cert.Spec.xprod (wOf V c) (inpOf V c) (i 0) (i 1)

/-- What point t writes back is tile t of the whole product. -/
theorem flushed_eq0 (c : Dev nD) (t : Fin cfg0.N) :
    (dat0 (F := Ideal) V c).flushed 2 t = ((cfg0.win 2).blk t).view.read (Elt Ideal) (prodArr V c) := by
  show (cfg0.win 2).cut (grid0.coords t) ((dat0 (F := Ideal) V c).after 2 t) = _
  dsimp only [dat0]
  obtain ⟨e0, e1, e2, e3, e4, e5⟩ := idx_facts0 t
  funext j
  obtain ⟨p, q, rfl⟩ : ∃ (p : Fin 128) (q : Fin 1024), j = ix2 p q := ⟨j 0, j 1, eq_ix2 j⟩
  show k0_pay1 (F := Ideal) (iblk0 V c 0 t) (iblk0 V c 1 t) (ix2 p q) = prodArr V c (((cfg0.win 2).blk t).view.emb (ix2 p q))
  refine (pay_apply (iblk0 V c 0 t) (iblk0 V c 1 t) p q).trans ?_
  show _ = ∑ k : Fin 512, wOf V c k ((((cfg0.win 2).blk t).view.emb (ix2 p q)) 0) * inpOf V c k ((((cfg0.win 2).blk t).view.emb (ix2 p q)) 1)
  refine Finset.sum_congr rfl fun k _ => ?_
  have hw : (iblk0 V c 0 t : Vec Ideal S512x128 .f32) (ix2 k p) = wOf V c k ((((cfg0.win 2).blk t).view.emb (ix2 p q)) 0) := by
    show V c main_arg2 (((cfg0.win 0).blk t).view.emb (ix2 k p)) = V c main_arg2 (ix2 k ((((cfg0.win 2).blk t).view.emb (ix2 p q)) 0))
    congr 1; funext a; apply Fin.ext
    match a with
    | ⟨0, _⟩ => show win0_0.index t (0 : Fin 2) * 512 + 1 * k.val = k.val; omega
    | ⟨1, _⟩ => show win0_0.index t (1 : Fin 2) * 128 + 1 * p.val = win0_2.index t (0 : Fin 2) * 128 + 1 * p.val; omega
  have hx : (iblk0 V c 1 t : Vec Ideal S512x1024 .f32) (ix2 k q) = inpOf V c k ((((cfg0.win 2).blk t).view.emb (ix2 p q)) 1) := by
    show V c main_arg0 (((cfg0.win 1).blk t).view.emb (ix2 k q)) = V c main_arg0 (ix2 k ((((cfg0.win 2).blk t).view.emb (ix2 p q)) 1))
    congr 1; funext a; apply Fin.ext
    match a with
    | ⟨0, _⟩ => show win0_1.index t (0 : Fin 2) * 512 + 1 * k.val = k.val; omega
    | ⟨1, _⟩ => show win0_1.index t (1 : Fin 2) * 1024 + 1 * q.val = win0_2.index t (1 : Fin 2) * 1024 + 1 * q.val; omega
  rw [hw, hx]

/-- An index of the result array is in point t's tile iff each coordinate is in the tile's range on its axis. -/
theorem mem_blk0 (t : Fin cfg0.N) (i : S128x8192.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v0).slice (win0_2.rect t)).set ↔ _
  rw [View.set_slice_whole, Rect.mem_set_unit]
  exact Iff.rfl

/-- Column n of the result is in the tile of point n / 1024. -/
theorem cover0 (i : S128x8192.Idx) :
    ∃ t : Fin cfg0.N, (cfg0.win 2).flush t = true ∧ i ∈ ((cfg0.win 2).blk t).view.set := by
  have hi0 : (i 0).val < 128 := (i 0).isLt
  have hi1 : (i 1).val < 8192 := (i 1).isLt
  have hN : cfg0.N = 8 := N_0
  let t : Fin cfg0.N := ⟨(i 1).val / 1024, by rw [hN]; omega⟩
  obtain ⟨e0, e1, e2, e3, e4, e5⟩ := idx_facts0 t
  have e5' : win0_2.index t (1 : Fin 2) = (i 1).val / 1024 := e5
  refine ⟨t, flush0_2 t, ?_⟩
  rw [mem_blk0]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1024 ≤ (i 1).val ∧ (i 1).val < win0_2.index t (1 : Fin 2) * 1024 + 1024; omega

/-- The result array after the region is the whole product. -/
theorem final0 (c : Dev nD) : (dat0 (F := Ideal) V c).arrAt 2 cfg0.N = prodArr V c :=
  (dat0 (F := Ideal) V c).arrAt_eq_of_cover 2 (prodArr V c) (fun t _ => flushed_eq0 V c t) cover0

end XProd

/-- Region 0's result array after the region, entry by entry. -/
theorem x_val (c : Dev nD) (o : Fin 128) (n : Fin 8192) :
    (dat0 (F := Ideal) V c).arrAt 2 cfg0.N (ix2 o n)
      = Cert.Spec.xprod (wOf V c) (inpOf V c) o n := by
  rw [XProd.final0]

end Val0

end Cert.KernelIdeal.Hand

end
-- ==== Proof.KI.Val1.lean ====
/-
  What region 1 leaves in its result array, at the ideal instance: entry (i, 0) is the sum of row i of the adjacency
  matrix. The accumulator after the k-th column tile of a row tile holds the sum over the first k + 1 tiles; the last
  column tile's point writes it out, and the eight row tiles cover the array.
-/
import proofs.«159752_j43112881717764_1_alg».proof.Proof.KI.Data
import proofs.«159752_j43112881717764_1_alg».proof.Proof.KI.Rd
import proofs.«159752_j43112881717764_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

open ValueIdx

namespace DegVal

section Pay

/-- A column cast of a vector: entry (r, 0) of the [a, 1] array is entry r of the [a] vector. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The lane sum of a tile at row r is the sum of the row's entries. -/
theorem laneSum_apply (x : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 x 0x00000000#32 h hφ hacc (ix1 r) = ∑ q : Fin 1024, x (ix2 r q) := by
  refine (Ideal.multiReduction_add_single x 0x00000000#32 h hφ hacc (ix1 r)).trans ?_
  refine Finset.sum_congr rfl fun q _ => congrArg x ?_
  funext a
  match a with
  | ⟨0, _⟩ => rfl
  | ⟨1, _⟩ => rfl

/-- The accumulating payload at (r, 0): the accumulator's entry plus the row sum of the tile. -/
theorem pay2_apply (s : Vec Ideal S1024x1 .f32) (x : Vec Ideal S1024x1024 .f32) (r : Fin 1024) :
    k1_pay2 (F := Ideal) s x (ix2 r 0) = s (ix2 r 0) + ∑ q : Fin 1024, x (ix2 r q) := by
  unfold k1_pay2
  dsimp only
  rw [shapeCast_self, addf_apply]
  refine congrArg (s (ix2 r 0) + ·) ?_
  refine (shapeCast_a_a1_apply _ _ r 0).trans ?_
  exact laneSum_apply x _ _ _ r

/-- The reset payload is zero. -/
theorem pay1_apply (r : Fin 1024) : (k1_pay1 (F := Ideal)) (ix2 r 0) = 0 := by
  unfold k1_pay1
  rw [shapeCast_self]
  exact Ideal.ofBits_zero_f32

end Pay

section Blocks

variable (V : (c : Dev nD) → (b : Ref sig .tc) → Buf (Elt Ideal) ((c : Thread nD τ).loc b))

/-! ## The tiles as entries of the matrix -/

/-- Point t of region 1 is (row tile t / 8, column tile t % 8): the adjacency window's block index there, -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)

/-- and the result window's: the row tile, in the one column. -/
theorem idx1_1 : ∀ t : Fin cfg1.N, win1_1.index t 0 = t.val / 8 ∧ win1_1.index t 1 = 0 :=
  (by decide +kernel : ∀ t : Fin grid1.N, win1_1.index t 0 = t.val / 8 ∧ win1_1.index t 1 = 0)

/-- The adjacency tile at point t = 8 a + b, entry (r, q), is the matrix's entry (1024 a + r, 1024 b + q). -/
theorem iblk1_apply (c : Dev nD) (t : Fin cfg1.N) (a b : ℕ) (hb : b < 8) (ht : t.val = 8 * a + b) (r q : Fin 1024)
    (i j : Fin 8192) (hi : i.val = a * 1024 + r.val) (hj : j.val = b * 1024 + q.val) :
    (iblk1 V c 0 t : Vec Ideal S1024x1024 .f32) (ix2 r q) = adjOf V c i j := by
  have hidx := idx1_0 t
  unfold iblk1
  rw [View.read_apply]
  show V c main_arg1 _ = V c main_arg1 (ix2 i j)
  congr 1
  funext d
  apply Fin.ext
  match d with
  | ⟨0, _⟩ => show win1_0.index t 0 * 1024 + 1 * r.val = i.val; rw [hidx.1, hi]; omega
  | ⟨1, _⟩ => show win1_0.index t 1 * 1024 + 1 * q.val = j.val; rw [hidx.2, hj]; omega

/-- Row i of the adjacency matrix as a function of every natural: zero past the row's end. -/
def adjN (c : Dev nD) (i : Fin 8192) (n : ℕ) : EReal := if h : n < 8192 then adjOf V c i ⟨n, h⟩ else 0

theorem adjN_val (c : Dev nD) (i j : Fin 8192) : adjN V c i j.val = adjOf V c i j := by
  unfold adjN; rw [dif_pos j.isLt]

/-- The whole row's sum, over the naturals below 8192. -/
theorem rowSum_eq (c : Dev nD) (i : Fin 8192) :
    ∑ j : Fin 8192, adjOf V c i j = ∑ n ∈ Finset.range 8192, adjN V c i n := by
  rw [← Fin.sum_univ_eq_sum_range]
  exact Finset.sum_congr rfl fun j _ => (adjN_val V c i j).symm

/-- The adjacency tile at point t, at its literal type. -/
abbrev adjTile (c : Dev nD) (t : Fin cfg1.N) : Vec Ideal S1024x1024 .f32 := iblk1 V c 0 t

/-- A tile's row sum: the 1024 entries of row 1024 a + r from column 1024 b on. -/
theorem tileSum_eq (c : Dev nD) (t : Fin cfg1.N) (a b : ℕ) (hb : b < 8) (ht : t.val = 8 * a + b) (r : Fin 1024)
    (i : Fin 8192) (hi : i.val = a * 1024 + r.val) :
    ∑ q : Fin 1024, adjTile V c t (ix2 r q) = ∑ q ∈ Finset.range 1024, adjN V c i (b * 1024 + q) := by
  rw [← Fin.sum_univ_eq_sum_range (fun q => adjN V c i (b * 1024 + q)) 1024]
  refine Finset.sum_congr rfl fun q _ => ?_
  have hq := q.isLt
  refine (iblk1_apply V c t a b hb ht r q i ⟨b * 1024 + q.val, by omega⟩ hi rfl).trans ?_
  exact (adjN_val V c i ⟨b * 1024 + q.val, by omega⟩).symm

/-! ## The accumulator: the sum over the column tiles so far -/

/-- The accumulator's two cases. -/
theorem acc1_reset (c : Dev nD) : ∀ (n : ℕ) (h : n < cfg1.N), n % 8 = 0 →
    acc1 V c n h = k1_pay2 (k1_pay1 (F := Ideal)) (iblk1 V c 0 ⟨n, h⟩)
  | 0, h, _ => rfl
  | n + 1, h, hm => by rw [acc1]; exact if_pos hm

theorem acc1_step (c : Dev nD) (n : ℕ) (h : n + 1 < cfg1.N) (hm : ¬(n + 1) % 8 = 0) :
    acc1 V c (n + 1) h = k1_pay2 (acc1 V c n (Nat.lt_of_succ_lt h)) (iblk1 V c 0 ⟨n + 1, h⟩) := by
  rw [acc1]; exact if_neg hm

/-- After column tile b of row tile a the accumulator holds, in row r, the sum of the first 1024 (b + 1) entries
    of row 1024 a + r: by induction on b, the reset point adding its tile to zero and every later one adding its
    tile's 1024 entries to the sum so far. -/
theorem acc1_inv (c : Dev nD) (a : ℕ) : ∀ (b : ℕ) (hb : b < 8) (h : 8 * a + b < cfg1.N) (r : Fin 1024) (i : Fin 8192)
    (hi : i.val = a * 1024 + r.val),
    acc1 V c (8 * a + b) h (ix2 r 0) = ∑ n ∈ Finset.range ((b + 1) * 1024), adjN V c i n
  | 0, hb, h, r, i, hi => by
    rw [acc1_reset V c (8 * a + 0) h (by omega)]
    refine (pay2_apply (k1_pay1 (F := Ideal)) (adjTile V c ⟨8 * a + 0, h⟩) r).trans ?_
    rw [pay1_apply, zero_add, tileSum_eq V c ⟨8 * a + 0, h⟩ a 0 hb rfl r i hi]
    simp only [Nat.zero_mul, Nat.zero_add, Nat.one_mul]
  | b + 1, hb, h, r, i, hi => by
    have hne : ¬(8 * a + b + 1) % 8 = 0 := by omega
    refine (congrFun (acc1_step V c (8 * a + b) h hne) (ix2 r 0)).trans ?_
    refine (pay2_apply (acc1 V c (8 * a + b) (Nat.lt_of_succ_lt h)) (adjTile V c ⟨8 * a + b + 1, h⟩) r).trans ?_
    rw [acc1_inv c a b (by omega) (Nat.lt_of_succ_lt h) r i hi,
      tileSum_eq V c ⟨8 * a + b + 1, h⟩ a (b + 1) hb rfl r i hi,
      show (b + 1 + 1) * 1024 = (b + 1) * 1024 + 1024 by omega, Finset.sum_range_add]

/-- At the last column tile of a row tile the accumulator holds the whole row's sum. -/
theorem acc1_last (c : Dev nD) (n : ℕ) (h : n < cfg1.N) (h7 : n % 8 = 7) (r : Fin 1024) (i : Fin 8192)
    (hi : i.val = n / 8 * 1024 + r.val) : acc1 V c n h (ix2 r 0) = ∑ j : Fin 8192, adjOf V c i j := by
  obtain ⟨a, rfl⟩ : ∃ a, n = 8 * a + 7 := ⟨n / 8, by omega⟩
  rw [acc1_inv V c a 7 (by omega) h r i (by omega), rowSum_eq]

/-! ## From the blocks to the array -/

/-- The row sums as contents of the result array. -/
abbrev degBuf (c : Dev nD) : Buf (Elt Ideal) ((c : Thread nD τ).loc main_v1) :=
  fun (k : S8192x1.Idx) => (∑ j : Fin 8192, adjOf V c (k 0) j : EReal)

theorem after1_1 (c : Dev nD) (t : Fin cfg1.N) : (dat1 V c).after 1 t = acc1 V c t.val t.isLt := rfl

/-- What a point that writes back writes: its block of the row sums. Such a point is the last column tile of its row
    tile, its block rows 1024 (t / 8) on, and the accumulator there holds those rows' sums. -/
theorem flushed1_eq (c : Dev nD) (t : Fin cfg1.N) (hf : (cfg1.win 1).flush t = true) :
    (dat1 V c).flushed 1 t = ((cfg1.win 1).blk t).view.read (Elt Ideal) (degBuf V c) := by
  have h7 : t.val % 8 = 7 := (flush1_1 t).mp hf
  have hidx := idx1_1 t
  funext y
  have hy0 : (y 0).val < 1024 := (y 0).isLt
  have hy1 : (y 1).val < 1 := (y 1).isLt
  have hx : (cfg1.win 1).xinj (cfg1.grid.coords t) y = ix2 (⟨(y 0).val, hy0⟩ : Fin 1024) (0 : Fin 1) := by
    funext d
    match d with
    | ⟨0, _⟩ => rfl
    | ⟨1, _⟩ => exact Fin.ext (by show (y 1).val = 0; omega)
  rw [View.read_apply]
  show (dat1 V c).after 1 t ((cfg1.win 1).xinj (cfg1.grid.coords t) y) = degBuf V c (((cfg1.win 1).blk t).view.emb y)
  rw [hx, after1_1]
  refine acc1_last V c t.val t.isLt h7 ⟨(y 0).val, hy0⟩ ((((cfg1.win 1).blk t).view.emb y) 0) ?_
  show win1_1.index t 0 * 1024 + 1 * (y 0).val = t.val / 8 * 1024 + (y 0).val
  rw [hidx.1]; omega

end Blocks

end DegVal

section Val1

variable (V : (c : Dev nD) → (b : Ref sig .tc) → Buf (Elt Ideal) ((c : Thread nD τ).loc b))

/-- Region 1's result array after the region, entry by entry. -/
theorem deg_val (c : Dev nD) (i : Fin 8192) :
    (dat1 (F := Ideal) V c).arrAt 1 cfg1.N (ix2 i 0) = ∑ j : Fin 8192, adjOf V c i j := by
  have hN : cfg1.N = 64 := N_1
  have hi := i.isLt
  obtain ⟨t, ht⟩ : ∃ t : Fin cfg1.N, t.val = 8 * (i.val / 1024) + 7 := ⟨⟨8 * (i.val / 1024) + 7, by omega⟩, rfl⟩
  have hf : (cfg1.win 1).flush t = true := (flush1_1 t).mpr (by omega)
  have hidx := DegVal.idx1_1 t
  refine (dat1 V c).arrAt_apply_of_mem 1 (DegVal.degBuf V c) (DegVal.flushed1_eq V c) cfg1.N t (ix2 i 0) t.isLt hf ?_
  show ix2 i 0 ∈ ((View.whole main_v1).slice (win1_1.rect t)).set
  rw [View.set_slice_whole, Rect.mem_set_unit]
  intro d
  match d with
  | ⟨0, _⟩ =>
    show win1_1.index t 0 * 1024 ≤ i.val ∧ i.val < win1_1.index t 0 * 1024 + 1024
    rw [hidx.1]; omega
  | ⟨1, _⟩ =>
    show win1_1.index t 1 * 1 ≤ 0 ∧ 0 < win1_1.index t 1 * 1 + 1
    rw [hidx.2]; omega

end Val1

end Cert.KernelIdeal.Hand

end
-- ==== Proof.KI.Val2.lean ====
/-
  What region 2 leaves in its two result arrays, at the ideal instance, from the arrays it is entered with: the
  adjacency matrix `a`, the product `x`, the column `dc` and the row `dr` of inverse square roots.
    scaled (i, j) = ((a i j + I i j) · dc i) · dr j
    output (o, j) = max ((Σ_i (x o i · dr i) · (a i j + I i j)) · dr j) 0
  The sum over i is accumulated tile by tile over the eight row tiles of a column tile, from zero.

  The order of the argument: each payload of the body read at an index (the identity's tile is the comparison of
  global row and column ids, which are below 8192 and so compare as numbers); each block of a point read off its
  array (block index × block size + the coordinate inside); the accumulator after a point as the sum of the row
  tiles' shares so far, by induction on the point; the eight shares of 1024 terms each re-indexed as one sum over
  8192 (commutativity and associativity of + only); and the blocks the points write back as blocks of one function
  of the whole array's index, which cover the array.
-/
import proofs.«159752_j43112881717764_1_alg».proof.Proof.KI.Data
import proofs.«159752_j43112881717764_1_alg».proof.Proof.KI.Rd
import proofs.«159752_j43112881717764_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

open ValueIdx

namespace Val2

/-! ## Small facts about words and broadcasts -/

/-- A one-bit word widened to 32 bits and read as a number is 1 when the bit is set and 0 otherwise. -/
theorem bitNum (x : BitVec 1) : (((x.setWidth 32).toInt : ℝ) : EReal) = if x = 1#1 then 1 else 0 := by
  rcases BitVec.eq_zero_or_eq_one x with h | h <;> subst h <;> simp

/-- Two numbers below 2^32 are equal as 32-bit words exactly when they are equal. -/
theorem word_eq_iff (a b : ℕ) (ha : a < 2 ^ 32) (hb : b < 2 ^ 32) : BitVec.ofNat 32 a = BitVec.ofNat 32 b ↔ a = b := by
  constructor
  · intro h
    have := congrArg BitVec.toNat h
    simp only [BitVec.toNat_ofNat] at this
    omega
  · intro h; rw [h]

/-- A tile's local id plus the tile's offset, as a 32-bit word, is the word of the global id. -/
theorem gid_word (k b : ℕ) : IntOp.addi (BitVec.ofNat 32 k) (Scalar.muli (BitVec.ofNat 32 b) 1024#32) = BitVec.ofNat 32 (b * 1024 + k) := by
  apply BitVec.eq_of_toNat_eq
  simp only [IntOp.addi, Scalar.muli, IntOp.muli, BitVec.toNat_add, BitVec.toNat_mul, BitVec.toNat_ofNat]
  omega

/-- A `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The comparison word of two 32-bit words is set exactly when they are equal. -/
theorem cmpi_eq_one_iff (a b : BitVec 32) : IntOp.cmpi .eq a b = 1#1 ↔ a = b := by
  show BitVec.ofBool (a == b) = 1#1 ↔ a = b
  cases hb : (a == b)
  · exact ⟨fun h => absurd h (by decide), fun e => by rw [e] at hb; simp at hb⟩
  · exact ⟨fun _ => by simpa using hb, fun _ => rfl⟩

/-! ## The payloads of region 2 at an index -/

/-- The tile of adj + I: the identity's tile compares the global row id (row tile × 1024 + p) with the global
    column id (column tile × 1024 + q); both are below 8192, so the 32-bit comparison is the comparison of numbers. -/
theorem pay5_apply (i : grid2.Coords) (v22 : Vec Ideal S1024x1024 .f32) (p q : Fin 1024) :
    k2_pay5 i v22 (ix2 p q) = v22 (ix2 p q) + (if (i 1).val * 1024 + p.val = (i 0).val * 1024 + q.val then 1 else 0) := by
  unfold k2_pay5
  dsimp only
  refine congrArg (fun z => v22 (ix2 p q) + z) ?_
  rw [sitofp_apply, extui_apply]
  show ((((IntOp.cmpi .eq _ _).setWidth 32).toInt : ℝ) : EReal) = _
  rw [bitNum, broadcastTo_a1_ab_apply, broadcastTo_1b_ab_apply]
  show (if IntOp.cmpi .eq (IntOp.addi (iota .tc S1024x1 32 [0] Gen.iota_S1024x1_d0_w32 (ix2 p 0)) (Scalar.muli (BitVec.ofNat 32 (i 1).val) 1024#32))
                          (IntOp.addi (iota .tc S1x1024 32 [1] Gen.iota_S1x1024_d1_w32 (ix2 0 q)) (Scalar.muli (BitVec.ofNat 32 (i 0).val) 1024#32)) = 1#1 then (1 : EReal) else 0) = _
  rw [iota_single_apply, iota_single_apply]
  show (if IntOp.cmpi .eq (IntOp.addi (BitVec.ofNat 32 p.val) _) (IntOp.addi (BitVec.ofNat 32 q.val) _) = 1#1 then (1 : EReal) else 0) = _
  rw [gid_word, gid_word]
  have hi0 : (i 0).val < 8 := (i 0).isLt
  have hi1 : (i 1).val < 8 := (i 1).isLt
  have hp := p.isLt
  have hq := q.isLt
  refine if_congr ?_ rfl rfl
  rw [cmpi_eq_one_iff, word_eq_iff _ _ (by omega) (by omega)]

/-- The scaled tile: (adj + I) times the column of inverse square roots along the rows, times the row of them
    along the columns. -/
theorem pay6_apply (i : grid2.Coords) (v3 : Vec Ideal S1024x1 .f32) (v7 : Vec Ideal S1x1024 .f32) (v22 : Vec Ideal S1024x1024 .f32)
    (p q : Fin 1024) :
    k2_pay6 i v3 v7 v22 (ix2 p q) = (k2_pay5 i v22 (ix2 p q) * v3 (ix2 p 0)) * v7 (ix2 0 q) := by
  unfold k2_pay6 k2_pay4
  dsimp only
  rw [shapeCast_self, shapeCast_self, mulf_apply, mulf_apply, broadcastTo_a1_ab_apply, broadcastTo_1b_ab_apply]

/-! The product tile: the contraction's operand indices, axis by axis -/

theorem lhs_mm_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_mm_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_mm_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_mm_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The block product into a zero accumulator, at (o, q): the sum over the 1024 contracted entries of row o of the
    left block times column q of the right block. -/
theorem mm_apply (l : FVec Ideal S128x1024 .bf16) (r : FVec Ideal S1024x1024 .bf16) (o : Fin 128) (q : Fin 1024) :
    matmul dot_S128x1024_S1024x1024_S128x1024_1_0_0_1_n_n none l r (constant (F := Ideal) S128x1024 .f32 0x00000000#32) (ix2 o q)
      = ∑ k : Fin 1024, l (ix2 o k) * r (ix2 k q) := by
  simp only [matmul]
  rw [Ideal.matmul_constant_zero_apply, ← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 o q) ((contrEquiv1 dot_S128x1024_S1024x1024_S128x1024_1_0_0_1_n_n 1024 rfl rfl).symm k) = ix2 o k := funext fun a => Fin.ext (by
    match a with
    | ⟨0, _⟩ => exact lhs_mm_0 _ _
    | ⟨1, _⟩ => exact (lhs_mm_1 _ _).trans hk)
  have er : dot_S128x1024_S1024x1024_S128x1024_1_0_0_1_n_n.rhsIdx (ix2 o q) ((contrEquiv1 dot_S128x1024_S1024x1024_S128x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

/-- The point's product tile at (o, q): row o of x scaled entry by entry by the row tile's inverse square roots,
    against column q of the tile of adj + I (the change of float format is the identity on the ideal values). -/
theorem pay7_apply (i : grid2.Coords) (v5 : Vec Ideal S1x1024 .f32) (v22 : Vec Ideal S1024x1024 .f32) (v29 : Vec Ideal S128x1024 .f32)
    (o : Fin 128) (q : Fin 1024) :
    k2_pay7 i v5 v22 v29 (ix2 o q) = ∑ k : Fin 1024, (v29 (ix2 o k) * v5 (ix2 0 k)) * k2_pay5 i v22 (ix2 k q) := by
  unfold k2_pay7
  rw [mm_apply]
  refine Finset.sum_congr rfl fun k _ => ?_
  rw [truncf_apply, truncf_apply, mulf_apply, shapeCast_self, shapeCast_self, broadcastTo_1b_ab_apply]

/-- The accumulator's update adds the product tile to what the accumulator held. -/
theorem pay1_apply (v35 : FVec Ideal S128x1024 .f32) (v36 : Vec Ideal S128x1024 .f32) (j : S128x1024.Idx) :
    k2_pay1 v35 v36 j = v36 j + v35 j := by
  unfold k2_pay1
  rw [shapeCast_self, addf_apply]

/-- The accumulator's reset value is zero everywhere. -/
theorem pay3_apply (j : S128x1024.Idx) : (k2_pay3 (F := Ideal)) j = 0 := by
  unfold k2_pay3
  rw [shapeCast_self, broadcast_apply]
  exact Ideal.ofBits_zero_f32

/-- The row of inverse square roots passes through its cast unchanged. -/
theorem pay4_eq (v7 : Vec Ideal S1x1024 .f32) : k2_pay4 v7 = v7 := by
  unfold k2_pay4
  exact shapeCast_self _ _

/-- What the last row tile's point writes out, at (o, q): the accumulator times the column's inverse square root,
    clamped at zero. -/
theorem pay2_apply (v8 : FVec Ideal S1x1024 .f32) (v44 : Vec Ideal S128x1024 .f32) (o : Fin 128) (q : Fin 1024) :
    k2_pay2 v8 v44 (ix2 o q) = max (v44 (ix2 o q) * v8 (ix2 0 q)) 0 := by
  unfold k2_pay2
  rw [maximumf_apply, mulf_apply, broadcastTo_1b_ab_apply, broadcast_apply]
  show max _ (Ideal.ofBits .f32 0x00000000#32) = _
  rw [Ideal.ofBits_zero_f32]

/-! ## The blocks at a point

  Point t of the 8 × 8 grid works on column tile J = t / 8 and row tile I = t % 8; a block's element sits in its
  array at block index × block size + its coordinate inside the block. -/

/-- Entry `k` of tile `b` on an axis of 8192 cut in tiles of 1024 (the remainder never acts on a true tile's entry). -/
def gix (b k : ℕ) : Fin 8192 := ⟨(b * 1024 + k) % 8192, Nat.mod_lt _ (by decide)⟩

theorem gix_val (b k : ℕ) (hb : b < 8) (hk : k < 1024) : (gix b k).val = b * 1024 + k := by
  show (b * 1024 + k) % 8192 = _
  omega

/-- The printed index maps and the grid's coordinates, decided once over the 64 points. -/
theorem idx2 : ∀ t : Fin cfg2.N,
    (grid2.coords t 0).val = t.val / 8 ∧ (grid2.coords t 1).val = t.val % 8
    ∧ win2_0.index t (0 : Fin 2) = t.val % 8 ∧ win2_0.index t (1 : Fin 2) = t.val / 8
    ∧ win2_1.index t (0 : Fin 2) = 0 ∧ win2_1.index t (1 : Fin 2) = t.val % 8
    ∧ win2_2.index t (0 : Fin 2) = t.val % 8 ∧ win2_2.index t (1 : Fin 2) = 0
    ∧ win2_3.index t (0 : Fin 2) = 0 ∧ win2_3.index t (1 : Fin 2) = t.val % 8
    ∧ win2_4.index t (0 : Fin 2) = 0 ∧ win2_4.index t (1 : Fin 2) = t.val / 8
    ∧ win2_5.index t (0 : Fin 2) = t.val % 8 ∧ win2_5.index t (1 : Fin 2) = t.val / 8
    ∧ win2_6.index t (0 : Fin 2) = 0 ∧ win2_6.index t (1 : Fin 2) = t.val / 8 :=
  (by decide +kernel : ∀ t : Fin grid2.N, _)

theorem pt_lt (t : Fin cfg2.N) : t.val < 64 := Nat.lt_of_lt_of_eq t.isLt N_2

section Blocks

variable (V : (c : Dev nD) → (b : Ref sig .tc) → Buf (Elt Ideal) ((c : Thread nD τ).loc b))

/-- The adjacency tile of point t is rows of tile I, columns of tile J. -/
theorem blk0_apply (c : Dev nD) (t : Fin cfg2.N) (p q : Fin 1024) :
    iblk2 V c 0 t (ix2 p q) = adjOf V c (gix (t.val % 8) p.val) (gix (t.val / 8) q.val) := by
  show V c main_arg1 (((cfg2.win 0).blk t).view.emb (ix2 p q)) = V c main_arg1 (ix2 _ _)
  refine congrArg (V c main_arg1) (funext fun a => Fin.ext ?_)
  obtain ⟨-, -, e0, e1, -⟩ := idx2 t
  have ht := pt_lt t
  have hp := p.isLt
  have hq := q.isLt
  match a with
  | ⟨0, _⟩ => show win2_0.index t (0 : Fin 2) * 1024 + 1 * p.val = (t.val % 8 * 1024 + p.val) % 8192; omega
  | ⟨1, _⟩ => show win2_0.index t (1 : Fin 2) * 1024 + 1 * q.val = (t.val / 8 * 1024 + q.val) % 8192; omega

end Blocks

section Blocks2

variable (V : (c : Dev nD) → (b : Ref sig .tc) → Buf (Elt Ideal) ((c : Thread nD τ).loc b))

/-- The tile of x at point t is all 128 rows, columns of tile I. -/
theorem blk1_apply (c : Dev nD) (t : Fin cfg2.N) (o : Fin 128) (k : Fin 1024) :
    iblk2 V c 1 t (ix2 o k) = xOf V c o (gix (t.val % 8) k.val) := by
  show V c main_v0 (((cfg2.win 1).blk t).view.emb (ix2 o k)) = V c main_v0 (ix2 _ _)
  refine congrArg (V c main_v0) (funext fun a => Fin.ext ?_)
  obtain ⟨-, -, -, -, e0, e1, -⟩ := idx2 t
  have ht := pt_lt t
  have ho := o.isLt
  have hk := k.isLt
  match a with
  | ⟨0, _⟩ => show win2_1.index t (0 : Fin 2) * 128 + 1 * o.val = o.val; omega
  | ⟨1, _⟩ => show win2_1.index t (1 : Fin 2) * 1024 + 1 * k.val = (t.val % 8 * 1024 + k.val) % 8192; omega

/-- The column of inverse square roots at point t is the entries of tile I. -/
theorem blk2_apply (c : Dev nD) (t : Fin cfg2.N) (p : Fin 1024) :
    iblk2 V c 2 t (ix2 p (0 : Fin 1)) = dcolOf V c (gix (t.val % 8) p.val) := by
  show V c main_v4 (((cfg2.win 2).blk t).view.emb (ix2 p (0 : Fin 1))) = V c main_v4 (ix2 _ _)
  refine congrArg (V c main_v4) (funext fun a => Fin.ext ?_)
  obtain ⟨-, -, -, -, -, -, e0, e1, -⟩ := idx2 t
  have ht := pt_lt t
  have hp := p.isLt
  match a with
  | ⟨0, _⟩ => show win2_2.index t (0 : Fin 2) * 1024 + 1 * p.val = (t.val % 8 * 1024 + p.val) % 8192; omega
  | ⟨1, _⟩ => show win2_2.index t (1 : Fin 2) * 1 + 1 * 0 = 0; omega

/-- The row of inverse square roots read at the row tile: the entries of tile I. -/
theorem blk3_apply (c : Dev nD) (t : Fin cfg2.N) (k : Fin 1024) :
    iblk2 V c 3 t (ix2 (0 : Fin 1) k) = drowOf V c (gix (t.val % 8) k.val) := by
  show V c main_v5 (((cfg2.win 3).blk t).view.emb (ix2 (0 : Fin 1) k)) = V c main_v5 (ix2 _ _)
  refine congrArg (V c main_v5) (funext fun a => Fin.ext ?_)
  obtain ⟨-, -, -, -, -, -, -, -, e0, e1, -⟩ := idx2 t
  have ht := pt_lt t
  have hk := k.isLt
  match a with
  | ⟨0, _⟩ => show win2_3.index t (0 : Fin 2) * 1 + 1 * 0 = 0; omega
  | ⟨1, _⟩ => show win2_3.index t (1 : Fin 2) * 1024 + 1 * k.val = (t.val % 8 * 1024 + k.val) % 8192; omega

/-- The row of inverse square roots read at the column tile: the entries of tile J. -/
theorem blk4_apply (c : Dev nD) (t : Fin cfg2.N) (q : Fin 1024) :
    iblk2 V c 4 t (ix2 (0 : Fin 1) q) = drowOf V c (gix (t.val / 8) q.val) := by
  show V c main_v5 (((cfg2.win 4).blk t).view.emb (ix2 (0 : Fin 1) q)) = V c main_v5 (ix2 _ _)
  refine congrArg (V c main_v5) (funext fun a => Fin.ext ?_)
  obtain ⟨-, -, -, -, -, -, -, -, -, -, e0, e1, -⟩ := idx2 t
  have ht := pt_lt t
  have hq := q.isLt
  match a with
  | ⟨0, _⟩ => show win2_4.index t (0 : Fin 2) * 1 + 1 * 0 = 0; omega
  | ⟨1, _⟩ => show win2_4.index t (1 : Fin 2) * 1024 + 1 * q.val = (t.val / 8 * 1024 + q.val) % 8192; omega

/-- The kernel's comparison of global ids is the identity matrix at the global coordinates. -/
theorem eye_gix (I J : ℕ) (hI : I < 8) (hJ : J < 8) (p q : Fin 1024) :
    (if I * 1024 + p.val = J * 1024 + q.val then (1 : EReal) else 0) = Cert.Spec.eye (gix I p.val) (gix J q.val) := by
  unfold Cert.Spec.eye
  refine if_congr ?_ rfl rfl
  rw [Fin.ext_iff, gix_val _ _ hI p.isLt, gix_val _ _ hJ q.isLt]

/-- The tile of adj + I at point t, entry (p, q): adj + I at global row (I, p) and global column (J, q). -/
theorem tileA_apply (c : Dev nD) (t : Fin cfg2.N) (p q : Fin 1024) :
    k2_pay5 (grid2.coords t) (iblk2 V c 0 t) (ix2 p q)
      = adjOf V c (gix (t.val % 8) p.val) (gix (t.val / 8) q.val) + Cert.Spec.eye (gix (t.val % 8) p.val) (gix (t.val / 8) q.val) := by
  obtain ⟨g0, g1, -⟩ := idx2 t
  have ht := pt_lt t
  refine (pay5_apply (grid2.coords t) (iblk2 V c 0 t) p q).trans ?_
  rw [g0, g1, blk0_apply, eye_gix _ _ (by omega) (by omega)]

/-- The scaled tile at point t, entry (p, q). -/
theorem tile2_apply (c : Dev nD) (t : Fin cfg2.N) (p q : Fin 1024) :
    tile2 V c t (ix2 p q)
      = ((adjOf V c (gix (t.val % 8) p.val) (gix (t.val / 8) q.val) + Cert.Spec.eye (gix (t.val % 8) p.val) (gix (t.val / 8) q.val))
          * dcolOf V c (gix (t.val % 8) p.val)) * drowOf V c (gix (t.val / 8) q.val) := by
  unfold tile2
  refine (pay6_apply (grid2.coords t) (iblk2 V c 2 t) (iblk2 V c 4 t) (iblk2 V c 0 t) p q).trans ?_
  rw [tileA_apply, blk2_apply, blk4_apply]

end Blocks2

section Scaled

variable (V : (c : Dev nD) → (b : Ref sig .tc) → Buf (Elt Ideal) ((c : Thread nD τ).loc b))

/-- The scaled matrix as one function of the whole array's index. -/
def scaledOf (c : Dev nD) : S8192x8192.Idx → EReal := fun i =>
  ((adjOf V c (i 0) (i 1) + Cert.Spec.eye (i 0) (i 1)) * dcolOf V c (i 0)) * drowOf V c (i 1)

/-- What point t writes back to the first result is block t of the scaled matrix. -/
theorem flushed5_eq (c : Dev nD) (t : Fin cfg2.N) :
    (dat2 (F := Ideal) V c).flushed 5 t = ((cfg2.win 5).blk t).view.read (Elt Ideal) (scaledOf V c) := by
  show (cfg2.win 5).cut (grid2.coords t) (tile2 V c t) = _
  funext y
  obtain ⟨p, q, rfl⟩ : ∃ (p q : Fin 1024), y = ix2 p q := ⟨y 0, y 1, eq_ix2 y⟩
  show tile2 V c t (ix2 p q) = scaledOf V c (((cfg2.win 5).blk t).view.emb (ix2 p q))
  have e : ((cfg2.win 5).blk t).view.emb (ix2 p q) = ix2 (gix (t.val % 8) p.val) (gix (t.val / 8) q.val) := by
    funext a
    apply Fin.ext
    obtain ⟨-, -, -, -, -, -, -, -, -, -, -, -, e0, e1, -⟩ := idx2 t
    have ht := pt_lt t
    have hp := p.isLt
    have hq := q.isLt
    match a with
    | ⟨0, _⟩ => show win2_5.index t (0 : Fin 2) * 1024 + 1 * p.val = (t.val % 8 * 1024 + p.val) % 8192; omega
    | ⟨1, _⟩ => show win2_5.index t (1 : Fin 2) * 1024 + 1 * q.val = (t.val / 8 * 1024 + q.val) % 8192; omega
  rw [e, tile2_apply]
  rfl

/-- An index of the first result is in point t's block iff each coordinate is in the block's range on its axis. -/
theorem mem_blk5 (t : Fin cfg2.N) (i : S8192x8192.Idx) :
    i ∈ ((cfg2.win 5).blk t).view.set ↔ ∀ a : Fin 2, win2_5.index t a * S1024x1024.size a ≤ (i a).val ∧ (i a).val < win2_5.index t a * S1024x1024.size a + S1024x1024.size a := by
  show i ∈ ((View.whole main_v6_0).slice (win2_5.rect t)).set ↔ _
  rw [View.set_slice_whole, Rect.mem_set_unit]
  exact Iff.rfl

/-- Every entry of the first result lies in the block of the point of its column tile and row tile. -/
theorem cover5 (i : S8192x8192.Idx) : ∃ t : Fin cfg2.N, (cfg2.win 5).flush t = true ∧ i ∈ ((cfg2.win 5).blk t).view.set := by
  have hi0 : (i 0).val < 8192 := (i 0).isLt
  have hi1 : (i 1).val < 8192 := (i 1).isLt
  obtain ⟨t, ht⟩ : ∃ t : Fin cfg2.N, t.val = 8 * ((i 1).val / 1024) + (i 0).val / 1024 :=
    ⟨⟨8 * ((i 1).val / 1024) + (i 0).val / 1024, Nat.lt_of_lt_of_eq (by omega) N_2.symm⟩, rfl⟩
  refine ⟨t, flush2_5 t, ?_⟩
  rw [mem_blk5]
  obtain ⟨-, -, -, -, -, -, -, -, -, -, -, -, e0, e1, -⟩ := idx2 t
  intro a
  match a with
  | ⟨0, _⟩ => show win2_5.index t (0 : Fin 2) * 1024 ≤ (i 0).val ∧ (i 0).val < win2_5.index t (0 : Fin 2) * 1024 + 1024; omega
  | ⟨1, _⟩ => show win2_5.index t (1 : Fin 2) * 1024 ≤ (i 1).val ∧ (i 1).val < win2_5.index t (1 : Fin 2) * 1024 + 1024; omega

end Scaled

/-! ## The output: the accumulator over the row tiles of a column tile -/

/-- Eight tiles of 1024 entries are the 8192 entries of the axis: a sum taken tile by tile is the sum over the axis
    (a re-indexing; only commutativity and associativity of the addition are used). -/
theorem sum_tiles {M : Type*} [AddCommMonoid M] (f : Fin 8192 → M) :
    ∑ s ∈ Finset.range 8, ∑ k : Fin 1024, f (gix s k.val) = ∑ i : Fin 8192, f i := by
  have h1 : ∑ s ∈ Finset.range 8, ∑ k : Fin 1024, f (gix s k.val) = ∑ s : Fin 8, ∑ k : Fin 1024, f (gix s.val k.val) :=
    (Fin.sum_univ_eq_sum_range (fun s => ∑ k : Fin 1024, f (gix s k.val)) 8).symm
  have h2 : ∑ s : Fin 8, ∑ k : Fin 1024, f (gix s.val k.val) = ∑ x : Fin 8 × Fin 1024, f (gix x.1.val x.2.val) :=
    (Fintype.sum_prod_type' (fun (s : Fin 8) (k : Fin 1024) => f (gix s.val k.val))).symm
  rw [h1, h2]
  exact Fintype.sum_equiv (finProdFinEquiv : Fin 8 × Fin 1024 ≃ Fin 8192) _ _ fun x => congrArg f (Fin.ext (by
    have hx1 := x.1.isLt
    have hx2 := x.2.isLt
    show (x.1.val * 1024 + x.2.val) % 8192 = x.2.val + 1024 * x.1.val
    omega))

section Output

variable (V : (c : Dev nD) → (b : Ref sig .tc) → Buf (Elt Ideal) ((c : Thread nD τ).loc b))

/-- Row tile s's share of the sum at (o, column q of column tile J). -/
def part (c : Dev nD) (J s : ℕ) (o : Fin 128) (q : Fin 1024) : EReal :=
  ∑ k : Fin 1024, (xOf V c o (gix s k.val) * drowOf V c (gix s k.val))
    * (adjOf V c (gix s k.val) (gix J q.val) + Cert.Spec.eye (gix s k.val) (gix J q.val))

/-- The product tile of point t at (o, q) is row tile I's share. -/
theorem prod_apply (c : Dev nD) (t : Fin cfg2.N) (o : Fin 128) (q : Fin 1024) :
    k2_pay7 (grid2.coords t) (iblk2 V c 3 t) (iblk2 V c 0 t) (iblk2 V c 1 t) (ix2 o q) = part V c (t.val / 8) (t.val % 8) o q := by
  refine (pay7_apply (grid2.coords t) (iblk2 V c 3 t) (iblk2 V c 0 t) (iblk2 V c 1 t) o q).trans ?_
  unfold part
  refine Finset.sum_congr rfl fun k _ => ?_
  rw [blk1_apply, blk3_apply, tileA_apply]

/-- At the first row tile of a column tile the accumulator is the point's product added to zero. -/
theorem acc2_reset (c : Dev nD) (n : ℕ) (h : n < cfg2.N) (h0 : n % 8 = 0) :
    acc2 V c n h = k2_pay1 (k2_pay7 (grid2.coords ⟨n, h⟩) (iblk2 V c 3 ⟨n, h⟩) (iblk2 V c 0 ⟨n, h⟩) (iblk2 V c 1 ⟨n, h⟩)) (k2_pay3 (F := Ideal)) := by
  cases n with
  | zero => rfl
  | succ m => rw [acc2, if_pos h0]

/-- At every other row tile it is the point's product added to what the point before left. -/
theorem acc2_step (c : Dev nD) (n : ℕ) (h : n + 1 < cfg2.N) (h0 : ¬(n + 1) % 8 = 0) :
    acc2 V c (n + 1) h = k2_pay1 (k2_pay7 (grid2.coords ⟨n + 1, h⟩) (iblk2 V c 3 ⟨n + 1, h⟩) (iblk2 V c 0 ⟨n + 1, h⟩) (iblk2 V c 1 ⟨n + 1, h⟩)) (acc2 V c n (Nat.lt_of_succ_lt h)) := by
  rw [acc2, if_neg h0]

/-- THE INVARIANT: after point n = 8 J + I the accumulator holds, at (o, q), the shares of row tiles 0 … I. -/
theorem acc2_apply (c : Dev nD) : ∀ (n : ℕ) (h : n < cfg2.N) (o : Fin 128) (q : Fin 1024),
    acc2 V c n h (ix2 o q) = ∑ s ∈ Finset.range (n % 8 + 1), part V c (n / 8) s o q
  | 0, h, o, q => by
    rw [acc2_reset V c 0 h rfl]
    refine (pay1_apply _ _ (ix2 o q)).trans ?_
    rw [pay3_apply, zero_add, prod_apply V c ⟨0, h⟩ o q]
    show part V c (0 / 8) (0 % 8) o q = ∑ s ∈ Finset.range (0 % 8 + 1), part V c (0 / 8) s o q
    rw [show 0 % 8 + 1 = 1 from rfl, Finset.sum_range_one]
  | n + 1, h, o, q => by
    by_cases h0 : (n + 1) % 8 = 0
    · rw [acc2_reset V c (n + 1) h h0]
      refine (pay1_apply _ _ (ix2 o q)).trans ?_
      rw [pay3_apply, zero_add, prod_apply V c ⟨n + 1, h⟩ o q]
      show part V c ((n + 1) / 8) ((n + 1) % 8) o q = _
      rw [h0, Finset.sum_range_one]
    · rw [acc2_step V c n h h0]
      refine (pay1_apply _ _ (ix2 o q)).trans ?_
      rw [acc2_apply c n (Nat.lt_of_succ_lt h) o q, prod_apply V c ⟨n + 1, h⟩ o q]
      show _ + part V c ((n + 1) / 8) ((n + 1) % 8) o q = _
      have e1 : (n + 1) / 8 = n / 8 := by omega
      have e2 : (n + 1) % 8 = n % 8 + 1 := by omega
      rw [e1, e2, Finset.sum_range_succ _ (n % 8 + 1)]

/-- The output as one function of the whole array's index. -/
def outOf (c : Dev nD) : S128x8192.Idx → EReal := fun i =>
  max ((∑ r : Fin 8192, (xOf V c (i 0) r * drowOf V c r) * (adjOf V c r (i 1) + Cert.Spec.eye r (i 1))) * drowOf V c (i 1)) 0

/-- What the last row tile's point writes out, at (o, q): the whole sum over the 8192 rows, times the column's
    inverse square root, clamped at zero. -/
theorem fin2_apply (c : Dev nD) (t : Fin cfg2.N) (h7 : t.val % 8 = 7) (o : Fin 128) (q : Fin 1024) :
    fin2 V c t (ix2 o q)
      = max ((∑ r : Fin 8192, (xOf V c o r * drowOf V c r) * (adjOf V c r (gix (t.val / 8) q.val) + Cert.Spec.eye r (gix (t.val / 8) q.val)))
          * drowOf V c (gix (t.val / 8) q.val)) 0 := by
  unfold fin2
  refine (pay2_apply (k2_pay4 (iblk2 V c 4 t)) (acc2 V c t.val t.isLt) o q).trans ?_
  have hs : ∑ s ∈ Finset.range 8, part V c (t.val / 8) s o q
      = ∑ r : Fin 8192, (xOf V c o r * drowOf V c r) * (adjOf V c r (gix (t.val / 8) q.val) + Cert.Spec.eye r (gix (t.val / 8) q.val)) :=
    sum_tiles (fun r => (xOf V c o r * drowOf V c r) * (adjOf V c r (gix (t.val / 8) q.val) + Cert.Spec.eye r (gix (t.val / 8) q.val)))
  rw [pay4_eq (iblk2 V c 4 t), blk4_apply V c t q, acc2_apply V c t.val t.isLt o q, h7, hs]

/-- What a writing point writes back to the second result is its block of the output. -/
theorem flushed6_eq (c : Dev nD) (t : Fin cfg2.N) (hf : (cfg2.win 6).flush t = true) :
    (dat2 (F := Ideal) V c).flushed 6 t = ((cfg2.win 6).blk t).view.read (Elt Ideal) (outOf V c) := by
  have h7 : t.val % 8 = 7 := (flush2_6 t).mp hf
  show (cfg2.win 6).cut (grid2.coords t) (fin2 V c t) = _
  funext y
  obtain ⟨o, q, rfl⟩ : ∃ (o : Fin 128) (q : Fin 1024), y = ix2 o q := ⟨y 0, y 1, eq_ix2 y⟩
  show fin2 V c t (ix2 o q) = outOf V c (((cfg2.win 6).blk t).view.emb (ix2 o q))
  have e : ((cfg2.win 6).blk t).view.emb (ix2 o q) = ix2 o (gix (t.val / 8) q.val) := by
    funext a
    apply Fin.ext
    obtain ⟨-, -, -, -, -, -, -, -, -, -, -, -, -, -, e0, e1⟩ := idx2 t
    have ht := pt_lt t
    have ho := o.isLt
    have hq := q.isLt
    match a with
    | ⟨0, _⟩ => show win2_6.index t (0 : Fin 2) * 128 + 1 * o.val = o.val; omega
    | ⟨1, _⟩ => show win2_6.index t (1 : Fin 2) * 1024 + 1 * q.val = (t.val / 8 * 1024 + q.val) % 8192; omega
  rw [e, fin2_apply V c t h7 o q]
  rfl

/-- An index of the second result is in point t's block iff each coordinate is in the block's range on its axis. -/
theorem mem_blk6 (t : Fin cfg2.N) (i : S128x8192.Idx) :
    i ∈ ((cfg2.win 6).blk t).view.set ↔ ∀ a : Fin 2, win2_6.index t a * S128x1024.size a ≤ (i a).val ∧ (i a).val < win2_6.index t a * S128x1024.size a + S128x1024.size a := by
  show i ∈ ((View.whole main_v6_1).slice (win2_6.rect t)).set ↔ _
  rw [View.set_slice_whole, Rect.mem_set_unit]
  exact Iff.rfl

/-- Every entry of the second result lies in the block written by the last row tile's point of its column tile. -/
theorem cover6 (i : S128x8192.Idx) : ∃ t : Fin cfg2.N, (cfg2.win 6).flush t = true ∧ i ∈ ((cfg2.win 6).blk t).view.set := by
  have hi0 : (i 0).val < 128 := (i 0).isLt
  have hi1 : (i 1).val < 8192 := (i 1).isLt
  obtain ⟨t, ht⟩ : ∃ t : Fin cfg2.N, t.val = 8 * ((i 1).val / 1024) + 7 :=
    ⟨⟨8 * ((i 1).val / 1024) + 7, Nat.lt_of_lt_of_eq (by omega) N_2.symm⟩, rfl⟩
  refine ⟨t, (flush2_6 t).mpr (by omega), ?_⟩
  rw [mem_blk6]
  obtain ⟨-, -, -, -, -, -, -, -, -, -, -, -, -, -, e0, e1⟩ := idx2 t
  intro a
  match a with
  | ⟨0, _⟩ => show win2_6.index t (0 : Fin 2) * 128 ≤ (i 0).val ∧ (i 0).val < win2_6.index t (0 : Fin 2) * 128 + 128; omega
  | ⟨1, _⟩ => show win2_6.index t (1 : Fin 2) * 1024 ≤ (i 1).val ∧ (i 1).val < win2_6.index t (1 : Fin 2) * 1024 + 1024; omega

end Output

end Val2

/-! ## The two result arrays after the region -/

section Val2

open Val2

variable (V : (c : Dev nD) → (b : Ref sig .tc) → Buf (Elt Ideal) ((c : Thread nD τ).loc b))

/-- Region 2's first result array (the scaled matrix) after the region, entry by entry. -/
theorem adjn_val (c : Dev nD) (i j : Fin 8192) :
    (dat2 (F := Ideal) V c).arrAt 5 cfg2.N (ix2 i j)
      = ((adjOf V c i j + Cert.Spec.eye i j) * dcolOf V c i) * drowOf V c j :=
  congrFun ((dat2 (F := Ideal) V c).arrAt_eq_of_cover 5 (scaledOf V c) (fun t _ => flushed5_eq V c t) cover5) (ix2 i j)

/-- Region 2's second result array (the layer's output) after the region, entry by entry. -/
theorem out_val (c : Dev nD) (o : Fin 128) (j : Fin 8192) :
    (dat2 (F := Ideal) V c).arrAt 6 cfg2.N (ix2 o j)
      = max ((∑ i : Fin 8192, (xOf V c o i * drowOf V c i) * (adjOf V c i j + Cert.Spec.eye i j)) * drowOf V c j) 0 :=
  congrFun ((dat2 (F := Ideal) V c).arrAt_eq_of_cover 6 (outOf V c) (fun t hf => flushed6_eq V c t hf) cover6) (ix2 o j)

end Val2

end Cert.KernelIdeal.Hand

end
-- ==== Proof.KI.Chain.lean ====
/-
  The kernel's two results at the ideal instance, as the mathematics' functions of the launch memory: region 2's
  results read at the contents the items before it leave — the adjacency matrix as launched, the product region 0
  left, and the inverse square roots the host operations computed from the row sums region 1 left.
-/
import proofs.«159752_j43112881717764_1_alg».proof.Proof.KI.Vals
import proofs.«159752_j43112881717764_1_alg».proof.Proof.KI.Val0
import proofs.«159752_j43112881717764_1_alg».proof.Proof.KI.Val1
import proofs.«159752_j43112881717764_1_alg».proof.Proof.KI.Val2
import proofs.«159752_j43112881717764_1_alg».proof.Proof.Spec
import proofs.«159752_j43112881717764_1_alg».proof.Proof.Gen.KernelIdeal.Regions
import Idealize.ShloMosaic.Lib.ValueIdx
import Idealize.ShloMosaic.Lib.ValueLayout
import Idealize.ShloMosaic.Lib.IdealHost
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

open ValueIdx

section Chain

variable (m : (ℓ : Loc nD τ sig) → Buf (Elt Ideal) ℓ)

/-- The arguments as functions of coordinates. -/
abbrev adjF (c : Dev nD) : Fin 8192 → Fin 8192 → EReal := fun i j => m ((c.tc : Thread nD τ).loc main_arg1) (ix2 i j)
abbrev wF (c : Dev nD) : Fin 512 → Fin 128 → EReal := fun k o => m ((c.tc : Thread nD τ).loc main_arg2) (ix2 k o)
abbrev inpF (c : Dev nD) : Fin 512 → Fin 8192 → EReal := fun k n => m ((c.tc : Thread nD τ).loc main_arg0) (ix2 k n)

/-! ## What region 2 is entered with -/

/-- The adjacency matrix is as launched: neither a region before nor a host operation writes it. -/
theorem V3_arg1 (c : Dev nD) : V3 m c main_arg1 = m ((c.tc : Thread nD τ).loc main_arg1) := by
  show StableHlo.after hostOps2 (W2 m c) (Proc.devRef .tc main_arg1) = _
  rw [StableHlo.after_of_writes_sub hostOps2 _ hostOps2_writes (by decide)]
  unfold W2 W1
  rw [Function.update_of_ne (StableHlo.devRef_ne_of_ne (by decide)),
    Function.update_of_ne (StableHlo.devRef_ne_of_ne (by decide))]

/-- The product is what region 0 left: nothing after it writes that array. -/
theorem V3_v0 (c : Dev nD) : V3 m c main_v0 = X0 m c := by
  show StableHlo.after hostOps2 (W2 m c) (Proc.devRef .tc main_v0) = _
  rw [StableHlo.after_of_writes_sub hostOps2 _ hostOps2_writes (by decide)]
  unfold W2 W1
  rw [Function.update_of_ne (StableHlo.devRef_ne_of_ne (by decide)), Function.update_self]

/-- The row sums region 1 leaves, as a function of the row. -/
abbrev x1F (c : Dev nD) : Fin 8192 → EReal := fun i => X1 m c (ix2 i 0)

/-- The column of inverse square roots: the host operations add the constant 1 to each row sum and take the inverse
    square root. -/
theorem V3_v4 (c : Dev nD) (i : Fin 8192) : dcolOf (V3 m) c i = Ideal.rsqrt (x1F m c i + 1) := by
  show StableHlo.after hostOps2 (W2 m c) (Proc.devRef .tc main_v4) (ix2 i 0) = _
  after_results
  simp only [Host.rsqrt]
  rw [Ideal.hostUnary_rsqrt_def, addf_apply, broadcastInDim_scalar_apply, constant_apply, Ideal.ofBits_one_f32]
  unfold W2
  rw [Function.update_self]

/-- The row of inverse square roots is the column transposed. -/
theorem V3_v5 (c : Dev nD) (j : Fin 8192) : drowOf (V3 m) c j = dcolOf (V3 m) c j := by
  show StableHlo.after hostOps2 (W2 m c) (Proc.devRef .tc main_v5) (ix2 0 j)
    = StableHlo.after hostOps2 (W2 m c) (Proc.devRef .tc main_v4) (ix2 j 0)
  after_results
  exact transpose_ix2_apply _ _ 0 j

/-- Region 1 is entered with the adjacency matrix as launched (region 0 writes another array), so its row sums are
    the launched matrix's. -/
theorem x1F_eq (c : Dev nD) (i : Fin 8192) : x1F m c i = ∑ j : Fin 8192, adjF m c i j := by
  have h : x1F m c i = ∑ j : Fin 8192, adjOf (V1 m) c i j := deg_val (V1 m) c i
  rw [h]
  refine Finset.sum_congr rfl (fun j _ => ?_)
  show W1 m c (Proc.devRef .tc main_arg1) (ix2 i j) = _
  unfold W1
  rw [Function.update_of_ne (StableHlo.devRef_ne_of_ne (by decide))]

/-- The adjacency matrix region 2 reads is the launched one. -/
theorem adjOf_V3 (c : Dev nD) (i j : Fin 8192) : adjOf (V3 m) c i j = adjF m c i j := by
  show V3 m c main_arg1 (ix2 i j) = _
  rw [V3_arg1]

/-- The column of inverse square roots is the degrees': the row sum plus one is the degree. -/
theorem dcolOf_V3 (c : Dev nD) (i : Fin 8192) : dcolOf (V3 m) c i = Cert.Spec.dinv (adjF m c) i := by
  rw [V3_v4, x1F_eq, Cert.Spec.deg_eq]
  rfl

/-- And so is the row. -/
theorem drowOf_V3 (c : Dev nD) (j : Fin 8192) : drowOf (V3 m) c j = Cert.Spec.dinv (adjF m c) j := by
  rw [V3_v5, dcolOf_V3]

/-- The product region 2 reads is the weights' transpose times the inputs, both as launched. -/
theorem xOf_V3 (c : Dev nD) (o : Fin 128) (n : Fin 8192) :
    xOf (V3 m) c o n = Cert.Spec.xprod (wF m c) (inpF m c) o n := by
  show V3 m c main_v0 (ix2 o n) = _
  rw [V3_v0]
  exact x_val (V0 m) c o n

/-! ## The two results -/

/-- The scaled matrix the kernel leaves is the normalised adjacency matrix. -/
theorem kernel_adjn (c : Dev nD) (i j : Fin 8192) :
    X2a m c (ix2 i j) = Cert.Spec.adjn (adjF m c) i j := by
  unfold X2a
  rw [adjn_val (V3 m) c i j, adjOf_V3, dcolOf_V3, drowOf_V3]
  rfl

/-- The output the kernel leaves is the layer's output, where every degree is positive. -/
theorem kernel_out (c : Dev nD) (hd : ∀ j, 0 < Cert.Spec.deg (adjF m c) j) (o : Fin 128) (j : Fin 8192) :
    X2o m c (ix2 o j) = Cert.Spec.out (wF m c) (inpF m c) (adjF m c) o j := by
  unfold X2o
  rw [out_val (V3 m) c o j, drowOf_V3 m c j]
  have e : ∀ i : Fin 8192,
      (xOf (V3 m) c o i * drowOf (V3 m) c i) * (adjOf (V3 m) c i j + Cert.Spec.eye i j)
        = (Cert.Spec.xprod (wF m c) (inpF m c) o i * Cert.Spec.dinv (adjF m c) i) * (adjF m c i j + Cert.Spec.eye i j) :=
    fun i => by rw [xOf_V3, drowOf_V3, adjOf_V3]
  rw [Finset.sum_congr rfl (fun i _ => e i)]
  -- the column factor moves into the sum: the kernel's arrangement is the layer's
  exact Cert.Spec.out_eq (adjF m c) hd (Cert.Spec.xprod (wF m c) (inpF m c)) o j

end Chain

end Cert.KernelIdeal.Hand

end
-- ==== Proof.Ref.lean ====
/-
  The reference's two results at the ideal instance, as the mathematics' functions of its arguments, entry by entry.
-/
import proofs.«159752_j43112881717764_1_alg».proof.Defs
import proofs.«159752_j43112881717764_1_alg».proof.Proof.Gen.ReferenceIdeal.Run
import proofs.«159752_j43112881717764_1_alg».proof.Proof.Gen.ReferenceIdeal.Read
import proofs.«159752_j43112881717764_1_alg».proof.Proof.Spec
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo ValueIdx

/-- Two coordinates below 2^13 have the same 32-bit word exactly when they are the same coordinate (the added zero word
    changes nothing). -/
theorem word_eq_iff (i j : Fin 8192) :
    IntOp.addi (BitVec.ofNat 32 i.val) 0#32 = BitVec.ofNat 32 j.val ↔ i = j := by
  have hi := i.isLt
  have hj := j.isLt
  constructor
  · intro h
    have h' := congrArg BitVec.toNat h
    simp only [IntOp.addi, BitVec.add_zero, BitVec.toNat_ofNat] at h'
    exact Fin.ext (by omega)
  · rintro rfl
    simp only [IntOp.addi, BitVec.add_zero]

/-- The reference's identity matrix (the row coordinate's word compared with the column's, the one-bit answer read as a
    number) is the identity matrix. -/
theorem eye_at (i j : Fin 8192) : val_main_v5 (F := Ideal) (ix2 i j) = Cert.Spec.eye i j := by
  rw [val_main_v5_apply, val_main_v4_apply, val_main_v3_apply, val_main_v0_apply, val_main_v2_apply, val_main_c_apply,
    val_main_v1_apply]
  show (((IntOp.cmpi .eq (IntOp.addi (BitVec.ofNat 32 i.val) 0#32) (BitVec.ofNat 32 j.val)).toNat : ℝ) : EReal)
    = Cert.Spec.eye i j
  unfold Cert.Spec.eye
  by_cases h : i = j
  · rw [if_pos h, Predicate.cmpi_eq_iff.mpr ((word_eq_iff i j).mpr h)]
    show (((1 : ℕ) : ℝ) : EReal) = 1
    rw [Nat.cast_one, EReal.coe_one]
  · have hz : IntOp.cmpi .eq (IntOp.addi (BitVec.ofNat 32 i.val) 0#32) (BitVec.ofNat 32 j.val) = 0#1 :=
      eq_zero_of_ne_one (fun hc => h ((word_eq_iff i j).mp (Predicate.cmpi_eq_iff.mp hc)))
    rw [if_neg h, hz]
    show (((0 : ℕ) : ℝ) : EReal) = 0
    rw [Nat.cast_zero, EReal.coe_zero]

/-- The adjacency matrix with its self loops, entry by entry. -/
theorem v6_at (x1 : (⟨S8192x8192, .f32⟩ : BufTy).Contents (Elt Ideal)) (i j : Fin 8192) :
    val_main_v6 (F := Ideal) x1 (ix2 i j) = x1 (ix2 i j) + Cert.Spec.eye i j := by
  rw [val_main_v6_apply, eye_at]
  rfl

/-- The row sum from zero is the degree. -/
theorem v7_at (x1 : (⟨S8192x8192, .f32⟩ : BufTy).Contents (Elt Ideal)) (i : Fin 8192) :
    val_main_v7 (F := Ideal) x1 (ix1 i) = Cert.Spec.deg (fun i j => x1 (ix2 i j)) i := by
  have e : ∀ k : Fin 8192, idx_main_v7 (ix1 i) k = ix2 i k := fun k =>
    funext fun a => Fin.ext (by match a with | ⟨0, _⟩ => rfl | ⟨1, _⟩ => rfl)
  rw [val_main_v7_apply, val_main_cst_apply]
  simp only [e, v6_at, Ideal.ofBits_def, Ideal.ofBits_zero_f32, zero_add]
  rfl

/-- The inverse square root of the degree. -/
theorem v8_at (x1 : (⟨S8192x8192, .f32⟩ : BufTy).Contents (Elt Ideal)) (i : Fin 8192) :
    val_main_v8 (F := Ideal) x1 (ix1 i) = Cert.Spec.dinv (fun i j => x1 (ix2 i j)) i := by
  rw [val_main_v8_apply, v7_at]
  rfl

/-- The reference's normalised adjacency matrix, entry by entry. -/
theorem ref_adjn (x1 : (⟨S8192x8192, .f32⟩ : BufTy).Contents (Elt Ideal)) (i j : Fin 8192) :
    val_main_v14 (F := Ideal) x1 (ix2 i j) = Cert.Spec.adjn (fun i j => x1 (ix2 i j)) i j := by
  -- the column of row factors reads the row's coordinate, the row of column factors the column's
  have er : idx_main_v9 (idx_main_v10 (ix2 i j)) = ix1 i :=
    funext fun a => Fin.ext (by match a with | ⟨0, _⟩ => rfl)
  have ec : idx_main_v12 (idx_main_v13 (ix2 i j)) = ix1 j :=
    funext fun a => Fin.ext (by match a with | ⟨0, _⟩ => rfl)
  rw [val_main_v14_apply, val_main_v11_apply, val_main_v10_apply, val_main_v9_apply, val_main_v13_apply,
    val_main_v12_apply, er, ec, v8_at, v8_at, v6_at]
  rfl

/-- The product of the transposed weights and the inputs, entry by entry. -/
theorem v15_at (x0 : (⟨S512x8192, .f32⟩ : BufTy).Contents (Elt Ideal)) (x2 : (⟨S512x128, .f32⟩ : BufTy).Contents (Elt Ideal))
    (o : Fin 128) (n : Fin 8192) :
    val_main_v15 (F := Ideal) x0 x2 (ix2 o n)
      = Cert.Spec.xprod (fun k o => x2 (ix2 k o)) (fun k n => x0 (ix2 k n)) o n := by
  have el : ∀ k : Fin 512, lidx_main_v15 (ix2 o n) k = ix2 k o := fun k =>
    funext fun a => Fin.ext (by match a with | ⟨0, _⟩ => rfl | ⟨1, _⟩ => rfl)
  have er : ∀ k : Fin 512, ridx_main_v15 (ix2 o n) k = ix2 k n := fun k =>
    funext fun a => Fin.ext (by match a with | ⟨0, _⟩ => rfl | ⟨1, _⟩ => rfl)
  rw [val_main_v15_apply]
  simp only [el, er]
  rfl

/-- The reference's output, entry by entry. -/
theorem ref_out (x0 : (⟨S512x8192, .f32⟩ : BufTy).Contents (Elt Ideal)) (x1 : (⟨S8192x8192, .f32⟩ : BufTy).Contents (Elt Ideal))
    (x2 : (⟨S512x128, .f32⟩ : BufTy).Contents (Elt Ideal)) (o : Fin 128) (j : Fin 8192) :
    val_main_v17 (F := Ideal) x0 x1 x2 (ix2 o j)
      = Cert.Spec.out (fun k o => x2 (ix2 k o)) (fun k n => x0 (ix2 k n)) (fun i j => x1 (ix2 i j)) o j := by
  have el : ∀ k : Fin 8192, lidx_main_v16 (ix2 o j) k = ix2 o k := fun k =>
    funext fun a => Fin.ext (by match a with | ⟨0, _⟩ => rfl | ⟨1, _⟩ => rfl)
  have er : ∀ k : Fin 8192, ridx_main_v16 (ix2 o j) k = ix2 k j := fun k =>
    funext fun a => Fin.ext (by match a with | ⟨0, _⟩ => rfl | ⟨1, _⟩ => rfl)
  rw [val_main_v17_apply, val_main_v16_apply, val_main_call0_v0_apply, val_main_call0_cst_apply]
  simp only [el, er, v15_at, ref_adjn, Ideal.maximumf_def, Ideal.ofBits_def, Ideal.ofBits_zero_f32]
  rfl

end Cert.ReferenceIdeal.RefValue

end
-- ==== Proof.Pre.lean ====
/-
  The precondition read: every row of adj + I has a positive sum.
-/
import proofs.«159752_j43112881717764_1_alg».proof.Defs
import proofs.«159752_j43112881717764_1_alg».proof.Proof.Gen.Pre_finite_inputs
import proofs.«159752_j43112881717764_1_alg».proof.Proof.Spec
import Idealize.ShloMosaic.Lib.ValueIdx
import Idealize.ShloMosaic.Lib.ReduceAll
import Idealize.ShloMosaic.Lib.StableHlo.Predicate
import Idealize.ShloMosaic.PureOps.Ideal.Laws

noncomputable section

namespace Cert.PreRead

open Idealize.ShloMosaic ValueIdx

/-- The identity matrix as both programs compute it on 32-bit words — the row's coordinate plus zero, compared with the
    column's coordinate, the bit converted to a float — is, over the extended reals, 1 on the diagonal and 0 off it:
    below 2³² two coordinates are equal as words exactly when they are equal. -/
theorem eye_word (i j : Fin 8192) :
    (FloatOps.uitofp (F := Ideal) .f32
        (IntOp.cmpi .eq (IntOp.addi (BitVec.ofNat 32 i.val) 0#32) (BitVec.ofNat 32 j.val)) : EReal)
      = Cert.Spec.eye i j := by
  unfold Cert.Spec.eye
  have hadd : IntOp.addi (BitVec.ofNat 32 i.val) 0#32 = BitVec.ofNat 32 i.val := by
    show BitVec.ofNat 32 i.val + 0#32 = _
    exact BitVec.add_zero _
  rw [hadd]
  by_cases hij : i = j
  · subst hij
    rw [if_pos rfl, StableHlo.Predicate.cmpi_eq_iff.2 rfl]
    show (((1#1 : BitVec 1).toNat : ℝ) : EReal) = 1
    simp
  · rw [if_neg hij]
    have hne : IntOp.cmpi .eq (BitVec.ofNat 32 i.val) (BitVec.ofNat 32 j.val) = 0#1 := by
      rcases BitVec.eq_zero_or_eq_one (IntOp.cmpi .eq (BitVec.ofNat 32 i.val) (BitVec.ofNat 32 j.val)) with h0 | h1
      · exact h0
      · exfalso
        have hw := congrArg BitVec.toNat (StableHlo.Predicate.cmpi_eq_iff.1 h1)
        simp only [BitVec.toNat_ofNat] at hw
        have hi := i.isLt
        have hj := j.isLt
        exact hij (Fin.ext (by omega))
    rw [hne]
    show (((0#1 : BitVec 1).toNat : ℝ) : EReal) = 0
    simp

/-- The printed identity matrix at row i, column j. -/
theorem eye_apply [Cert.Pre_finite_inputs.Facts] (i j : Fin 8192) :
    (uitofp (F := Ideal) .f32
        (cmpi .eq
          (addi (iotaInDim Cert.Pre_finite_inputs.S8192x8192 32 0)
            (broadcastInDim Cert.Pre_finite_inputs.S8192x8192 ![] Cert.Pre_finite_inputs.Facts.bcast_S_S8192x8192
              (constantI Cert.Pre_finite_inputs.S_ 32 0#32)))
          (iotaInDim Cert.Pre_finite_inputs.S8192x8192 32 1))) (ix2 i j)
      = Cert.Spec.eye i j := by
  rw [← eye_word i j]
  show FloatOps.uitofp (F := Ideal) .f32 (IntOp.cmpi .eq (IntOp.addi (BitVec.ofNat 32 i.val) _) (BitVec.ofNat 32 j.val)) = _
  rw [StableHlo.Predicate.bcast_scalar _ Cert.Pre_finite_inputs.Facts.h_S_]
  rfl

/-- The printed row sum of adj + I, from zero, at row i is the degree of row i. -/
theorem rowsum_apply [Cert.Pre_finite_inputs.Facts] (a1 E : FVec Ideal Cert.Pre_finite_inputs.S8192x8192 .f32)
    (hE : ∀ i j : Fin 8192, E (ix2 i j) = Cert.Spec.eye i j) (i : Fin 8192) :
    Host.reduceAdd (addf a1 E) (constant Cert.Pre_finite_inputs.S_ .f32 0x00000000#32)
        Cert.Pre_finite_inputs.Facts.reducesTo_S8192x8192_S8192_d1 Cert.Pre_finite_inputs.Facts.h_S_ (ix1 i)
      = Cert.Spec.deg (fun i j => a1 (ix2 i j)) i := by
  simp only [Host.reduceAdd, Ideal.hostReduceAdd_def]
  rw [Ideal.hostReduceAdd_single Cert.Pre_finite_inputs.Facts.reducesTo_S8192x8192_S8192_d1 (by decide)]
  unfold Cert.Spec.deg
  rw [constant_apply, Ideal.ofBits_zero_f32, zero_add]
  refine Finset.sum_congr (s₂ := (Finset.univ : Finset (Fin 8192))) rfl fun (k : Fin 8192) _ => ?_
  rw [addf_apply]
  have hk : ∀ idx : Cert.Pre_finite_inputs.S8192x8192.Idx, idx = ix2 i k →
      a1 idx + E idx = a1 (ix2 i k) + Cert.Spec.eye i k := by
    intro idx hidx; rw [hidx, hE]
  exact hk _ (funext fun a => Fin.ext (by match a with | ⟨0, _⟩ => rfl | ⟨1, _⟩ => rfl))

/-- The printed precondition, at the ideal instance, says of the adjacency matrix that every row's degree (with the
    self loop) is positive. -/
theorem deg_pos [Cert.Pre_finite_inputs.Facts]
    (a0 : FVec Ideal Cert.Pre_finite_inputs.S512x8192 .f32) (a1 : FVec Ideal Cert.Pre_finite_inputs.S8192x8192 .f32)
    (a2 : FVec Ideal Cert.Pre_finite_inputs.S512x128 .f32)
    (h : Cert.Pre_finite_inputs.fn (F := Ideal) a0 a1 a2 = (fun _ => 1#1)) (i : Fin 8192) :
    0 < Cert.Spec.deg (fun i j => a1 (ix2 i j)) i := by
  have h0 := congrFun h ValueIdx.ix0
  dsimp only [Cert.Pre_finite_inputs.fn, Cert.Pre_finite_inputs.fn_part1] at h0
  have h1 := (IntOp.andi_eq_one.1 h0).2
  haveI : Subsingleton Cert.Pre_finite_inputs.S_.Idx := ⟨fun a b => funext fun d => d.elim0⟩
  have h2 := Host.reduce_andi_all _ _ _ _ _ h1 (ix1 i)
  rw [cmpf_apply, Ideal.cmpf_def, rowsum_apply a1 _ eye_apply i,
    StableHlo.Predicate.bcast_scalar _ Cert.Pre_finite_inputs.Facts.h_S_, constant_apply, Ideal.ofBits_zero_f32] at h2
  have h3 : BitVec.ofBool (decide ((0 : EReal) < Cert.Spec.deg (fun i j => a1 (ix2 i j)) i)) = 1#1 := h2
  exact of_decide_eq_true ((StableHlo.Predicate.ofBool_eq_one_iff _).1 h3)

end Cert.PreRead

end
-- ==== Proof.lean ====
/-
  A graph-convolution layer: out = relu ((Wᵀ · inputs) · Â) and Â itself, where Â = D^(-1/2) (adj + I) D^(-1/2) and D
  is the diagonal of the row sums of adj + I.

  The kernel computes it in three regions — the product Wᵀ · inputs tile by tile; the row sums of adj, accumulated over
  column tiles; then, with d = (row sum + 1)^(-1/2) computed between the regions, each tile of Â = ((adj + I) · d_i) · d_j
  written out while (x · d_i) · (adj + I) is accumulated over row tiles and scaled by d_j at the end. The reference
  forms Â whole and multiplies once. Over the extended reals the two agree entry by entry: the sums are the same sums
  in another order, and the column factor d_j moves out of the sum because it is a non-negative real — which it is
  exactly where every row of adj + I has a positive sum, the domain of the reference's own inverse square root; the
  statement carries that as its precondition.

  The three frames: each program runs to the end, faults nowhere and leaves its arguments as launched; for the kernel's
  two readings that is the run of the three regions, for the reference its run with the results dropped.
-/
import proofs.«159752_j43112881717764_1_alg».proof.Defs
import proofs.«159752_j43112881717764_1_alg».proof.Proof.Gen.Kernel
import proofs.«159752_j43112881717764_1_alg».proof.Proof.Gen.KernelIdeal
import proofs.«159752_j43112881717764_1_alg».proof.Proof.Gen.ReferenceIdeal
import proofs.«159752_j43112881717764_1_alg».proof.Proof.Gen.Pre_finite_inputs
import proofs.«159752_j43112881717764_1_alg».proof.Proof.Gen.ReferenceIdeal.Run
import proofs.«159752_j43112881717764_1_alg».proof.Proof.Gen.ReferenceIdeal.Read
import proofs.«159752_j43112881717764_1_alg».proof.Proof.K.Run
import proofs.«159752_j43112881717764_1_alg».proof.Proof.KI.Run
import proofs.«159752_j43112881717764_1_alg».proof.Proof.KI.Chain
import proofs.«159752_j43112881717764_1_alg».proof.Proof.Ref
import proofs.«159752_j43112881717764_1_alg».proof.Proof.Pre
import Idealize.ShloMosaic.Adequacy
import Idealize.ShloMosaic.Init

noncomputable section

namespace Cert.Proof

open Idealize.ShloMosaic Idealize.ShloMosaic.TcCoe Idealize.SL.Sem ValueIdx

theorem frame_k [Cert.Kernel.Facts] [Cert.Pre_finite_inputs.Facts] : Cert.frame_Kernel := fun m ρ _ =>
  (θ_run (Cert.Kernel.defs (F := Bits)) _ _).mono (fun _ h c => ⟨(h c).2.2.1, (h c).2.2.2.1, (h c).2.2.2.2⟩)
    (Cert.Kernel.Hand.run_main (F := Bits) m ρ)

theorem frame_ki [Cert.KernelIdeal.Facts] [Cert.Pre_finite_inputs.Facts] : Cert.frame_KernelIdeal := fun m ρ _ =>
  (θ_run (Cert.KernelIdeal.defs (F := Ideal)) _ _).mono (fun _ h c => ⟨(h c).2.2.1, (h c).2.2.2.1, (h c).2.2.2.2⟩)
    (Cert.KernelIdeal.Hand.run_main (F := Ideal) m ρ)

theorem frame_ri [Cert.ReferenceIdeal.Facts] [Cert.Pre_finite_inputs.Facts] : Cert.frame_ReferenceIdeal := fun m ρ _ =>
  (θ_run (Cert.ReferenceIdeal.defs (F := Ideal)) _ _).mono (fun _ h c => (h c).2.2)
    (Cert.ReferenceIdeal.Value.run (F := Ideal) m ρ)

/-- Both programs end with the mathematics' two arrays of the launch memory: the kernel's by its run and the value of
    its regions, the reference's by its run read entry by entry; the precondition gives the positive degrees. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.X2o m c, fun c => Cert.KernelIdeal.Hand.X2a m c,
    Cert.KernelIdeal.Hand.run_main (F := Ideal) m ρ, ?_⟩
  refine (θ_run (Cert.ReferenceIdeal.defs (F := Ideal)) _ _).mono (fun _ h c => ⟨(h c).1.trans ?_, (h c).2.1.trans ?_, (h c).2.2⟩)
    (Cert.ReferenceIdeal.Value.run (F := Ideal) m' ρ')
  · rw [Cert.ReferenceIdeal.Read.val_main_v17_eq, (hagree c).1, (hagree c).2.1, (hagree c).2.2]
    funext p
    obtain ⟨o, j, rfl⟩ : ∃ (o : Fin 128) (j : Fin 8192), p = ix2 o j := ⟨p 0, p 1, eq_ix2 p⟩
    rw [Cert.ReferenceIdeal.RefValue.ref_out]
    exact (Cert.KernelIdeal.Hand.kernel_out m c (fun j => Cert.PreRead.deg_pos _ _ _ (hpre c) j) o j).symm
  · rw [Cert.ReferenceIdeal.Read.val_main_v14_eq, (hagree c).2.1]
    funext p
    obtain ⟨i, j, rfl⟩ : ∃ (i : Fin 8192) (j : Fin 8192), p = ix2 i j := ⟨p 0, p 1, eq_ix2 p⟩
    rw [Cert.ReferenceIdeal.RefValue.ref_adjn]
    exact (Cert.KernelIdeal.Hand.kernel_adjn m c i j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
